-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x32x32 : Shape := ⟨3, ![1024, 32, 32]⟩
abbrev S1024x32x1 : Shape := ⟨3, ![1024, 32, 1]⟩
abbrev S128x64 : Shape := ⟨2, ![128, 64]⟩
abbrev S128x32 : Shape := ⟨2, ![128, 32]⟩
abbrev S128x128 : Shape := ⟨2, ![128, 128]⟩
abbrev S64x128 : Shape := ⟨2, ![64, 128]⟩
abbrev S64x32 : Shape := ⟨2, ![64, 32]⟩
abbrev S2x64 : Shape := ⟨2, ![2, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x32x32 : S_.BroadcastsInDim S1024x32x32 (![] : Fin 0 → Fin S1024x32x32.rank)
  reducesTo_S1024x32x32_S_d0_1_2 : S1024x32x32.ReducesTo [0, 1, 2] S_
  bcast_S_S128x64 : S_.BroadcastsInDim S128x64 (![] : Fin 0 → Fin S128x64.rank)
  reducesTo_S128x64_S_d0_1 : S128x64.ReducesTo [0, 1] S_
  bcast_S_S128x32 : S_.BroadcastsInDim S128x32 (![] : Fin 0 → Fin S128x32.rank)
  reducesTo_S128x32_S_d0_1 : S128x32.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64x32 : S_.BroadcastsInDim S64x32 (![] : Fin 0 → Fin S64x32.rank)
  reducesTo_S64x32_S_d0_1 : S64x32.ReducesTo [0, 1] S_
  bcast_S_S2x64 : S_.BroadcastsInDim S2x64 (![] : Fin 0 → Fin S2x64.rank)
  reducesTo_S2x64_S_d0_1 : S2x64.ReducesTo [0, 1] S_
  bcast_S_S1024x32x1 : S_.BroadcastsInDim S1024x32x1 (![] : Fin 0 → Fin S1024x32x1.rank)
  reducesTo_S1024x32x1_S_d0_1_2 : S1024x32x1.ReducesTo [0, 1, 2] S_

variable [Facts]

def fn_part5 {F : FTy → Type} [FloatOps F] (main_arg5 : IVec S1024x32x1 32) (main_v82 : IVec S_ 1) (main_v84 : IVec S1024x32x1 1) : IVec S_ 1 :=
  let main_c_33 : IVec S_ 1 := constantI S_ 1 1#1
  let main_v85 : IVec S_ 1 := (fun x v => Host.reduce IntOp.andi x v reducesTo_S1024x32x1_S_d0_1_2 h_S_) main_v84 main_c_33
  let main_v86 : IVec S_ 1 := andi main_v82 main_v85
  let main_c_34 : IVec S_ 32 := constantI S_ 32 0#32
  let main_v87 : IVec S1024x32x1 32 := broadcastInDim S1024x32x1 ![] bcast_S_S1024x32x1 main_c_34
  let main_v88 : IVec S1024x32x1 1 := cmpi .sge main_arg5 main_v87
  let main_c_35 : IVec S_ 1 := constantI S_ 1 1#1
  let main_v89 : IVec S_ 1 := (fun x v => Host.reduce IntOp.andi x v reducesTo_S1024x32x1_S_d0_1_2 h_S_) main_v88 main_c_35
  let main_v90 : IVec S_ 1 := andi main_v86 main_v89
  let main_c_36 : IVec S_ 32 := constantI S_ 32 1024#32
  let main_v91 : IVec S1024x32x1 32 := broadcastInDim S1024x32x1 ![] bcast_S_S1024x32x1 main_c_36
  let main_v92 : IVec S1024x32x1 1 := cmpi .slt main_arg5 main_v91
  let main_c_37 : IVec S_ 1 := constantI S_ 1 1#1
  let main_v93 : IVec S_ 1 := (fun x v => Host.reduce IntOp.andi x v reducesTo_S1024x32x1_S_d0_1_2 h_S_) main_v92 main_c_37
  let main_v94 : IVec S_ 1 := andi main_v90 main_v93
  main_v94

def fn_part4 {F : FTy → Type} [FloatOps F] (main_arg2 : IVec S1024x32x1 32) (main_arg5 : IVec S1024x32x1 32) (main_arg16 : FVec F S64x128 .f32) (main_arg17 : FVec F S2x64 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S2x64 .f32 := Host.absf main_arg17
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_c_30 : IVec S_ 32 := constantI S_ 32 0#32
  let main_v79 : IVec S1024x32x1 32 := broadcastInDim S1024x32x1 ![] bcast_S_S1024x32x1 main_c_30
  let main_v80 : IVec S1024x32x1 1 := cmpi .sge main_arg2 main_v79
  let main_c_31 : IVec S_ 1 := constantI S_ 1 1#1
  let main_v81 : IVec S_ 1 := (fun x v => Host.reduce IntOp.andi x v reducesTo_S1024x32x1_S_d0_1_2 h_S_) main_v80 main_c_31
  let main_v82 : IVec S_ 1 := andi main_v78 main_v81
  let main_c_32 : IVec S_ 32 := constantI S_ 32 1024#32
  let main_v83 : IVec S1024x32x1 32 := broadcastInDim S1024x32x1 ![] bcast_S_S1024x32x1 main_c_32
  let main_v84 : IVec S1024x32x1 1 := cmpi .slt main_arg2 main_v83
  fn_part5 (F := F) main_arg5 main_v82 main_v84

def fn_part3 {F : FTy → Type} [FloatOps F] (main_arg2 : IVec S1024x32x1 32) (main_arg5 : IVec S1024x32x1 32) (main_arg13 : FVec F S64x128 .f32) (main_arg14 : FVec F S64x32 .f32) (main_arg15 : FVec F S128x64 .f32) (main_arg16 : FVec F S64x128 .f32) (main_arg17 : FVec F S2x64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg2 main_arg5 main_arg16 main_arg17 main_v63 main_v67

def fn_part2 {F : FTy → Type} [FloatOps F] (main_arg2 : IVec S1024x32x1 32) (main_arg5 : IVec S1024x32x1 32) (main_arg9 : FVec F S128x128 .f32) (main_arg10 : FVec F S128x128 .f32) (main_arg11 : FVec F S128x32 .f32) (main_arg12 : FVec F S64x128 .f32) (main_arg13 : FVec F S64x128 .f32) (main_arg14 : FVec F S64x32 .f32) (main_arg15 : FVec F S128x64 .f32) (main_arg16 : FVec F S64x128 .f32) (main_arg17 : FVec F S2x64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg2 main_arg5 main_arg13 main_arg14 main_arg15 main_arg16 main_arg17 main_v48 main_v49 main_v50

def fn_part1 {F : FTy → Type} [FloatOps F] (main_arg2 : IVec S1024x32x1 32) (main_arg5 : IVec S1024x32x1 32) (main_arg6 : FVec F S128x64 .f32) (main_arg7 : FVec F S128x64 .f32) (main_arg8 : FVec F S128x32 .f32) (main_arg9 : FVec F S128x128 .f32) (main_arg10 : FVec F S128x128 .f32) (main_arg11 : FVec F S128x32 .f32) (main_arg12 : FVec F S64x128 .f32) (main_arg13 : FVec F S64x128 .f32) (main_arg14 : FVec F S64x32 .f32) (main_arg15 : FVec F S128x64 .f32) (main_arg16 : FVec F S64x128 .f32) (main_arg17 : FVec F S2x64 .f32) (main_v13 : IVec S_ 1) (main_v16 : IVec S1024x32x32 1) : IVec S_ 1 :=
  let main_c_5 : IVec S_ 1 := constantI S_ 1 1#1
  let main_v17 : IVec S_ 1 := (fun x v => Host.reduce IntOp.andi x v reducesTo_S1024x32x32_S_d0_1_2 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x32 .f32 := Host.absf main_arg8
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg2 main_arg5 main_arg9 main_arg10 main_arg11 main_arg12 main_arg13 main_arg14 main_arg15 main_arg16 main_arg17 main_v33

def fn {F : FTy → Type} [FloatOps F] (main_arg0 : FVec F S1024x64 .f32) (main_arg1 : FVec F S1024x32x32 .f32) (main_arg2 : IVec S1024x32x1 32) (main_arg3 : FVec F S1024x64 .f32) (main_arg4 : FVec F S1024x32x32 .f32) (main_arg5 : IVec S1024x32x1 32) (main_arg6 : FVec F S128x64 .f32) (main_arg7 : FVec F S128x64 .f32) (main_arg8 : FVec F S128x32 .f32) (main_arg9 : FVec F S128x128 .f32) (main_arg10 : FVec F S128x128 .f32) (main_arg11 : FVec F S128x32 .f32) (main_arg12 : FVec F S64x128 .f32) (main_arg13 : FVec F S64x128 .f32) (main_arg14 : FVec F S64x32 .f32) (main_arg15 : FVec F S128x64 .f32) (main_arg16 : FVec F S64x128 .f32) (main_arg17 : FVec F S2x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x32x32 .f32 := Host.absf main_arg1
  let main_cst_0 : FVec F S_ .f32 := constant S_ .f32 0x7F800000#32
  let main_v5 : FVec F S1024x32x32 .f32 := broadcastInDim S1024x32x32 ![] bcast_S_S1024x32x32 main_cst_0
  let main_v6 : IVec S1024x32x32 1 := cmpf .olt main_v4 main_v5
  let main_c_1 : IVec S_ 1 := constantI S_ 1 1#1
  let main_v7 : IVec S_ 1 := (fun x v => Host.reduce IntOp.andi x v reducesTo_S1024x32x32_S_d0_1_2 h_S_) main_v6 main_c_1
  let main_v8 : IVec S_ 1 := andi main_v3 main_v7
  let main_v9 : FVec F S1024x64 .f32 := Host.absf main_arg3
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x32x32 .f32 := Host.absf main_arg4
  let main_cst_4 : FVec F S_ .f32 := constant S_ .f32 0x7F800000#32
  let main_v15 : FVec F S1024x32x32 .f32 := broadcastInDim S1024x32x32 ![] bcast_S_S1024x32x32 main_cst_4
  let main_v16 : IVec S1024x32x32 1 := cmpf .olt main_v14 main_v15
  fn_part1 (F := F) main_arg2 main_arg5 main_arg6 main_arg7 main_arg8 main_arg9 main_arg10 main_arg11 main_arg12 main_arg13 main_arg14 main_arg15 main_arg16 main_arg17 main_v13 main_v16
-- ==== Kernel.lean ====
abbrev S1024x64 : Shape := ⟨2, ![1024, 64]⟩
abbrev S1024x32x32 : Shape := ⟨3, ![1024, 32, 32]⟩
abbrev S1024x32x1 : Shape := ⟨3, ![1024, 32, 1]⟩
abbrev S128x64 : Shape := ⟨2, ![128, 64]⟩
abbrev S128x32 : Shape := ⟨2, ![128, 32]⟩
abbrev S128x128 : Shape := ⟨2, ![128, 128]⟩
abbrev S64x128 : Shape := ⟨2, ![64, 128]⟩
abbrev S64x32 : Shape := ⟨2, ![64, 32]⟩
abbrev S2x64 : Shape := ⟨2, ![2, 64]⟩
abbrev S1024x32 : Shape := ⟨2, ![1024, 32]⟩
abbrev S_ : Shape := ⟨0, ![]⟩
abbrev S1x1024x64 : Shape := ⟨3, ![1, 1024, 64]⟩
abbrev S2x1024x64 : Shape := ⟨3, ![2, 1024, 64]⟩
abbrev S1x1024x32 : Shape := ⟨3, ![1, 1024, 32]⟩
abbrev S2x1024x32 : Shape := ⟨3, ![2, 1024, 32]⟩
abbrev S32x128 : Shape := ⟨2, ![32, 128]⟩
abbrev S32x64 : Shape := ⟨2, ![32, 64]⟩
abbrev S2x64x1024 : Shape := ⟨3, ![2, 64, 1024]⟩
abbrev S1x64x1024 : Shape := ⟨3, ![1, 64, 1024]⟩
abbrev S1024x1024 : Shape := ⟨2, ![1024, 1024]⟩
abbrev S1024x1 : Shape := ⟨2, ![1024, 1]⟩
abbrev S1024x128 : Shape := ⟨2, ![1024, 128]⟩
abbrev S64x1024 : Shape := ⟨2, ![64, 1024]⟩
abbrev S128x1024 : Shape := ⟨2, ![128, 1024]⟩
abbrev S2x1024x1024 : Shape := ⟨3, ![2, 1024, 1024]⟩
abbrev S128x256 : Shape := ⟨2, ![128, 256]⟩
abbrev S2x256x128 : Shape := ⟨3, ![2, 256, 128]⟩
abbrev S128x256x1 : Shape := ⟨3, ![128, 256, 1]⟩
abbrev S128x1x128 : Shape := ⟨3, ![128, 1, 128]⟩
abbrev S128x256x128 : Shape := ⟨3, ![128, 256, 128]⟩
abbrev S128x32768 : Shape := ⟨2, ![128, 32768]⟩
abbrev S64x32768 : Shape := ⟨2, ![64, 32768]⟩
abbrev S2x32768 : Shape := ⟨2, ![2, 32768]⟩
abbrev S2x1048576 : Shape := ⟨2, ![2, 1048576]⟩

abbrev nBuf : Space → Nat
  | .hbm => 83
  | .vmem => 25
  | .smem => 0
  | _ => 0

abbrev bufTy : (tb : Table) → Fin (tcTables nBuf tb) → BufTy
  | .hbm, ⟨0, _⟩ => ⟨S1024x64, .f32⟩
  | .hbm, ⟨1, _⟩ => ⟨S1024x32x32, .f32⟩
  | .hbm, ⟨2, _⟩ => ⟨S1024x32x1, .i32⟩
  | .hbm, ⟨3, _⟩ => ⟨S1024x64, .f32⟩
  | .hbm, ⟨4, _⟩ => ⟨S1024x32x32, .f32⟩
  | .hbm, ⟨5, _⟩ => ⟨S1024x32x1, .i32⟩
  | .hbm, ⟨6, _⟩ => ⟨S128x64, .f32⟩
  | .hbm, ⟨7, _⟩ => ⟨S128x64, .f32⟩
  | .hbm, ⟨8, _⟩ => ⟨S128x32, .f32⟩
  | .hbm, ⟨9, _⟩ => ⟨S128x128, .f32⟩
  | .hbm, ⟨10, _⟩ => ⟨S128x128, .f32⟩
  | .hbm, ⟨11, _⟩ => ⟨S128x32, .f32⟩
  | .hbm, ⟨12, _⟩ => ⟨S64x128, .f32⟩
  | .hbm, ⟨13, _⟩ => ⟨S64x128, .f32⟩
  | .hbm, ⟨14, _⟩ => ⟨S64x32, .f32⟩
  | .hbm, ⟨15, _⟩ => ⟨S128x64, .f32⟩
  | .hbm, ⟨16, _⟩ => ⟨S64x128, .f32⟩
  | .hbm, ⟨17, _⟩ => ⟨S2x64, .f32⟩
  | .hbm, ⟨18, _⟩ => ⟨S1024x32, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x32, .i32⟩
  | .hbm, ⟨23, _⟩ => ⟨S1024x32, .i32⟩
  | .hbm, ⟨24, _⟩ => ⟨S_, .i32⟩
  | .hbm, ⟨25, _⟩ => ⟨S1024x32, .i32⟩
  | .hbm, ⟨26, _⟩ => ⟨S1024x32, .i32⟩
  | .hbm, ⟨27, _⟩ => ⟨S1024x32, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1024x32, .i32⟩
  | .hbm, ⟨32, _⟩ => ⟨S1024x32, .i32⟩
  | .hbm, ⟨33, _⟩ => ⟨S_, .i32⟩
  | .hbm, ⟨34, _⟩ => ⟨S1024x32, .i32⟩
  | .hbm, ⟨35, _⟩ => ⟨S1024x32, .i32⟩
  | .hbm, ⟨36, _⟩ => ⟨S_, .f32⟩
  | .hbm, ⟨37, _⟩ => ⟨S1024x32, .f32⟩
  | .hbm, ⟨38, _⟩ => ⟨S_, .f32⟩
  | .hbm, ⟨39, _⟩ => ⟨S1024x32, .f32⟩
  | .hbm, ⟨40, _⟩ => ⟨S1024x32, .f32⟩
  | .hbm, ⟨41, _⟩ => ⟨S1024x32, .bf16⟩
  | .hbm, ⟨42, _⟩ => ⟨S_, .f32⟩
  | .hbm, ⟨43, _⟩ => ⟨S1024x32, .f32⟩
  | .hbm, ⟨44, _⟩ => ⟨S_, .f32⟩
  | .hbm, ⟨45, _⟩ => ⟨S1024x32, .f32⟩
  | .hbm, ⟨46, _⟩ => ⟨S1024x32, .f32⟩
  | .hbm, ⟨47, _⟩ => ⟨S1024x32, .bf16⟩
  | .hbm, ⟨48, _⟩ => ⟨S1x1024x64, .f32⟩
  | .hbm, ⟨49, _⟩ => ⟨S1x1024x64, .f32⟩
  | .hbm, ⟨50, _⟩ => ⟨S2x1024x64, .f32⟩
  | .hbm, ⟨51, _⟩ => ⟨S1x1024x32, .i32⟩
  | .hbm, ⟨52, _⟩ => ⟨S1x1024x32, .i32⟩
  | .hbm, ⟨53, _⟩ => ⟨S2x1024x32, .i32⟩
  | .hbm, ⟨54, _⟩ => ⟨S1x1024x32, .bf16⟩
  | .hbm, ⟨55, _⟩ => ⟨S1x1024x32, .bf16⟩
  | .hbm, ⟨56, _⟩ => ⟨S2x1024x32, .bf16⟩
  | .hbm, ⟨57, _⟩ => ⟨S64x128, .f32⟩
  | .hbm, ⟨58, _⟩ => ⟨S64x128, .f32⟩
  | .hbm, ⟨59, _⟩ => ⟨S32x128, .f32⟩
  | .hbm, ⟨60, _⟩ => ⟨S128x128, .f32⟩
  | .hbm, ⟨61, _⟩ => ⟨S128x128, .f32⟩
  | .hbm, ⟨62, _⟩ => ⟨S32x128, .f32⟩
  | .hbm, ⟨63, _⟩ => ⟨S128x64, .f32⟩
  | .hbm, ⟨64, _⟩ => ⟨S128x64, .f32⟩
  | .hbm, ⟨65, _⟩ => ⟨S32x64, .f32⟩
  | .hbm, ⟨66, _⟩ => ⟨S2x64x1024, .f32⟩
  | .hbm, ⟨67, _⟩ => ⟨S1x64x1024, .f32⟩
  | .hbm, ⟨68, _⟩ => ⟨S64x1024, .f32⟩
  | .hbm, ⟨69, _⟩ => ⟨S1x64x1024, .f32⟩
  | .hbm, ⟨70, _⟩ => ⟨S64x1024, .f32⟩
  | .hbm, ⟨71, _⟩ => ⟨S128x1024, .f32⟩
  | .hbm, ⟨72, _⟩ => ⟨S_, .f32⟩
  | .hbm, ⟨73, _⟩ => ⟨S128x1024, .f32⟩
  | .hbm, ⟨74, _⟩ => ⟨S128x1024, .f32⟩
  | .hbm, ⟨75, _⟩ => ⟨S128x1024, .bf16⟩
  | .hbm, ⟨76, _⟩ => ⟨S128x1024, .f32⟩
  | .hbm, ⟨77, _⟩ => ⟨S_, .f32⟩
  | .hbm, ⟨78, _⟩ => ⟨S128x1024, .f32⟩
  | .hbm, ⟨79, _⟩ => ⟨S128x1024, .f32⟩
  | .hbm, ⟨80, _⟩ => ⟨S128x1024, .bf16⟩
  | .hbm, ⟨81, _⟩ => ⟨S2x1024x1024, .f32⟩
  | .hbm, ⟨82, _⟩ => ⟨S2x1048576, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x32, .i32⟩
  | .local _ .vmem, ⟨3, _⟩ => ⟨S1x1024x32, .i32⟩
  | .local _ .vmem, ⟨4, _⟩ => ⟨S1x1024x32, .bf16⟩
  | .local _ .vmem, ⟨5, _⟩ => ⟨S1x1024x32, .bf16⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S128x128, .f32⟩
  | .local _ .vmem, ⟨10, _⟩ => ⟨S128x128, .f32⟩
  | .local _ .vmem, ⟨11, _⟩ => ⟨S32x128, .f32⟩
  | .local _ .vmem, ⟨12, _⟩ => ⟨S128x64, .f32⟩
  | .local _ .vmem, ⟨13, _⟩ => ⟨S128x64, .f32⟩
  | .local _ .vmem, ⟨14, _⟩ => ⟨S32x64, .f32⟩
  | .local _ .vmem, ⟨15, _⟩ => ⟨S1x64x1024, .f32⟩
  | .local _ .vmem, ⟨16, _⟩ => ⟨S1x64x1024, .f32⟩
  | .local _ .vmem, ⟨17, _⟩ => ⟨S128x256, .bf16⟩
  | .local _ .vmem, ⟨18, _⟩ => ⟨S128x256, .bf16⟩
  | .local _ .vmem, ⟨19, _⟩ => ⟨S128x128, .bf16⟩
  | .local _ .vmem, ⟨20, _⟩ => ⟨S128x128, .bf16⟩
  | .local _ .vmem, ⟨21, _⟩ => ⟨S64x128, .f32⟩
  | .local _ .vmem, ⟨22, _⟩ => ⟨S2x64, .f32⟩
  | .local _ .vmem, ⟨23, _⟩ => ⟨S2x256x128, .f32⟩
  | .local _ .vmem, ⟨24, _⟩ => ⟨S2x256x128, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v1 : Ref sig .tc := ⟨.hbm, 26, rfl⟩
abbrev main_v2 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_cst_3 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_4 : Ref sig .tc := ⟨.hbm, 42, rfl⟩
abbrev main_v8 : Ref sig .tc := ⟨.hbm, 43, rfl⟩
abbrev main_cst_5 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S1024x32x1_S1024x32 : S1024x32x1.ShapeCasts S1024x32
  bcast_S_S1024x32 : S_.BroadcastsInDim S1024x32 (![] : Fin 0 → Fin S1024x32.rank)
  reducesTo_S1024x32x32_S1024x32_d1 : S1024x32x32.ReducesTo [1] S1024x32
  h_S_ : 0 < S_.numel
  bitsLt_bf16_f32 : FTy.bits .bf16 < FTy.bits .f32
  bcast_S1024x64_S1x1024x64_1_2 : S1024x64.BroadcastsInDim S1x1024x64 (![1, 2] : Fin 2 → Fin S1x1024x64.rank)
  concatenates_S1x1024x64_S1x1024x64_S2x1024x64_d0 : Shape.Concatenates [S1x1024x64, S1x1024x64] S2x1024x64 0
  bcast_S1024x32_S1x1024x32_1_2 : S1024x32.BroadcastsInDim S1x1024x32 (![1, 2] : Fin 2 → Fin S1x1024x32.rank)
  concatenates_S1x1024x32_S1x1024x32_S2x1024x32_d0 : Shape.Concatenates [S1x1024x32, S1x1024x32] S2x1024x32 0
  transposes_S128x64_S64x128_1_0 : S128x64.Transposes [1, 0] S64x128
  transposes_S128x32_S32x128_1_0 : S128x32.Transposes [1, 0] S32x128
  transposes_S128x128_S128x128_1_0 : S128x128.Transposes [1, 0] S128x128
  transposes_S64x128_S128x64_1_0 : S64x128.Transposes [1, 0] S128x64
  transposes_S64x32_S32x64_1_0 : S64x32.Transposes [1, 0] S32x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  iota_S1024x1024_d1_w32 : S1024x1024.Iotas .tc 32 [1]
  slices_S1024x32_o0_0_S1024x1 : S1024x32.Slices ![0, 0] S1024x1
  broadcasts_S1024x1_S1024x1024 : S1024x1.Broadcasts S1024x1024
  natLt_1_32 : 1 < 32
  slices_S1024x32_o0_1_S1024x1 : S1024x32.Slices ![0, 1] S1024x1
  slices_S1024x32_o0_2_S1024x1 : S1024x32.Slices ![0, 2] S1024x1
  slices_S1024x32_o0_3_S1024x1 : S1024x32.Slices ![0, 3] S1024x1
  slices_S1024x32_o0_4_S1024x1 : S1024x32.Slices ![0, 4] S1024x1
  slices_S1024x32_o0_5_S1024x1 : S1024x32.Slices ![0, 5] S1024x1
  slices_S1024x32_o0_6_S1024x1 : S1024x32.Slices ![0, 6] S1024x1
  slices_S1024x32_o0_7_S1024x1 : S1024x32.Slices ![0, 7] S1024x1
  slices_S1024x32_o0_8_S1024x1 : S1024x32.Slices ![0, 8] S1024x1
  slices_S1024x32_o0_9_S1024x1 : S1024x32.Slices ![0, 9] S1024x1
  slices_S1024x32_o0_10_S1024x1 : S1024x32.Slices ![0, 10] S1024x1
  slices_S1024x32_o0_11_S1024x1 : S1024x32.Slices ![0, 11] S1024x1
  slices_S1024x32_o0_12_S1024x1 : S1024x32.Slices ![0, 12] S1024x1
  slices_S1024x32_o0_13_S1024x1 : S1024x32.Slices ![0, 13] S1024x1
  slices_S1024x32_o0_14_S1024x1 : S1024x32.Slices ![0, 14] S1024x1
  slices_S1024x32_o0_15_S1024x1 : S1024x32.Slices ![0, 15] S1024x1
  slices_S1024x32_o0_16_S1024x1 : S1024x32.Slices ![0, 16] S1024x1
  slices_S1024x32_o0_17_S1024x1 : S1024x32.Slices ![0, 17] S1024x1
  slices_S1024x32_o0_18_S1024x1 : S1024x32.Slices ![0, 18] S1024x1
  slices_S1024x32_o0_19_S1024x1 : S1024x32.Slices ![0, 19] S1024x1
  slices_S1024x32_o0_20_S1024x1 : S1024x32.Slices ![0, 20] S1024x1
  slices_S1024x32_o0_21_S1024x1 : S1024x32.Slices ![0, 21] S1024x1
  slices_S1024x32_o0_22_S1024x1 : S1024x32.Slices ![0, 22] S1024x1
  slices_S1024x32_o0_23_S1024x1 : S1024x32.Slices ![0, 23] S1024x1
  slices_S1024x32_o0_24_S1024x1 : S1024x32.Slices ![0, 24] S1024x1
  slices_S1024x32_o0_25_S1024x1 : S1024x32.Slices ![0, 25] S1024x1
  slices_S1024x32_o0_26_S1024x1 : S1024x32.Slices ![0, 26] S1024x1
  slices_S1024x32_o0_27_S1024x1 : S1024x32.Slices ![0, 27] S1024x1
  slices_S1024x32_o0_28_S1024x1 : S1024x32.Slices ![0, 28] S1024x1
  slices_S1024x32_o0_29_S1024x1 : S1024x32.Slices ![0, 29] S1024x1
  slices_S1024x32_o0_30_S1024x1 : S1024x32.Slices ![0, 30] S1024x1
  slices_S1024x32_o0_31_S1024x1 : S1024x32.Slices ![0, 31] S1024x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  transposes_S1024x64_p1_0_S64x1024 : S1024x64.Transposes [1, 0] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  slices_S2x64x1024_S1x64x1024_0_0_0 : S2x64x1024.Slices ![0, 0, 0] S1x64x1024
  slices_S2x64x1024_S1x64x1024_1_0_0 : S2x64x1024.Slices ![1, 0, 0] S1x64x1024
  bcast_S_S128x1024 : S_.BroadcastsInDim S128x1024 (![] : Fin 0 → Fin S128x1024.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S128x256x1 : S128x256.ShapeCasts S128x256x1
  shapeCasts_S128x128_S128x1x128 : S128x128.ShapeCasts S128x1x128
  broadcasts_S128x256x1_S128x256x128 : S128x256x1.Broadcasts S128x256x128
  broadcasts_S128x1x128_S128x256x128 : S128x1x128.Broadcasts S128x256x128
  shapeCasts_S128x256x128_S128x32768 : S128x256x128.ShapeCasts S128x32768
  inb_S2x64_S2x64_0_0 : ∀ a, (![0, 0] : Fin 2 → Nat) a + S2x64.size a ≤ S2x64.size a
  h_S2x64 : 0 < S2x64.numel
  shapeCasts_S2x32768_S2x256x128 : S2x32768.ShapeCasts S2x256x128
  inb_S2x256x128_S2x256x128_0_0_0 : ∀ a, (![0, 0, 0] : Fin 3 → Nat) a + S2x256x128.size a ≤ S2x256x128.size a
  h_S2x256x128 : 0 < S2x256x128.numel
  shapeCasts_S2x1024x1024_S2x1048576 : S2x1024x1024.ShapeCasts S2x1048576
  dot_S1024x1024_S1024x64_S1024x64_1_0_0_1_n_n_wf : DotDims.WF S1024x1024 S1024x64 S1024x64 [1] [0] [0] [1] [] []
  dot_S1024x64_S64x128_S1024x128_1_0_0_1_n_n_wf : DotDims.WF S1024x64 S64x128 S1024x128 [1] [0] [0] [1] [] []
  dot_S1024x32_S32x128_S1024x128_1_0_0_1_n_n_wf : DotDims.WF S1024x32 S32x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x32_S32x64_S1024x64_1_0_0_1_n_n_wf : DotDims.WF S1024x32 S32x64 S1024x64 [1] [0] [0] [1] [] []
  dot_S128x64_S64x1024_S128x1024_1_0_0_1_n_n_wf : DotDims.WF S128x64 S64x1024 S128x1024 [1] [0] [0] [1] [] []
  dot_S64x128_S128x32768_S64x32768_1_0_0_1_n_n_wf : DotDims.WF S64x128 S128x32768 S64x32768 [1] [0] [0] [1] [] []
  dot_S2x64_S64x32768_S2x32768_1_0_0_1_n_n_wf : DotDims.WF S2x64 S64x32768 S2x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S2x1024x64.size a
  hwx0_0 : ∀ i : grid0.Coords, EltTy.bits .f32 = 32 ∨ (Rect.block (s := S2x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S2x1024x32.size a
  hwx0_1 : ∀ i : grid0.Coords, EltTy.bits .i32 = 32 ∨ (Rect.block (s := S2x1024x32) S1x1024x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x32.size a ≤ S2x1024x32.size a
  hwx0_2 : ∀ i : grid0.Coords, EltTy.bits .bf16 = 32 ∨ (Rect.block (s := S2x1024x32) S1x1024x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x64.size a ≤ S32x64.size a
  hwx0_11 : ∀ i : grid0.Coords, EltTy.bits .f32 = 32 ∨ (Rect.block (s := S32x64) S32x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x64x1024.size a ≤ S2x64x1024.size a
  hwx0_12 : ∀ i : grid0.Coords, EltTy.bits .f32 = 32 ∨ (Rect.block (s := S2x64x1024) S1x64x1024.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S128x1024.size a
  hwx1_0 : ∀ i : grid1.Coords, EltTy.bits .bf16 = 32 ∨ (Rect.block (s := S128x1024) S128x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x1024.size a
  hwx1_1 : ∀ i : grid1.Coords, EltTy.bits .bf16 = 32 ∨ (Rect.block (s := S128x1024) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x256x128.size a ≤ S2x1024x1024.size a
  hwx1_4 : ∀ i : grid1.Coords, EltTy.bits .f32 = 32 ∨ (Rect.block (s := S2x1024x1024) S2x256x128.size (cc1_transform_4 i) (hinb1_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S128x64_S64x1024_S128x1024_1_0_0_1_n_n : DotDims S128x64 S64x1024 S128x1024 where
  lhsContracting := [1]
  rhsContracting := [0]
  lhsNonContracting := [0]
  rhsNonContracting := [1]
  lhsBatch := []
  rhsBatch := []
  wf := dot_S128x64_S64x1024_S128x1024_1_0_0_1_n_n_wf
def dot_S64x128_S128x32768_S64x32768_1_0_0_1_n_n : DotDims S64x128 S128x32768 S64x32768 where
  lhsContracting := [1]
  rhsContracting := [0]
  lhsNonContracting := [0]
  rhsNonContracting := [1]
  lhsBatch := []
  rhsBatch := []
  wf := dot_S64x128_S128x32768_S64x32768_1_0_0_1_n_n_wf
def dot_S2x64_S64x32768_S2x32768_1_0_0_1_n_n : DotDims S2x64 S64x32768 S2x32768 where
  lhsContracting := [1]
  rhsContracting := [0]
  lhsNonContracting := [0]
  rhsNonContracting := [1]
  lhsBatch := []
  rhsBatch := []
  wf := dot_S2x64_S64x32768_S2x32768_1_0_0_1_n_n_wf

abbrev win0_0 : Pipeline.Window sig grid0 :=
  Pipeline.Window.ofSpec (Memref.whole main_v14) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S32x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v30) S1x64x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v38) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg16) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg17) S2x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x64 : Shape := ⟨2, ![1024, 64]⟩
abbrev S1024x32x32 : Shape := ⟨3, ![1024, 32, 32]⟩
abbrev S1024x32x1 : Shape := ⟨3, ![1024, 32, 1]⟩
abbrev S128x64 : Shape := ⟨2, ![128, 64]⟩
abbrev S128x32 : Shape := ⟨2, ![128, 32]⟩
abbrev S128x128 : Shape := ⟨2, ![128, 128]⟩
abbrev S64x128 : Shape := ⟨2, ![64, 128]⟩
abbrev S64x32 : Shape := ⟨2, ![64, 32]⟩
abbrev S2x64 : Shape := ⟨2, ![2, 64]⟩
abbrev S1024x32 : Shape := ⟨2, ![1024, 32]⟩
abbrev S_ : Shape := ⟨0, ![]⟩
abbrev S1024x32x64 : Shape := ⟨3, ![1024, 32, 64]⟩
abbrev S1024x128 : Shape := ⟨2, ![1024, 128]⟩
abbrev S32x128 : Shape := ⟨2, ![32, 128]⟩
abbrev S1024x32x128 : Shape := ⟨3, ![1024, 32, 128]⟩
abbrev S32x64 : Shape := ⟨2, ![32, 64]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1048576x64 : Shape := ⟨2, ![1048576, 64]⟩
abbrev S64x1048576 : Shape := ⟨2, ![64, 1048576]⟩
abbrev S128x1048576 : Shape := ⟨2, ![128, 1048576]⟩
abbrev S2x1048576 : Shape := ⟨2, ![2, 1048576]⟩

abbrev nBuf : Space → Nat
  | .hbm => 226
  | .vmem => 0
  | .smem => 0
  | _ => 0

abbrev hbmTy0_0 (i : Nat) : BufTy := match i % 128 with
  | 0 => ⟨S1024x64, .f32⟩
  | 1 => ⟨S1024x32x32, .f32⟩
  | 2 => ⟨S1024x32x1, .i32⟩
  | 3 => ⟨S1024x64, .f32⟩
  | 4 => ⟨S1024x32x32, .f32⟩
  | 5 => ⟨S1024x32x1, .i32⟩
  | 6 => ⟨S128x64, .f32⟩
  | 7 => ⟨S128x64, .f32⟩
  | 8 => ⟨S128x32, .f32⟩
  | 9 => ⟨S128x128, .f32⟩
  | 10 => ⟨S128x128, .f32⟩
  | 11 => ⟨S128x32, .f32⟩
  | 12 => ⟨S64x128, .f32⟩
  | 13 => ⟨S64x128, .f32⟩
  | 14 => ⟨S64x32, .f32⟩
  | 15 => ⟨S128x64, .f32⟩
  | 16 => ⟨S64x128, .f32⟩
  | 17 => ⟨S2x64, .f32⟩
  | 18 => ⟨S1024x32, .i32⟩
  | 19 => ⟨S_, .i32⟩
  | 20 => ⟨S1024x32, .i32⟩
  | 21 => ⟨S1024x32, .i1⟩
  | 22 => ⟨S_, .i32⟩
  | 23 => ⟨S1024x32, .i32⟩
  | 24 => ⟨S1024x32, .i32⟩
  | 25 => ⟨S1024x32, .i32⟩
  | 26 => ⟨S1024x32x1, .i32⟩
  | 27 => ⟨S1024x32x64, .f32⟩
  | 28 => ⟨S_, .f32⟩
  | 29 => ⟨S1024x64, .f32⟩
  | 30 => ⟨S_, .f32⟩
  | 31 => ⟨S1024x64, .f32⟩
  | 32 => ⟨S1024x64, .f32⟩
  | 33 => ⟨S_, .f32⟩
  | 34 => ⟨S1024x32, .f32⟩
  | 35 => ⟨S_, .f32⟩
  | 36 => ⟨S1024x32, .f32⟩
  | 37 => ⟨S1024x32, .f32⟩
  | 38 => ⟨S64x128, .f32⟩
  | 39 => ⟨S1024x128, .f32⟩
  | 40 => ⟨S64x128, .f32⟩
  | 41 => ⟨S1024x128, .f32⟩
  | 42 => ⟨S1024x128, .f32⟩
  | 43 => ⟨S32x128, .f32⟩
  | 44 => ⟨S1024x128, .f32⟩
  | 45 => ⟨S1024x128, .f32⟩
  | 46 => ⟨S_, .f32⟩
  | 47 => ⟨S1024x128, .f32⟩
  | 48 => ⟨S1024x128, .f32⟩
  | 49 => ⟨S1024x32, .i32⟩
  | 50 => ⟨S_, .i32⟩
  | 51 => ⟨S1024x32, .i32⟩
  | 52 => ⟨S1024x32, .i1⟩
  | 53 => ⟨S_, .i32⟩
  | 54 => ⟨S1024x32, .i32⟩
  | 55 => ⟨S1024x32, .i32⟩
  | 56 => ⟨S1024x32, .i32⟩
  | 57 => ⟨S1024x32x1, .i32⟩
  | 58 => ⟨S1024x32x128, .f32⟩
  | 59 => ⟨S_, .f32⟩
  | 60 => ⟨S1024x128, .f32⟩
  | 61 => ⟨S_, .f32⟩
  | 62 => ⟨S1024x128, .f32⟩
  | 63 => ⟨S1024x128, .f32⟩
  | 64 => ⟨S_, .f32⟩
  | 65 => ⟨S1024x32, .f32⟩
  | 66 => ⟨S_, .f32⟩
  | 67 => ⟨S1024x32, .f32⟩
  | 68 => ⟨S1024x32, .f32⟩
  | 69 => ⟨S128x128, .f32⟩
  | 70 => ⟨S1024x128, .f32⟩
  | 71 => ⟨S128x128, .f32⟩
  | 72 => ⟨S1024x128, .f32⟩
  | 73 => ⟨S1024x128, .f32⟩
  | 74 => ⟨S32x128, .f32⟩
  | 75 => ⟨S1024x128, .f32⟩
  | 76 => ⟨S1024x128, .f32⟩
  | 77 => ⟨S_, .f32⟩
  | 78 => ⟨S1024x128, .f32⟩
  | 79 => ⟨S1024x128, .f32⟩
  | 80 => ⟨S1024x32, .i32⟩
  | 81 => ⟨S_, .i32⟩
  | 82 => ⟨S1024x32, .i32⟩
  | 83 => ⟨S1024x32, .i1⟩
  | 84 => ⟨S_, .i32⟩
  | 85 => ⟨S1024x32, .i32⟩
  | 86 => ⟨S1024x32, .i32⟩
  | 87 => ⟨S1024x32, .i32⟩
  | 88 => ⟨S1024x32x1, .i32⟩
  | 89 => ⟨S1024x32x128, .f32⟩
  | 90 => ⟨S_, .f32⟩
  | 91 => ⟨S1024x128, .f32⟩
  | 92 => ⟨S_, .f32⟩
  | 93 => ⟨S1024x128, .f32⟩
  | 94 => ⟨S1024x128, .f32⟩
  | 95 => ⟨S_, .f32⟩
  | 96 => ⟨S1024x32, .f32⟩
  | 97 => ⟨S_, .f32⟩
  | 98 => ⟨S1024x32, .f32⟩
  | 99 => ⟨S1024x32, .f32⟩
  | 100 => ⟨S128x64, .f32⟩
  | 101 => ⟨S1024x64, .f32⟩
  | 102 => ⟨S128x64, .f32⟩
  | 103 => ⟨S1024x64, .f32⟩
  | 104 => ⟨S1024x64, .f32⟩
  | 105 => ⟨S32x64, .f32⟩
  | 106 => ⟨S1024x64, .f32⟩
  | 107 => ⟨S1024x64, .f32⟩
  | 108 => ⟨S_, .f32⟩
  | 109 => ⟨S1024x64, .f32⟩
  | 110 => ⟨S1024x64, .f32⟩
  | 111 => ⟨S1024x32, .i32⟩
  | 112 => ⟨S_, .i32⟩
  | 113 => ⟨S1024x32, .i32⟩
  | 114 => ⟨S1024x32, .i1⟩
  | 115 => ⟨S_, .i32⟩
  | 116 => ⟨S1024x32, .i32⟩
  | 117 => ⟨S1024x32, .i32⟩
  | 118 => ⟨S1024x32, .i32⟩
  | 119 => ⟨S1024x32x1, .i32⟩
  | 120 => ⟨S1024x32x64, .f32⟩
  | 121 => ⟨S_, .f32⟩
  | 122 => ⟨S1024x64, .f32⟩
  | 123 => ⟨S_, .f32⟩
  | 124 => ⟨S1024x64, .f32⟩
  | 125 => ⟨S1024x64, .f32⟩
  | 126 => ⟨S_, .f32⟩
  | 127 => ⟨S1024x32, .f32⟩
  | _ => ⟨S1024x64, .f32⟩

abbrev hbmTy0_1 (i : Nat) : BufTy := match i % 128 with
  | 0 => ⟨S_, .f32⟩
  | 1 => ⟨S1024x32, .f32⟩
  | 2 => ⟨S1024x32, .f32⟩
  | 3 => ⟨S64x128, .f32⟩
  | 4 => ⟨S1024x128, .f32⟩
  | 5 => ⟨S64x128, .f32⟩
  | 6 => ⟨S1024x128, .f32⟩
  | 7 => ⟨S1024x128, .f32⟩
  | 8 => ⟨S32x128, .f32⟩
  | 9 => ⟨S1024x128, .f32⟩
  | 10 => ⟨S1024x128, .f32⟩
  | 11 => ⟨S_, .f32⟩
  | 12 => ⟨S1024x128, .f32⟩
  | 13 => ⟨S1024x128, .f32⟩
  | 14 => ⟨S1024x32, .i32⟩
  | 15 => ⟨S_, .i32⟩
  | 16 => ⟨S1024x32, .i32⟩
  | 17 => ⟨S1024x32, .i1⟩
  | 18 => ⟨S_, .i32⟩
  | 19 => ⟨S1024x32, .i32⟩
  | 20 => ⟨S1024x32, .i32⟩
  | 21 => ⟨S1024x32, .i32⟩
  | 22 => ⟨S1024x32x1, .i32⟩
  | 23 => ⟨S1024x32x128, .f32⟩
  | 24 => ⟨S_, .f32⟩
  | 25 => ⟨S1024x128, .f32⟩
  | 26 => ⟨S_, .f32⟩
  | 27 => ⟨S1024x128, .f32⟩
  | 28 => ⟨S1024x128, .f32⟩
  | 29 => ⟨S_, .f32⟩
  | 30 => ⟨S1024x32, .f32⟩
  | 31 => ⟨S_, .f32⟩
  | 32 => ⟨S1024x32, .f32⟩
  | 33 => ⟨S1024x32, .f32⟩
  | 34 => ⟨S128x128, .f32⟩
  | 35 => ⟨S1024x128, .f32⟩
  | 36 => ⟨S128x128, .f32⟩
  | 37 => ⟨S1024x128, .f32⟩
  | 38 => ⟨S1024x128, .f32⟩
  | 39 => ⟨S32x128, .f32⟩
  | 40 => ⟨S1024x128, .f32⟩
  | 41 => ⟨S1024x128, .f32⟩
  | 42 => ⟨S_, .f32⟩
  | 43 => ⟨S1024x128, .f32⟩
  | 44 => ⟨S1024x128, .f32⟩
  | 45 => ⟨S1024x32, .i32⟩
  | 46 => ⟨S_, .i32⟩
  | 47 => ⟨S1024x32, .i32⟩
  | 48 => ⟨S1024x32, .i1⟩
  | 49 => ⟨S_, .i32⟩
  | 50 => ⟨S1024x32, .i32⟩
  | 51 => ⟨S1024x32, .i32⟩
  | 52 => ⟨S1024x32, .i32⟩
  | 53 => ⟨S1024x32x1, .i32⟩
  | 54 => ⟨S1024x32x128, .f32⟩
  | 55 => ⟨S_, .f32⟩
  | 56 => ⟨S1024x128, .f32⟩
  | 57 => ⟨S_, .f32⟩
  | 58 => ⟨S1024x128, .f32⟩
  | 59 => ⟨S1024x128, .f32⟩
  | 60 => ⟨S_, .f32⟩
  | 61 => ⟨S1024x32, .f32⟩
  | 62 => ⟨S_, .f32⟩
  | 63 => ⟨S1024x32, .f32⟩
  | 64 => ⟨S1024x32, .f32⟩
  | 65 => ⟨S128x64, .f32⟩
  | 66 => ⟨S1024x64, .f32⟩
  | 67 => ⟨S128x64, .f32⟩
  | 68 => ⟨S1024x64, .f32⟩
  | 69 => ⟨S1024x64, .f32⟩
  | 70 => ⟨S32x64, .f32⟩
  | 71 => ⟨S1024x64, .f32⟩
  | 72 => ⟨S1024x64, .f32⟩
  | 73 => ⟨S_, .f32⟩
  | 74 => ⟨S1024x64, .f32⟩
  | 75 => ⟨S1024x64, .f32⟩
  | 76 => ⟨S1024x1x64, .f32⟩
  | 77 => ⟨S1x1024x64, .f32⟩
  | 78 => ⟨S1024x1024x64, .f32⟩
  | 79 => ⟨S1024x1024x64, .f32⟩
  | 80 => ⟨S1024x1024x64, .f32⟩
  | 81 => ⟨S_, .f32⟩
  | 82 => ⟨S1024x1024x64, .f32⟩
  | 83 => ⟨S1024x1024x64, .f32⟩
  | 84 => ⟨S1048576x64, .f32⟩
  | 85 => ⟨S64x1048576, .f32⟩
  | 86 => ⟨S128x1048576, .f32⟩
  | 87 => ⟨S_, .f32⟩
  | 88 => ⟨S128x1048576, .f32⟩
  | 89 => ⟨S128x1048576, .f32⟩
  | 90 => ⟨S64x1048576, .f32⟩
  | 91 => ⟨S_, .f32⟩
  | 92 => ⟨S64x1048576, .f32⟩
  | 93 => ⟨S64x1048576, .f32⟩
  | 94 => ⟨S2x1048576, .f32⟩
  | 95 => ⟨S_, .f32⟩
  | 96 => ⟨S2x1048576, .f32⟩
  | 97 => ⟨S2x1048576, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call0_cst : Ref sig .tc := ⟨.hbm, 46, rfl⟩
abbrev main_call0_v0 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_call1_cst : Ref sig .tc := ⟨.hbm, 77, rfl⟩
abbrev main_call1_v0 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_c_11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_12 : Ref sig .tc := ⟨.hbm, 90, rfl⟩
abbrev main_v54 : Ref sig .tc := ⟨.hbm, 91, rfl⟩
abbrev main_cst_13 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_call2_cst : Ref sig .tc := ⟨.hbm, 108, rfl⟩
abbrev main_call2_v0 : Ref sig .tc := ⟨.hbm, 109, rfl⟩
abbrev main_v68 : Ref sig .tc := ⟨.hbm, 110, rfl⟩
abbrev main_v69 : Ref sig .tc := ⟨.hbm, 111, rfl⟩
abbrev main_c_16 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_18 : Ref sig .tc := ⟨.hbm, 121, rfl⟩
abbrev main_v77 : Ref sig .tc := ⟨.hbm, 122, rfl⟩
abbrev main_cst_19 : Ref sig .tc := ⟨.hbm, 123, rfl⟩
abbrev main_v78 : Ref sig .tc := ⟨.hbm, 124, rfl⟩
abbrev main_v79 : Ref sig .tc := ⟨.hbm, 125, rfl⟩
abbrev main_cst_20 : Ref sig .tc := ⟨.hbm, 126, rfl⟩
abbrev main_v80 : Ref sig .tc := ⟨.hbm, 127, rfl⟩
abbrev main_cst_21 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_call3_cst : Ref sig .tc := ⟨.hbm, 139, rfl⟩
abbrev main_call3_v0 : Ref sig .tc := ⟨.hbm, 140, rfl⟩
abbrev main_v91 : Ref sig .tc := ⟨.hbm, 141, rfl⟩
abbrev main_v92 : Ref sig .tc := ⟨.hbm, 142, rfl⟩
abbrev main_c_22 : Ref sig .tc := ⟨.hbm, 143, rfl⟩
abbrev main_v93 : Ref sig .tc := ⟨.hbm, 144, rfl⟩
abbrev main_v94 : Ref sig .tc := ⟨.hbm, 145, rfl⟩
abbrev main_c_23 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_24 : Ref sig .tc := ⟨.hbm, 152, rfl⟩
abbrev main_v100 : Ref sig .tc := ⟨.hbm, 153, rfl⟩
abbrev main_cst_25 : Ref sig .tc := ⟨.hbm, 154, rfl⟩
abbrev main_v101 : Ref sig .tc := ⟨.hbm, 155, rfl⟩
abbrev main_v102 : Ref sig .tc := ⟨.hbm, 156, rfl⟩
abbrev main_cst_26 : Ref sig .tc := ⟨.hbm, 157, rfl⟩
abbrev main_v103 : Ref sig .tc := ⟨.hbm, 158, rfl⟩
abbrev main_cst_27 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_call4_cst : Ref sig .tc := ⟨.hbm, 170, rfl⟩
abbrev main_call4_v0 : Ref sig .tc := ⟨.hbm, 171, rfl⟩
abbrev main_v114 : Ref sig .tc := ⟨.hbm, 172, rfl⟩
abbrev main_v115 : Ref sig .tc := ⟨.hbm, 173, rfl⟩
abbrev main_c_28 : Ref sig .tc := ⟨.hbm, 174, rfl⟩
abbrev main_v116 : Ref sig .tc := ⟨.hbm, 175, rfl⟩
abbrev main_v117 : Ref sig .tc := ⟨.hbm, 176, rfl⟩
abbrev main_c_29 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_30 : Ref sig .tc := ⟨.hbm, 183, rfl⟩
abbrev main_v123 : Ref sig .tc := ⟨.hbm, 184, rfl⟩
abbrev main_cst_31 : Ref sig .tc := ⟨.hbm, 185, rfl⟩
abbrev main_v124 : Ref sig .tc := ⟨.hbm, 186, rfl⟩
abbrev main_v125 : Ref sig .tc := ⟨.hbm, 187, rfl⟩
abbrev main_cst_32 : Ref sig .tc := ⟨.hbm, 188, rfl⟩
abbrev main_v126 : Ref sig .tc := ⟨.hbm, 189, rfl⟩
abbrev main_cst_33 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_call5_cst : Ref sig .tc := ⟨.hbm, 201, rfl⟩
abbrev main_call5_v0 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_cst_34 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_call6_cst : Ref sig .tc := ⟨.hbm, 215, rfl⟩
abbrev main_call6_v0 : Ref sig .tc := ⟨.hbm, 216, rfl⟩
abbrev main_v148 : Ref sig .tc := ⟨.hbm, 217, rfl⟩
abbrev main_v149 : Ref sig .tc := ⟨.hbm, 218, rfl⟩
abbrev main_call7_cst : Ref sig .tc := ⟨.hbm, 219, rfl⟩
abbrev main_call7_v0 : Ref sig .tc := ⟨.hbm, 220, rfl⟩
abbrev main_v150 : Ref sig .tc := ⟨.hbm, 221, rfl⟩
abbrev main_v151 : Ref sig .tc := ⟨.hbm, 222, rfl⟩
abbrev main_call8_cst : Ref sig .tc := ⟨.hbm, 223, rfl⟩
abbrev main_call8_v0 : Ref sig .tc := ⟨.hbm, 224, rfl⟩
abbrev main_v152 : Ref sig .tc := ⟨.hbm, 225, rfl⟩

abbrev nD : Nat := 1
abbrev τ : Topo := Topo.v7x

variable {F : FTy → Type} [FloatOps F]

class Facts₀ : Prop where
  shapeCasts_S1024x32x1_S1024x32 : S1024x32x1.ShapeCasts S1024x32
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  reducesTo_S1024x32x64_S1024x64_d1 : S1024x32x64.ReducesTo [1] S1024x64
  h_S_ : 0 < S_.numel
  bcast_S_S1024x64 : S_.BroadcastsInDim S1024x64 (![] : Fin 0 → Fin S1024x64.rank)
  reducesTo_S1024x32x32_S1024x32_d1 : S1024x32x32.ReducesTo [1] S1024x32
  transposes_S128x64_S64x128_1_0 : S128x64.Transposes [1, 0] S64x128
  transposes_S128x32_S32x128_1_0 : S128x32.Transposes [1, 0] S32x128
  bcast_S_S1024x128 : S_.BroadcastsInDim S1024x128 (![] : Fin 0 → Fin S1024x128.rank)
  reducesTo_S1024x32x128_S1024x128_d1 : S1024x32x128.ReducesTo [1] S1024x128
  transposes_S128x128_S128x128_1_0 : S128x128.Transposes [1, 0] S128x128
  transposes_S64x128_S128x64_1_0 : S64x128.Transposes [1, 0] S128x64
  transposes_S64x32_S32x64_1_0 : S64x32.Transposes [1, 0] S32x64
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S_S1024x1024x64 : S_.BroadcastsInDim S1024x1024x64 (![] : Fin 0 → Fin S1024x1024x64.rank)
  shapeCasts_S1024x1024x64_S1048576x64 : S1024x1024x64.ShapeCasts S1048576x64
  transposes_S1048576x64_S64x1048576_1_0 : S1048576x64.Transposes [1, 0] S64x1048576
  bcast_S_S128x1048576 : S_.BroadcastsInDim S128x1048576 (![] : Fin 0 → Fin S128x1048576.rank)
  bcast_S_S64x1048576 : S_.BroadcastsInDim S64x1048576 (![] : Fin 0 → Fin S64x1048576.rank)
  bcast_S_S2x1048576 : S_.BroadcastsInDim S2x1048576 (![] : Fin 0 → Fin S2x1048576.rank)
  gather_S1024x64_S1024x32x1_S1024x32x64_2_0_n_n_0_2_164_wf : GatherDims.WF S1024x64 S1024x32x1 S1024x32x64 [2] [0] [] [0] [] 2 ![1, 64]
  dot_S1024x64_S64x128_S1024x128_1_0_0_1_n_n_wf : DotDims.WF S1024x64 S64x128 S1024x128 [1] [0] [0] [1] [] []
  dot_S1024x32_S32x128_S1024x128_1_0_0_1_n_n_wf : DotDims.WF S1024x32 S32x128 S1024x128 [1] [0] [0] [1] [] []
  gather_S1024x128_S1024x32x1_S1024x32x128_2_0_n_n_0_2_1128_wf : GatherDims.WF S1024x128 S1024x32x1 S1024x32x128 [2] [0] [] [0] [] 2 ![1, 128]
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x32_S32x64_S1024x64_1_0_0_1_n_n_wf : DotDims.WF S1024x32 S32x64 S1024x64 [1] [0] [0] [1] [] []
  dot_S128x64_S64x1048576_S128x1048576_1_0_0_1_n_n_wf : DotDims.WF S128x64 S64x1048576 S128x1048576 [1] [0] [0] [1] [] []
  dot_S64x128_S128x1048576_S64x1048576_1_0_0_1_n_n_wf : DotDims.WF S64x128 S128x1048576 S64x1048576 [1] [0] [0] [1] [] []
  dot_S2x64_S64x1048576_S2x1048576_1_0_0_1_n_n_wf : DotDims.WF S2x64 S64x1048576 S2x1048576 [1] [0] [0] [1] [] []

variable [Facts₀]

def gather_S1024x64_S1024x32x1_S1024x32x64_2_0_n_n_0_2_164 : GatherDims S1024x64 S1024x32x1 S1024x32x64 where
  offsetDims := [2]
  collapsedSliceDims := [0]
  operandBatchingDims := []
  startIndicesBatchingDims := []
  startIndexMap := [0]
  indexVectorDim := 2
  sliceSizes := ![1, 64]
  wf := gather_S1024x64_S1024x32x1_S1024x32x64_2_0_n_n_0_2_164_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def gather_S1024x128_S1024x32x1_S1024x32x128_2_0_n_n_0_2_1128 : GatherDims S1024x128 S1024x32x1 S1024x32x128 where
  offsetDims := [2]
  collapsedSliceDims := [0]
  operandBatchingDims := []
  startIndicesBatchingDims := []
  startIndexMap := [0]
  indexVectorDim := 2
  sliceSizes := ![1, 128]
  wf := gather_S1024x128_S1024x32x1_S1024x32x128_2_0_n_n_0_2_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S128x64_S64x1048576_S128x1048576_1_0_0_1_n_n : DotDims S128x64 S64x1048576 S128x1048576 where
  lhsContracting := [1]
  rhsContracting := [0]
  lhsNonContracting := [0]
  rhsNonContracting := [1]
  lhsBatch := []
  rhsBatch := []
  wf := dot_S128x64_S64x1048576_S128x1048576_1_0_0_1_n_n_wf
def dot_S64x128_S128x1048576_S64x1048576_1_0_0_1_n_n : DotDims S64x128 S128x1048576 S64x1048576 where
  lhsContracting := [1]
  rhsContracting := [0]
  lhsNonContracting := [0]
  rhsNonContracting := [1]
  lhsBatch := []
  rhsBatch := []
  wf := dot_S64x128_S128x1048576_S64x1048576_1_0_0_1_n_n_wf
def dot_S2x64_S64x1048576_S2x1048576_1_0_0_1_n_n : DotDims S2x64 S64x1048576 S2x1048576 where
  lhsContracting := [1]
  rhsContracting := [0]
  lhsNonContracting := [0]
  rhsNonContracting := [1]
  lhsBatch := []
  rhsBatch := []
  wf := dot_S2x64_S64x1048576_S2x1048576_1_0_0_1_n_n_wf

class Facts : Prop extends Facts₀ where

variable [Facts]
-- ==== Proof.Spec.lean ====
/-
  The mathematics of the message-passing network, stated once, over plain finite index types and the
  extended reals: a graph-convolution layer in the two arrangements the two programs use, the pairwise
  merge followed by the three dense layers in the two arrangements, and the whole network in each.

  A convolution layer maps node features `x : N × F` to `N × O`:
    relu ( x · Wcᵀ + mean_k x[nb(·,k)] · Wnᵀ + mean_k e[·,k,:] · Weᵀ ).
  The first arrangement (`convG`) takes the neighbour mean by gathering the K neighbour rows and summing them;
  the second (`convM`) multiplies by the N × N matrix whose (n, j) entry is (number of k with nb n k = j)/K.
  The means are products with the real 1/32 (K = 32).

  The merge and dense part maps `xl, xr : N × H` to (a, i, j) ↦ relu(A3 · relu(A2 · relu(A1 · ½(xl_i + xr_j)))).
  The first arrangement (`denseG`) forms ½(xl_i + xr_j) and applies A1; the second (`denseM`) applies A1 to each
  side first, halves, and adds: U_i + V_j with U = ½ · A1 · xlᵀ, V = ½ · A1 · xrᵀ.
-/
import Mathlib.Data.EReal.Basic
import Mathlib.Algebra.BigOperators.Fin

noncomputable section

namespace Cert.Spec

open BigOperators

/-- The real 1/32 as an extended real: the neighbour mean's factor. -/
def c32 : EReal := ((1 / 32 : ℝ) : EReal)
/-- The real 1/2 as an extended real: the pairwise mean's factor. -/
def half : EReal := ((1 / 2 : ℝ) : EReal)

variable {N F O K E : ℕ}

/-- Mean over the K edge-feature rows of a node. -/
def edgeMean (e : Fin N → Fin K → Fin E → EReal) : Fin N → Fin E → EReal :=
  fun n d => (∑ k, e n k d) * c32

/-- Neighbour mean by gathering rows. -/
def nbrMeanG (x : Fin N → Fin F → EReal) (nb : Fin N → Fin K → Fin N) : Fin N → Fin F → EReal :=
  fun n f => (∑ k, x (nb n k) f) * c32

/-- The mean-neighbour matrix: entry (n, j) is the number of k with nb n k = j, times 1/32. -/
def nbrMat (nb : Fin N → Fin K → Fin N) : Fin N → Fin N → EReal :=
  fun n j => (∑ k, (if nb n k = j then (1 : EReal) else 0)) * c32

/-- Neighbour mean as the product with the mean-neighbour matrix. -/
def nbrMeanM (x : Fin N → Fin F → EReal) (nb : Fin N → Fin K → Fin N) : Fin N → Fin F → EReal :=
  fun n f => ∑ j, nbrMat nb n j * x j f

/-- The layer's affine part and relu, given the neighbour mean `xn` and the edge mean `xe`. -/
def convCore (x xn : Fin N → Fin F → EReal) (xe : Fin N → Fin E → EReal)
    (Wc Wn : Fin O → Fin F → EReal) (We : Fin O → Fin E → EReal) : Fin N → Fin O → EReal :=
  fun n o => max ((∑ f, x n f * Wc o f + ∑ f, xn n f * Wn o f) + ∑ d, xe n d * We o d) 0

/-- The layer in the layout of the fused program: the edge mean `xe` and the mean-neighbour matrix `M` given,
    the weights transposed. -/
def convT (x : Fin N → Fin F → EReal) (xe : Fin N → Fin E → EReal) (M : Fin N → Fin N → EReal)
    (WcT WnT : Fin F → Fin O → EReal) (WeT : Fin E → Fin O → EReal) : Fin N → Fin O → EReal :=
  fun n o => max ((∑ f, x n f * WcT f o + ∑ f, (∑ j, M n j * x j f) * WnT f o) + ∑ d, xe n d * WeT d o) 0

/-- The mean-neighbour matrix from index words: entry (n, j) counts the k whose word is the word of j, times 1/32. -/
def cntMat (w : Fin N → Fin K → BitVec 32) : Fin N → Fin N → EReal :=
  fun n j => (∑ k, (if w n k = BitVec.ofNat 32 j.val then (1 : EReal) else 0)) * c32

/-- A convolution layer, neighbour mean by gather. -/
def convG (x : Fin N → Fin F → EReal) (e : Fin N → Fin K → Fin E → EReal) (nb : Fin N → Fin K → Fin N)
    (Wc Wn : Fin O → Fin F → EReal) (We : Fin O → Fin E → EReal) : Fin N → Fin O → EReal :=
  convCore x (nbrMeanG x nb) (edgeMean e) Wc Wn We

/-- A convolution layer, neighbour mean by the matrix product. -/
def convM (x : Fin N → Fin F → EReal) (e : Fin N → Fin K → Fin E → EReal) (nb : Fin N → Fin K → Fin N)
    (Wc Wn : Fin O → Fin F → EReal) (We : Fin O → Fin E → EReal) : Fin N → Fin O → EReal :=
  convT x (edgeMean e) (nbrMat nb) (fun f o => Wc o f) (fun f o => Wn o f) (fun d o => We o d)

variable {F1 F2 F3 : ℕ}

/-- Three layers on one side of the graph pair, by gather. -/
def sideG (x : Fin N → Fin F → EReal) (e : Fin N → Fin K → Fin E → EReal) (nb : Fin N → Fin K → Fin N)
    (Wc1 Wn1 : Fin F1 → Fin F → EReal) (We1 : Fin F1 → Fin E → EReal)
    (Wc2 Wn2 : Fin F2 → Fin F1 → EReal) (We2 : Fin F2 → Fin E → EReal)
    (Wc3 Wn3 : Fin F3 → Fin F2 → EReal) (We3 : Fin F3 → Fin E → EReal) : Fin N → Fin F3 → EReal :=
  convG (convG (convG x e nb Wc1 Wn1 We1) e nb Wc2 Wn2 We2) e nb Wc3 Wn3 We3

/-- Three layers on one side of the graph pair, by the matrix product. -/
def sideM (x : Fin N → Fin F → EReal) (e : Fin N → Fin K → Fin E → EReal) (nb : Fin N → Fin K → Fin N)
    (Wc1 Wn1 : Fin F1 → Fin F → EReal) (We1 : Fin F1 → Fin E → EReal)
    (Wc2 Wn2 : Fin F2 → Fin F1 → EReal) (We2 : Fin F2 → Fin E → EReal)
    (Wc3 Wn3 : Fin F3 → Fin F2 → EReal) (We3 : Fin F3 → Fin E → EReal) : Fin N → Fin F3 → EReal :=
  convM (convM (convM x e nb Wc1 Wn1 We1) e nb Wc2 Wn2 We2) e nb Wc3 Wn3 We3

/-- Three layers on one side in the fused program's layout. -/
def sideT (x : Fin N → Fin F → EReal) (xe : Fin N → Fin E → EReal) (M : Fin N → Fin N → EReal)
    (WcT1 WnT1 : Fin F → Fin F1 → EReal) (WeT1 : Fin E → Fin F1 → EReal)
    (WcT2 WnT2 : Fin F1 → Fin F2 → EReal) (WeT2 : Fin E → Fin F2 → EReal)
    (WcT3 WnT3 : Fin F2 → Fin F3 → EReal) (WeT3 : Fin E → Fin F3 → EReal) : Fin N → Fin F3 → EReal :=
  convT (convT (convT x xe M WcT1 WnT1 WeT1) xe M WcT2 WnT2 WeT2) xe M WcT3 WnT3 WeT3

variable {Nl Nr H D1 D2 D3 : ℕ}

/-- The two dense layers after the first, from the first layer's activations `h1 (d, i, j)`. -/
def denseTail (h1 : Fin D1 → Fin Nl → Fin Nr → EReal) (A2 : Fin D2 → Fin D1 → EReal) (A3 : Fin D3 → Fin D2 → EReal) :
    Fin D3 → Fin Nl → Fin Nr → EReal :=
  fun a i j => max (∑ g, A3 a g * max (∑ d, A2 g d * h1 d i j) 0) 0

/-- First dense layer on the merged pair: relu(A1 · ½(xl_i + xr_j)). -/
def h1G (xl : Fin Nl → Fin H → EReal) (xr : Fin Nr → Fin H → EReal) (A1 : Fin D1 → Fin H → EReal) :
    Fin D1 → Fin Nl → Fin Nr → EReal :=
  fun d i j => max (∑ f, A1 d f * (half * (xl i f + xr j f))) 0

/-- The dense part from the two precomputed halves `U (d, i)`, `V (d, j)` of the first layer's pre-activation. -/
def denseUV (U : Fin D1 → Fin Nl → EReal) (V : Fin D1 → Fin Nr → EReal) (A2 : Fin D2 → Fin D1 → EReal)
    (A3 : Fin D3 → Fin D2 → EReal) : Fin D3 → Fin Nl → Fin Nr → EReal :=
  denseTail (fun d i j => max (U d i + V d j) 0) A2 A3

def denseG (xl : Fin Nl → Fin H → EReal) (xr : Fin Nr → Fin H → EReal) (A1 : Fin D1 → Fin H → EReal)
    (A2 : Fin D2 → Fin D1 → EReal) (A3 : Fin D3 → Fin D2 → EReal) : Fin D3 → Fin Nl → Fin Nr → EReal :=
  denseTail (h1G xl xr A1) A2 A3

def denseM (xl : Fin Nl → Fin H → EReal) (xr : Fin Nr → Fin H → EReal) (A1 : Fin D1 → Fin H → EReal)
    (A2 : Fin D2 → Fin D1 → EReal) (A3 : Fin D3 → Fin D2 → EReal) : Fin D3 → Fin Nl → Fin Nr → EReal :=
  denseUV (fun d i => half * ∑ f, A1 d f * xl i f) (fun d j => half * ∑ f, A1 d f * xr j f) A2 A3

/-- Every entry of a matrix is a real number. -/
def Real2 {A B : Type} (x : A → B → EReal) : Prop := ∀ a b, ∃ r : ℝ, x a b = (r : EReal)
/-- Every entry of a rank-3 array is a real number. -/
def Real3 {A B C : Type} (x : A → B → C → EReal) : Prop := ∀ a b c, ∃ r : ℝ, x a b c = (r : EReal)

end Cert.Spec

end
-- ==== Proof.Cur.lean ====
/-
  Stored arrays as the functions the network's mathematics is stated over: an array indexed by a shape's
  multi-index read as a curried function of its coordinates and back; the neighbour of node n along slot k as
  the index word's value; the whole network of the stored arguments in the two arrangements; the result
  array (2, 1024·1024) laid out row-major over the pair (i, j).
-/
import Idealize.ShloMosaic.Lib.ValueIdx
import proofs.«429352_j49331994362309_3_alg».proof.Proof.Spec

noncomputable section

namespace Cert.Cur

open Idealize.ShloMosaic Idealize.ShloMosaic.ValueIdx Cert.Spec

variable {α : Type}

/-- A rank-2 array as a function of its two coordinates. -/
def cur2 {n0 n1 : ℕ} (a : (⟨2, ![n0, n1]⟩ : Shape).Idx → α) : Fin n0 → Fin n1 → α := fun p q => a (ix2 p q)
/-- A rank-3 array as a function of its three coordinates. -/
def cur3 {n0 n1 n2 : ℕ} (a : (⟨3, ![n0, n1, n2]⟩ : Shape).Idx → α) : Fin n0 → Fin n1 → Fin n2 → α :=
  fun p q r => a (ix3 p q r)

/-- The index words are node numbers: each, read as a number, is below 1024 (so also non-negative as a signed word). -/
def InRange (ij : (⟨3, ![1024, 32, 1]⟩ : Shape).Idx → BitVec 32) : Prop :=
  ∀ (n : Fin 1024) (k : Fin 32), (ij (ix3 n k 0)).toNat < 1024

/-- Node n's k-th neighbour. -/
def nbr (ij : (⟨3, ![1024, 32, 1]⟩ : Shape).Idx → BitVec 32) : Fin 1024 → Fin 32 → Fin 1024 :=
  fun n k => ⟨(ij (ix3 n k 0)).toNat % 1024, Nat.mod_lt _ (by decide)⟩

section Net
variable (xnr : (⟨2, ![1024, 64]⟩ : Shape).Idx → EReal) (xer : (⟨3, ![1024, 32, 32]⟩ : Shape).Idx → EReal)
  (ijr : (⟨3, ![1024, 32, 1]⟩ : Shape).Idx → BitVec 32)
  (xnl : (⟨2, ![1024, 64]⟩ : Shape).Idx → EReal) (xel : (⟨3, ![1024, 32, 32]⟩ : Shape).Idx → EReal)
  (ijl : (⟨3, ![1024, 32, 1]⟩ : Shape).Idx → BitVec 32)
  (Wc1 Wn1 : (⟨2, ![128, 64]⟩ : Shape).Idx → EReal) (We1 : (⟨2, ![128, 32]⟩ : Shape).Idx → EReal)
  (Wc2 Wn2 : (⟨2, ![128, 128]⟩ : Shape).Idx → EReal) (We2 : (⟨2, ![128, 32]⟩ : Shape).Idx → EReal)
  (Wc3 Wn3 : (⟨2, ![64, 128]⟩ : Shape).Idx → EReal) (We3 : (⟨2, ![64, 32]⟩ : Shape).Idx → EReal)
  (A1 : (⟨2, ![128, 64]⟩ : Shape).Idx → EReal) (A2 : (⟨2, ![64, 128]⟩ : Shape).Idx → EReal)
  (A3 : (⟨2, ![2, 64]⟩ : Shape).Idx → EReal)

/-- The network of the stored arguments, neighbour means by gather and the merge formed before A1. -/
def netG : Fin 2 → Fin 1024 → Fin 1024 → EReal :=
  denseG
    (sideG (cur2 xnl) (cur3 xel) (nbr ijl) (cur2 Wc1) (cur2 Wn1) (cur2 We1) (cur2 Wc2) (cur2 Wn2) (cur2 We2) (cur2 Wc3) (cur2 Wn3) (cur2 We3))
    (sideG (cur2 xnr) (cur3 xer) (nbr ijr) (cur2 Wc1) (cur2 Wn1) (cur2 We1) (cur2 Wc2) (cur2 Wn2) (cur2 We2) (cur2 Wc3) (cur2 Wn3) (cur2 We3))
    (cur2 A1) (cur2 A2) (cur2 A3)

/-- The network of the stored arguments, neighbour means by the matrix product and A1 applied per side. -/
def netM : Fin 2 → Fin 1024 → Fin 1024 → EReal :=
  denseM
    (sideM (cur2 xnl) (cur3 xel) (nbr ijl) (cur2 Wc1) (cur2 Wn1) (cur2 We1) (cur2 Wc2) (cur2 Wn2) (cur2 We2) (cur2 Wc3) (cur2 Wn3) (cur2 We3))
    (sideM (cur2 xnr) (cur3 xer) (nbr ijr) (cur2 Wc1) (cur2 Wn1) (cur2 We1) (cur2 Wc2) (cur2 Wn2) (cur2 We2) (cur2 Wc3) (cur2 Wn3) (cur2 We3))
    (cur2 A1) (cur2 A2) (cur2 A3)

end Net

/-- The result array: entry (a, p) of the flat (2, 1024·1024) array is the pair (i, j) = (p / 1024, p % 1024). -/
def flat (g : Fin 2 → Fin 1024 → Fin 1024 → EReal) : (⟨2, ![2, 1048576]⟩ : Shape).Idx → EReal :=
  fun q => g ⟨(q 0).val, idx2_lt0 q⟩ ⟨(q 1).val / 1024, by have := idx2_lt1 q; omega⟩ ⟨(q 1).val % 1024, Nat.mod_lt _ (by decide)⟩

end Cert.Cur

end
-- ==== Proof.PreFacts.lean ====
/-
  What the precondition says, decoded: each float argument's entries are real numbers (|x| < +inf on the
  extended reals excludes exactly the two infinities), and each index word, read as a signed number, lies in
  [0, 1024) — so, read as a natural number, is below 1024.
-/
import proofs.«429352_j49331994362309_3_alg».proof.Pre_finite_inputs
import proofs.«429352_j49331994362309_3_alg».proof.Proof.Cur
import Idealize.ShloMosaic.Lib.ReduceAll
import Idealize.ShloMosaic.Lib.StableHlo.Predicate
import Idealize.ShloMosaic.PureOps.Ideal

noncomputable section

namespace Cert.PreFacts

open Idealize.ShloMosaic Idealize.ShloMosaic.ValueIdx Cert.Spec Cert.Cur Cert.Pre_finite_inputs

/-! ### One entry -/

section Entry

/-- The result shape of a reduction over all axes has exactly one index. -/
instance : Subsingleton S_.Idx := ⟨fun a b => funext fun d => d.elim0⟩

/-- The word 0x7F800000 (sign 0, exponent all ones, fraction 0) denotes +∞. -/
theorem inf_word : Ideal.ofBits .f32 0x7F800000#32 = (⊤ : EReal) := by
  simp [Ideal.ofBits, Ideal.ieee]

/-- An extended real whose absolute value max a (-a) lies strictly below +∞ is neither infinity: it is a real number. -/
theorem real_of_abs_lt_top (a : EReal) (h : Ideal.cmp .olt (max a (-a)) (Ideal.ofBits .f32 0x7F800000#32) = 1#1) :
    ∃ r : ℝ, a = (r : EReal) := by
  rw [inf_word] at h
  have h' : max a (-a) < ⊤ := by
    simpa only [Ideal.cmp, StableHlo.Predicate.ofBool_eq_one_iff, decide_eq_true_eq] using h
  induction a using EReal.rec with
  | bot => simp at h'
  | coe r => exact ⟨r, rfl⟩
  | top => simp at h'

/-- A 32-bit word that, read signed, is at least 0 and below 1024 is, read unsigned, below 1024:
    non-negative signed means the top bit is clear, and then the two readings agree. -/
theorem toNat_lt_of_signed (w : BitVec 32) (h0 : IntOp.cmpi .sge w 0#32 = 1#1) (h1 : IntOp.cmpi .slt w 1024#32 = 1#1) :
    w.toNat < 1024 := by
  rw [IntOp.cmpi_sge] at h0
  rw [IntOp.cmpi_slt] at h1
  have z : (0#32 : BitVec 32).toInt = 0 := by decide
  have k : (1024#32 : BitVec 32).toInt = 1024 := by decide
  rw [z] at h0
  rw [k] at h1
  have hw : 2 * w.toNat < 2 ^ 32 := BitVec.toInt_pos_iff.1 h0
  rw [BitVec.toInt_eq_toNat_of_lt hw] at h1
  omega

end Entry

/-! ### One array, of any shape -/

section Array

variable {S : Shape}

/-- all (|x| < +∞) over an array of any shape: every entry is a real number. -/
theorem real_of_all (x : FVec Ideal S .f32) (hb : S_.BroadcastsInDim S (![] : Fin 0 → Fin S.rank))
    {axes : List (Fin S.rank)} (hr : S.ReducesTo axes S_) (hn : 0 < S_.numel)
    (e : Host.reduce IntOp.andi (cmpf .olt (Host.absf x) (broadcastInDim S ![] hb (constant S_ .f32 0x7F800000#32)))
          (constantI S_ 1 1#1) hr hn ix0 = 1#1) (i : S.Idx) : ∃ r : ℝ, x i = (r : EReal) := by
  have hi := Host.reduce_andi_all _ _ hr hn ix0 e i
  exact real_of_abs_lt_top (x i) hi

/-- all (w ≥ 0) and all (w < 1024), both signed, over an array of index words: every word, read unsigned, is below 1024. -/
theorem lt_of_all (w : IVec S 32) (hb : S_.BroadcastsInDim S (![] : Fin 0 → Fin S.rank))
    {axes : List (Fin S.rank)} (hr : S.ReducesTo axes S_) (hn : 0 < S_.numel)
    (e0 : Host.reduce IntOp.andi (cmpi .sge w (broadcastInDim S ![] hb (constantI S_ 32 0#32)))
          (constantI S_ 1 1#1) hr hn ix0 = 1#1)
    (e1 : Host.reduce IntOp.andi (cmpi .slt w (broadcastInDim S ![] hb (constantI S_ 32 1024#32)))
          (constantI S_ 1 1#1) hr hn ix0 = 1#1) (i : S.Idx) : (w i).toNat < 1024 := by
  have h0 := Host.reduce_andi_all _ _ hr hn ix0 e0 i
  have h1 := Host.reduce_andi_all _ _ hr hn ix0 e1 i
  exact toNat_lt_of_signed (w i) h0 h1

end Array

/-! ### The whole precondition -/

variable [Cert.Pre_finite_inputs.Facts]

theorem of_pre (a0 : FVec Ideal S1024x64 .f32) (a1 : FVec Ideal S1024x32x32 .f32) (a2 : IVec S1024x32x1 32)
    (a3 : FVec Ideal S1024x64 .f32) (a4 : FVec Ideal S1024x32x32 .f32) (a5 : IVec S1024x32x1 32)
    (a6 a7 : FVec Ideal S128x64 .f32) (a8 : FVec Ideal S128x32 .f32) (a9 a10 : FVec Ideal S128x128 .f32) (a11 : FVec Ideal S128x32 .f32)
    (a12 a13 : FVec Ideal S64x128 .f32) (a14 : FVec Ideal S64x32 .f32) (a15 : FVec Ideal S128x64 .f32) (a16 : FVec Ideal S64x128 .f32)
    (a17 : FVec Ideal S2x64 .f32)
    (h : Cert.Pre_finite_inputs.fn (F := Ideal) a0 a1 a2 a3 a4 a5 a6 a7 a8 a9 a10 a11 a12 a13 a14 a15 a16 a17 = fun _ => 1#1) :
    Real2 (cur2 a0) ∧ Real3 (cur3 a1) ∧ InRange a2 ∧ Real2 (cur2 a3) ∧ Real3 (cur3 a4) ∧ InRange a5
      ∧ Real2 (cur2 a6) ∧ Real2 (cur2 a7) ∧ Real2 (cur2 a8) ∧ Real2 (cur2 a9) ∧ Real2 (cur2 a10) ∧ Real2 (cur2 a11)
      ∧ Real2 (cur2 a12) ∧ Real2 (cur2 a13) ∧ Real2 (cur2 a14) ∧ Real2 (cur2 a15) ∧ Real2 (cur2 a16) ∧ Real2 (cur2 a17) := by
  -- the precondition at its one index is a left-nested conjunction of twenty all-of facts
  have h0 := congrFun h ix0
  dsimp only [fn, fn_part1, fn_part2, fn_part3, fn_part4, fn_part5, andi] at h0
  -- split it, the outermost (last-formed) conjunct first: the two range facts of a5, those of a2, then a17 down to a0
  obtain ⟨h0, e5lt⟩ := IntOp.andi_eq_one.1 h0
  obtain ⟨h0, e5ge⟩ := IntOp.andi_eq_one.1 h0
  obtain ⟨h0, e2lt⟩ := IntOp.andi_eq_one.1 h0
  obtain ⟨h0, e2ge⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e4⟩ := IntOp.andi_eq_one.1 h0
  obtain ⟨h0, e3⟩ := IntOp.andi_eq_one.1 h0
  obtain ⟨e0, e1⟩ := IntOp.andi_eq_one.1 h0
  -- each array's fact, read at the index its curried form names
  refine ⟨fun p q => real_of_all a0 _ _ _ e0 (ix2 p q), fun p q r => real_of_all a1 _ _ _ e1 (ix3 p q r),
    fun n k => lt_of_all a2 _ _ _ e2ge e2lt (ix3 n k 0), fun p q => real_of_all a3 _ _ _ e3 (ix2 p q),
    fun p q r => real_of_all a4 _ _ _ e4 (ix3 p q r), fun n k => lt_of_all a5 _ _ _ e5ge e5lt (ix3 n k 0),
    fun p q => real_of_all a6 _ _ _ e6 (ix2 p q), fun p q => real_of_all a7 _ _ _ e7 (ix2 p q),
    fun p q => real_of_all a8 _ _ _ e8 (ix2 p q), fun p q => real_of_all a9 _ _ _ e9 (ix2 p q),
    fun p q => real_of_all a10 _ _ _ e10 (ix2 p q), fun p q => real_of_all a11 _ _ _ e11 (ix2 p q),
    fun p q => real_of_all a12 _ _ _ e12 (ix2 p q), fun p q => real_of_all a13 _ _ _ e13 (ix2 p q),
    fun p q => real_of_all a14 _ _ _ e14 (ix2 p q), fun p q => real_of_all a15 _ _ _ e15 (ix2 p q),
    fun p q => real_of_all a16 _ _ _ e16 (ix2 p q), fun p q => real_of_all a17 _ _ _ e17 (ix2 p q)⟩

end Cert.PreFacts

end
-- ==== Proof.Algebra.lean ====
/-
  The two arrangements of the network agree on real inputs. A convolution layer: the product with the
  mean-neighbour matrix is the gathered mean, because each neighbour slot contributes its row exactly once
  (a sum over j of an indicator times x_j is x at the indicated j) and the factor 1/32 moves across a finite sum
  of reals. The dense part: A1 applied to ½(xl_i + xr_j) distributes over the sum and the factor ½ — laws of the
  real numbers, which the extended reals share only away from the infinities, so every step is taken on real
  entries, and each layer's output is again real.
-/
import proofs.«429352_j49331994362309_3_alg».proof.Proof.Cur
import Mathlib.Data.EReal.Operations
import Mathlib.Algebra.BigOperators.Ring.Finset

noncomputable section

namespace Cert.Algebra

open BigOperators Cert.Spec

/-- The embedding of the reals commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The embedding of the reals commutes with the maximum with zero. -/
theorem max_coe_zero (a : ℝ) : max (a : EReal) 0 = ((max a 0 : ℝ) : EReal) := by
  rcases le_total a 0 with h | h
  · have h' : (a : EReal) ≤ 0 := by exact_mod_cast h
    rw [max_eq_right h, max_eq_right h', EReal.coe_zero]
  · have h' : (0 : EReal) ≤ (a : EReal) := by exact_mod_cast h
    rw [max_eq_left h, max_eq_left h']

/-- Real numbers are closed under addition inside the extended reals. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- Real numbers are closed under multiplication inside the extended reals. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of real numbers is real. -/
theorem real_sum {ι : Type*} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [← coe_sum]
  exact Finset.sum_congr rfl fun i _ => hg i

/-- The maximum of a real number with zero is real. -/
theorem real_max0 {a : EReal} (ha : ∃ r : ℝ, a = (r : EReal)) : ∃ r : ℝ, max a 0 = (r : EReal) := by
  obtain ⟨r, rfl⟩ := ha
  exact ⟨max r 0, max_coe_zero r⟩

theorem real_c32 : ∃ r : ℝ, c32 = (r : EReal) := ⟨1 / 32, rfl⟩

end Cert.Algebra

namespace Cert.Spec

open BigOperators Cert.Algebra

variable {N F O K E F1 F2 F3 : ℕ}

/-- On real node features the product with the mean-neighbour matrix is the gathered mean: in
    ∑ j, (#{k | nb n k = j} / 32) · x j f, exchange the two sums; for each slot k the sum over j of the
    indicator of nb n k = j times x j f is x (nb n k) f. -/
theorem nbrMeanM_eq_nbrMeanG (x : Fin N → Fin F → EReal) (hx : Real2 x) (nb : Fin N → Fin K → Fin N) :
    nbrMeanM x nb = nbrMeanG x nb := by
  choose xr hxr using hx
  funext n f
  have hcnt : ∀ j : Fin N, (∑ k, (if nb n k = j then (1 : EReal) else 0))
      = ((∑ k, (if nb n k = j then (1 : ℝ) else 0) : ℝ) : EReal) := by
    intro j
    rw [← coe_sum]
    refine Finset.sum_congr rfl fun k _ => ?_
    split
    · exact EReal.coe_one.symm
    · exact EReal.coe_zero.symm
  have hreal : (∑ j, ((∑ k, (if nb n k = j then (1 : ℝ) else 0)) * (1 / 32)) * xr j f)
      = (∑ k, xr (nb n k) f) * (1 / 32) := by
    simp only [Finset.sum_mul]
    rw [Finset.sum_comm]
    refine Finset.sum_congr rfl fun k _ => ?_
    simp only [ite_mul, one_mul, zero_mul]
    rw [Finset.sum_ite_eq]
    simp only [Finset.mem_univ, if_true]
    exact mul_comm _ _
  unfold nbrMeanM nbrMeanG nbrMat c32
  simp only [hxr, hcnt]
  simp only [← EReal.coe_mul, coe_sum]
  rw [hreal]

/-- On real node features the two arrangements of a layer agree. -/
theorem convM_eq_convG (x : Fin N → Fin F → EReal) (hx : Real2 x) (e : Fin N → Fin K → Fin E → EReal) (nb : Fin N → Fin K → Fin N)
    (Wc Wn : Fin O → Fin F → EReal) (We : Fin O → Fin E → EReal) :
    convM x e nb Wc Wn We = convG x e nb Wc Wn We := by
  have h : convM x e nb Wc Wn We = convCore x (nbrMeanM x nb) (edgeMean e) Wc Wn We := rfl
  rw [h, nbrMeanM_eq_nbrMeanG x hx nb]
  rfl

/-- A layer of real inputs has real outputs. -/
theorem convG_real (x : Fin N → Fin F → EReal) (hx : Real2 x) (e : Fin N → Fin K → Fin E → EReal) (he : Real3 e)
    (nb : Fin N → Fin K → Fin N) (Wc Wn : Fin O → Fin F → EReal) (hWc : Real2 Wc) (hWn : Real2 Wn)
    (We : Fin O → Fin E → EReal) (hWe : Real2 We) : Real2 (convG x e nb Wc Wn We) := by
  intro n o
  show ∃ r : ℝ, max ((∑ f, x n f * Wc o f + ∑ f, ((∑ k, x (nb n k) f) * c32) * Wn o f)
    + ∑ d, ((∑ k, e n k d) * c32) * We o d) 0 = (r : EReal)
  exact real_max0 (real_add
    (real_add (real_sum _ _ fun f => real_mul (hx n f) (hWc o f))
      (real_sum _ _ fun f => real_mul (real_mul (real_sum _ _ fun k => hx (nb n k) f) real_c32) (hWn o f)))
    (real_sum _ _ fun d => real_mul (real_mul (real_sum _ _ fun k => he n k d) real_c32) (hWe o d)))

/-- Three layers: the arrangements agree, and the output is real. -/
theorem sideM_eq_sideG (x : Fin N → Fin F → EReal) (hx : Real2 x) (e : Fin N → Fin K → Fin E → EReal) (he : Real3 e)
    (nb : Fin N → Fin K → Fin N)
    (Wc1 Wn1 : Fin F1 → Fin F → EReal) (hWc1 : Real2 Wc1) (hWn1 : Real2 Wn1) (We1 : Fin F1 → Fin E → EReal) (hWe1 : Real2 We1)
    (Wc2 Wn2 : Fin F2 → Fin F1 → EReal) (hWc2 : Real2 Wc2) (hWn2 : Real2 Wn2) (We2 : Fin F2 → Fin E → EReal) (hWe2 : Real2 We2)
    (Wc3 Wn3 : Fin F3 → Fin F2 → EReal) (We3 : Fin F3 → Fin E → EReal) :
    sideM x e nb Wc1 Wn1 We1 Wc2 Wn2 We2 Wc3 Wn3 We3 = sideG x e nb Wc1 Wn1 We1 Wc2 Wn2 We2 Wc3 Wn3 We3 := by
  have r1 : Real2 (convG x e nb Wc1 Wn1 We1) := convG_real x hx e he nb Wc1 Wn1 hWc1 hWn1 We1 hWe1
  have r2 : Real2 (convG (convG x e nb Wc1 Wn1 We1) e nb Wc2 Wn2 We2) :=
    convG_real _ r1 e he nb Wc2 Wn2 hWc2 hWn2 We2 hWe2
  unfold sideM sideG
  rw [convM_eq_convG x hx e nb Wc1 Wn1 We1, convM_eq_convG _ r1 e nb Wc2 Wn2 We2,
    convM_eq_convG _ r2 e nb Wc3 Wn3 We3]

theorem sideG_real (x : Fin N → Fin F → EReal) (hx : Real2 x) (e : Fin N → Fin K → Fin E → EReal) (he : Real3 e)
    (nb : Fin N → Fin K → Fin N)
    (Wc1 Wn1 : Fin F1 → Fin F → EReal) (hWc1 : Real2 Wc1) (hWn1 : Real2 Wn1) (We1 : Fin F1 → Fin E → EReal) (hWe1 : Real2 We1)
    (Wc2 Wn2 : Fin F2 → Fin F1 → EReal) (hWc2 : Real2 Wc2) (hWn2 : Real2 Wn2) (We2 : Fin F2 → Fin E → EReal) (hWe2 : Real2 We2)
    (Wc3 Wn3 : Fin F3 → Fin F2 → EReal) (hWc3 : Real2 Wc3) (hWn3 : Real2 Wn3) (We3 : Fin F3 → Fin E → EReal) (hWe3 : Real2 We3) :
    Real2 (sideG x e nb Wc1 Wn1 We1 Wc2 Wn2 We2 Wc3 Wn3 We3) := by
  unfold sideG
  exact convG_real _
    (convG_real _ (convG_real x hx e he nb Wc1 Wn1 hWc1 hWn1 We1 hWe1) e he nb Wc2 Wn2 hWc2 hWn2 We2 hWe2)
    e he nb Wc3 Wn3 hWc3 hWn3 We3 hWe3

variable {Nl Nr H D1 D2 D3 : ℕ}

/-- On real sides and a real A1 the two arrangements of the dense part agree. -/
theorem denseM_eq_denseG (xl : Fin Nl → Fin H → EReal) (hxl : Real2 xl) (xr : Fin Nr → Fin H → EReal) (hxr : Real2 xr)
    (A1 : Fin D1 → Fin H → EReal) (hA1 : Real2 A1) (A2 : Fin D2 → Fin D1 → EReal) (A3 : Fin D3 → Fin D2 → EReal) :
    denseM xl xr A1 A2 A3 = denseG xl xr A1 A2 A3 := by
  choose al hal using hxl
  choose ar har using hxr
  choose a1 ha1 using hA1
  have key : (fun (d : Fin D1) (i : Fin Nl) (j : Fin Nr) =>
      max ((half * ∑ f, A1 d f * xl i f) + (half * ∑ f, A1 d f * xr j f)) 0) = h1G xl xr A1 := by
    funext d i j
    have hreal : (1 / 2 : ℝ) * ∑ f, a1 d f * al i f + (1 / 2 : ℝ) * ∑ f, a1 d f * ar j f
        = ∑ f, a1 d f * ((1 / 2 : ℝ) * (al i f + ar j f)) := by
      rw [Finset.mul_sum, Finset.mul_sum, ← Finset.sum_add_distrib]
      refine Finset.sum_congr rfl fun f _ => ?_
      ring
    unfold h1G half
    simp only [hal, har, ha1]
    simp only [← EReal.coe_mul, ← EReal.coe_add, coe_sum]
    rw [hreal]
  have hM : denseM xl xr A1 A2 A3 = denseTail (fun (d : Fin D1) (i : Fin Nl) (j : Fin Nr) =>
      max ((half * ∑ f, A1 d f * xl i f) + (half * ∑ f, A1 d f * xr j f)) 0) A2 A3 := rfl
  rw [hM, key]
  rfl

end Cert.Spec

namespace Cert.Cur

open Cert.Spec Idealize.ShloMosaic Idealize.ShloMosaic.ValueIdx

/-- For index words in the node range, counting the slots whose word is the word of j is counting the slots whose
    neighbour is j. -/
theorem cntMat_eq_nbrMat (ij : (⟨3, ![1024, 32, 1]⟩ : Shape).Idx → BitVec 32) (h : InRange ij) :
    cntMat (fun n k => ij (ix3 n k 0)) = nbrMat (nbr ij) := by
  funext n j
  have hiff : ∀ k : Fin 32, (ij (ix3 n k 0) = BitVec.ofNat 32 j.val) ↔ (nbr ij n k = j) := by
    intro k
    have hlt : (ij (ix3 n k 0)).toNat < 1024 := h n k
    have hj : j.val < 1024 := j.isLt
    have hn : (nbr ij n k).val = (ij (ix3 n k 0)).toNat % 1024 := rfl
    constructor
    · intro hw
      apply Fin.ext
      rw [hn, hw, BitVec.toNat_ofNat]
      omega
    · intro hj'
      apply BitVec.eq_of_toNat_eq
      rw [BitVec.toNat_ofNat, ← hj', hn]
      omega
  show (∑ k, (if ij (ix3 n k 0) = BitVec.ofNat 32 j.val then (1 : EReal) else 0)) * c32
    = (∑ k, (if nbr ij n k = j then (1 : EReal) else 0)) * c32
  congr 1
  refine Finset.sum_congr rfl fun k _ => ?_
  by_cases hc : ij (ix3 n k 0) = BitVec.ofNat 32 j.val
  · rw [if_pos hc, if_pos ((hiff k).mp hc)]
  · rw [if_neg hc, if_neg fun h' => hc ((hiff k).mpr h')]

/-- The whole network: on real float arguments the two arrangements agree. -/
theorem netM_eq_netG
    (xnr : (⟨2, ![1024, 64]⟩ : Shape).Idx → EReal) (xer : (⟨3, ![1024, 32, 32]⟩ : Shape).Idx → EReal)
    (ijr : (⟨3, ![1024, 32, 1]⟩ : Shape).Idx → BitVec 32)
    (xnl : (⟨2, ![1024, 64]⟩ : Shape).Idx → EReal) (xel : (⟨3, ![1024, 32, 32]⟩ : Shape).Idx → EReal)
    (ijl : (⟨3, ![1024, 32, 1]⟩ : Shape).Idx → BitVec 32)
    (Wc1 Wn1 : (⟨2, ![128, 64]⟩ : Shape).Idx → EReal) (We1 : (⟨2, ![128, 32]⟩ : Shape).Idx → EReal)
    (Wc2 Wn2 : (⟨2, ![128, 128]⟩ : Shape).Idx → EReal) (We2 : (⟨2, ![128, 32]⟩ : Shape).Idx → EReal)
    (Wc3 Wn3 : (⟨2, ![64, 128]⟩ : Shape).Idx → EReal) (We3 : (⟨2, ![64, 32]⟩ : Shape).Idx → EReal)
    (A1 : (⟨2, ![128, 64]⟩ : Shape).Idx → EReal) (A2 : (⟨2, ![64, 128]⟩ : Shape).Idx → EReal)
    (A3 : (⟨2, ![2, 64]⟩ : Shape).Idx → EReal)
    (h0 : Real2 (cur2 xnr)) (h1 : Real3 (cur3 xer)) (h3 : Real2 (cur2 xnl)) (h4 : Real3 (cur3 xel))
    (h6 : Real2 (cur2 Wc1)) (h7 : Real2 (cur2 Wn1)) (h8 : Real2 (cur2 We1))
    (h9 : Real2 (cur2 Wc2)) (h10 : Real2 (cur2 Wn2)) (h11 : Real2 (cur2 We2))
    (h12 : Real2 (cur2 Wc3)) (h13 : Real2 (cur2 Wn3)) (h14 : Real2 (cur2 We3))
    (h15 : Real2 (cur2 A1)) :
    netM xnr xer ijr xnl xel ijl Wc1 Wn1 We1 Wc2 Wn2 We2 Wc3 Wn3 We3 A1 A2 A3
      = netG xnr xer ijr xnl xel ijl Wc1 Wn1 We1 Wc2 Wn2 We2 Wc3 Wn3 We3 A1 A2 A3 := by
  unfold netM netG
  rw [sideM_eq_sideG (cur2 xnl) h3 (cur3 xel) h4 (nbr ijl) (cur2 Wc1) (cur2 Wn1) h6 h7 (cur2 We1) h8
      (cur2 Wc2) (cur2 Wn2) h9 h10 (cur2 We2) h11 (cur2 Wc3) (cur2 Wn3) (cur2 We3),
    sideM_eq_sideG (cur2 xnr) h0 (cur3 xer) h1 (nbr ijr) (cur2 Wc1) (cur2 Wn1) h6 h7 (cur2 We1) h8
      (cur2 Wc2) (cur2 Wn2) h9 h10 (cur2 We2) h11 (cur2 Wc3) (cur2 Wn3) (cur2 We3)]
  exact denseM_eq_denseG _
    (sideG_real (cur2 xnl) h3 (cur3 xel) h4 (nbr ijl) (cur2 Wc1) (cur2 Wn1) h6 h7 (cur2 We1) h8
      (cur2 Wc2) (cur2 Wn2) h9 h10 (cur2 We2) h11 (cur2 Wc3) (cur2 Wn3) h12 h13 (cur2 We3) h14)
    _
    (sideG_real (cur2 xnr) h0 (cur3 xer) h1 (nbr ijr) (cur2 Wc1) (cur2 Wn1) h6 h7 (cur2 We1) h8
      (cur2 Wc2) (cur2 Wn2) h9 h10 (cur2 We2) h11 (cur2 Wc3) (cur2 Wn3) h12 h13 (cur2 We3) h14)
    (cur2 A1) h15 (cur2 A2) (cur2 A3)

end Cert.Cur

end
-- ==== Proof.LibGatherRows.lean ====
/-
  A row gather read at an index. What `x[idx]` of a matrix `x : [N, C]` at an integer array `idx : [R, K]` lowers to:
  a gather with offset axis 2, collapsed axis 0, start index map [0], slice sizes [1, C] and the index vector on axis 2 of
  the indices as [R, K, 1]. Result element (r, k, c) is `x` at row `idx[r, k, 0]` — read as a signed integer and clamped
  into [0, N − 1] — and column c.
-/
import Idealize.ShloMosaic.Lib.ValueIdx

noncomputable section

namespace Cert.LibGatherRows

open Idealize.ShloMosaic Idealize.ShloMosaic.ValueIdx

variable {α : Type}

/-- THE ROW GATHER READ AT (r, k, c): for any dimension numbers of that form (`d`, with its fields given by the
    hypotheses), the operand at the clamped row and column c. -/
theorem gather_rows_apply {N C R K w : Nat} (hN : 0 < N)
    (d : GatherDims ⟨2, ![N, C]⟩ ⟨3, ![R, K, 1]⟩ ⟨3, ![R, K, C]⟩)
    (hoff : d.offsetDims = [2]) (hcol : d.collapsedSliceDims = [0]) (hob : d.operandBatchingDims = [])
    (hsb : d.startIndicesBatchingDims = []) (hsim : d.startIndexMap = [0]) (hiv : d.indexVectorDim = 2)
    (hss : d.sliceSizes = ![1, C])
    (x : (⟨2, ![N, C]⟩ : Shape).Idx → α) (idx : IVec ⟨3, ![R, K, 1]⟩ w) (r : Fin R) (k : Fin K) (c : Fin C) :
    Host.gather d x idx (ix3 r k c) = x (ix2 ⟨min (idx (ix3 r k 0)).toInt.toNat (N - 1), by omega⟩ c) := by
  -- the record's fields are the hypotheses' literals
  obtain ⟨od, cd, ob, sb, sm, iv, ss, wf⟩ := d
  simp only at hoff hcol hob hsb hsim hiv hss
  subst hoff hcol hob hsb hsim hiv hss
  unfold Host.gather
  congr 1
  funext a
  refine Fin.ext ?_
  match a with
  | ⟨0, _⟩ =>
    -- axis 0 is collapsed and in the start index map: no batching or offset coordinate, the start is the clamped word
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨3, ![R, K, 1]⟩) (t := ⟨3, ![R, K, C]⟩)
        ⟨[2], [0], [], [], [0], 2, ![1, C], wf⟩ (ix3 r k c)
        ⟨List.idxOf (0 : Fin 2) [0], List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  | ⟨1, _⟩ =>
    -- axis 1 is the one kept axis: not in the start index map (start 0), no batching, offset the result's axis-2 coordinate
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨(show (1 : Fin 2) ∉ [(0 : Fin 2)] by decide), List.not_mem_nil⟩)]
    simp only [Nat.add_zero, Nat.zero_add]
    rfl

end Cert.LibGatherRows

end
-- ==== Proof.RefSide.lean ====
/-
  One side of the reference program, read back stage by stage: the three convolution layers of the left graph
  (and of the right graph) are the gather arrangement's three layers of the stored arguments. Each layer: the
  index words wrapped if negative and clamped by the gather — on words in the node range this is the word
  itself —, the gathered rows summed over the 32 slots and divided by 32, the edge features summed over the
  slots and divided by 32, the three matrix products against the transposed weights, relu.
-/
import proofs.«429352_j49331994362309_3_alg».proof.Proof.Gen.ReferenceIdeal.Read
import proofs.«429352_j49331994362309_3_alg».proof.Proof.Cur
import proofs.«429352_j49331994362309_3_alg».proof.Proof.LibGatherRows
import Idealize.ShloMosaic.PureOps.Ideal.Laws
set_option maxRecDepth 16384

noncomputable section

namespace Cert.RefValue

open Idealize.ShloMosaic Idealize.ShloMosaic.TcCoe Idealize.ShloMosaic.ValueIdx Idealize.SL.Sem
open Cert.ReferenceIdeal Cert.ReferenceIdeal.Gen Cert.ReferenceIdeal.Read Cert.Spec Cert.Cur
open Cert.LibGatherRows

/-! ## Index words in the node range -/

/-- A word below 1024 read as a signed integer is its unsigned value. -/
theorem toInt_word (w : BitVec 32) (h : w.toNat < 1024) : w.toInt = (w.toNat : Int) :=
  BitVec.toInt_eq_toNat_of_lt (by omega)

/-- A word below 1024 is not negative as a signed word: the negative-index wrap (add 1024 when below zero) leaves it. -/
theorem wrap_word (w : BitVec 32) (h : w.toNat < 1024) :
    Scalar.select (IntOp.cmpi .slt w 0#32) (IntOp.addi w 1024#32) w = w := by
  have hs : w.slt 0#32 = false := by
    simp only [BitVec.slt, toInt_word w h]
    simp
  unfold IntOp.cmpi
  simp only [hs]
  exact select_zero _ _

/-- A word below 1024, read signed and clamped into [0, 1023], is its unsigned value. -/
theorem clamp_word (w : BitVec 32) (h : w.toNat < 1024) : min w.toInt.toNat (1024 - 1) = w.toNat := by
  rw [toInt_word w h, Int.toNat_natCast]; omega

/-! ## The divisor 32 -/

/-- The word 0x42000000 denotes the real 32. -/
theorem ofBits_32 : Ideal.ofBits .f32 0x42000000#32 = ((32 : ℝ) : EReal) := by
  simp [Ideal.ofBits, Ideal.ieee, -EReal.coe_mul]; norm_num

/-- Dividing by that word is the product with the real 1/32, on every extended real. -/
theorem div_32 (x : EReal) : Ideal.div x (Ideal.ofBits .f32 0x42000000#32) = x * c32 := by
  rw [ofBits_32, Ideal.div_coe (by norm_num : (32 : ℝ) ≠ 0)]; rfl

/-- A layer of the gather arrangement at one entry, written out. -/
theorem convG_apply {N F O K E : ℕ} (x : Fin N → Fin F → EReal) (e : Fin N → Fin K → Fin E → EReal) (nb : Fin N → Fin K → Fin N)
    (Wc Wn : Fin O → Fin F → EReal) (We : Fin O → Fin E → EReal) (n : Fin N) (o : Fin O) :
    convG x e nb Wc Wn We n o
      = max ((∑ f, x n f * Wc o f + ∑ f, ((∑ k, x (nb n k) f) * c32) * Wn o f) + ∑ d, ((∑ k, e n k d) * c32) * We o d) 0 := rfl

/-! ## The left graph -/

/-- Layer 1 of the left graph. -/
theorem layer_l1 (x3 : S1024x64.Idx → EReal) (x4 : S1024x32x32.Idx → EReal) (x5 : S1024x32x1.Idx → BitVec 32) (h5 : InRange x5)
    (x6 x7 : S128x64.Idx → EReal) (x8 : S128x32.Idx → EReal) :
    cur2 (val_main_v22 (F := Ideal) x3 x4 x5 x6 x7 x8 : S1024x128.Idx → EReal)
      = convG (cur2 x3) (cur3 x4) (nbr x5) (cur2 x6) (cur2 x7) (cur2 x8) := by
  -- the index word at (n, k, 0): reshaped, wrapped, broadcast back — the stored word
  have hI : ∀ (n : Fin 1024) (k : Fin 32), val_main_v6 (F := Ideal) x5 (ix3 n k 0) = x5 (ix3 n k 0) := by
    intro n k
    rw [val_main_v6_apply, val_main_v5_apply, val_main_v2_apply, val_main_v4_apply, val_main_v0_apply,
      val_main_v1_apply, val_main_v3_apply, val_main_c_apply, val_main_c_0_apply]
    have e : idx_main_v0 (idx_main_v6 (ix3 n k (0 : Fin 1))) = ix3 n k 0 := funext fun a => Fin.ext (by
      have hn := n.isLt; have hk := k.isLt
      match a with
      | ⟨0, _⟩ => show (n.val * 32 + k.val) / 32 = n.val; omega
      | ⟨1, _⟩ => show (n.val * 32 + k.val) / 1 % 32 = k.val; omega
      | ⟨2, _⟩ => rfl)
    rw [e]
    exact wrap_word _ (h5 n k)
  -- the gathered row: the input's row at the neighbour
  have hG : ∀ (n : Fin 1024) (k : Fin 32) (f : Fin 64),
      val_main_v7 (F := Ideal) x3 x5 (ix3 n k f) = x3 (ix2 (nbr x5 n k) f) := by
    intro n k f
    unfold val_main_v7
    refine (gather_rows_apply (N := 1024) (C := 64) (R := 1024) (K := 32) (by decide)
      gather_S1024x64_S1024x32x1_S1024x32x64_2_0_n_n_0_2_164 rfl rfl rfl rfl rfl rfl rfl
      x3 (val_main_v6 (F := Ideal) x5) n k f).trans ?_
    refine congrArg (fun r => x3 (ix2 r f)) (Fin.ext ?_)
    show min (val_main_v6 (F := Ideal) x5 (ix3 n k 0)).toInt.toNat (1024 - 1) = (x5 (ix3 n k 0)).toNat % 1024
    rw [hI n k, clamp_word _ (h5 n k), Nat.mod_eq_of_lt (h5 n k)]
  -- the neighbour mean
  have hN : ∀ (n : Fin 1024) (f : Fin 64),
      val_main_v10 (F := Ideal) x3 x5 (ix2 n f) = (∑ k, x3 (ix2 (nbr x5 n k) f)) * c32 := by
    intro n f
    rw [val_main_v10_apply, val_main_v8_apply, val_main_v9_apply, val_main_cst_1_apply, val_main_cst_apply]
    show Ideal.div (Ideal.ofBits .f32 0x00000000#32 + ∑ k : Fin 32, val_main_v7 (F := Ideal) x3 x5 (idx_main_v8 (ix2 n f) k))
      (Ideal.ofBits .f32 0x42000000#32) = _
    rw [Ideal.ofBits_zero_f32, zero_add, div_32]
    refine congrArg (· * c32) (Finset.sum_congr rfl fun k _ => ?_)
    exact (congrArg (val_main_v7 (F := Ideal) x3 x5)
      (funext fun a => by match a with | ⟨0, _⟩ => rfl | ⟨1, _⟩ => rfl | ⟨2, _⟩ => rfl)).trans (hG n k f)
  -- the edge mean
  have hE : ∀ (n : Fin 1024) (d : Fin 32), val_main_v13 (F := Ideal) x4 (ix2 n d) = (∑ k, x4 (ix3 n k d)) * c32 := by
    intro n d
    rw [val_main_v13_apply, val_main_v11_apply, val_main_v12_apply, val_main_cst_3_apply, val_main_cst_2_apply]
    show Ideal.div (Ideal.ofBits .f32 0x00000000#32 + ∑ k : Fin 32, x4 (idx_main_v11 (ix2 n d) k))
      (Ideal.ofBits .f32 0x42000000#32) = _
    rw [Ideal.ofBits_zero_f32, zero_add, div_32]
    refine congrArg (· * c32) (Finset.sum_congr rfl fun k _ => ?_)
    exact congrArg x4 (funext fun a => by match a with | ⟨0, _⟩ => rfl | ⟨1, _⟩ => rfl | ⟨2, _⟩ => rfl)
  -- the transposed weights
  have hWc : ∀ (f : Fin 64) (o : Fin 128), val_main_v14 (F := Ideal) x6 (ix2 f o) = x6 (ix2 o f) := by
    intro f o
    rw [val_main_v14_apply]
    exact congrArg x6 (funext fun a => by match a with | ⟨0, _⟩ => rfl | ⟨1, _⟩ => rfl)
  have hWn : ∀ (f : Fin 64) (o : Fin 128), val_main_v16 (F := Ideal) x7 (ix2 f o) = x7 (ix2 o f) := by
    intro f o
    rw [val_main_v16_apply]
    exact congrArg x7 (funext fun a => by match a with | ⟨0, _⟩ => rfl | ⟨1, _⟩ => rfl)
  have hWe : ∀ (d : Fin 32) (o : Fin 128), val_main_v19 (F := Ideal) x8 (ix2 d o) = x8 (ix2 o d) := by
    intro d o
    rw [val_main_v19_apply]
    exact congrArg x8 (funext fun a => by match a with | ⟨0, _⟩ => rfl | ⟨1, _⟩ => rfl)
  -- the three products, the two sums and the relu
  funext n o
  rw [convG_apply]
  show val_main_v22 (F := Ideal) x3 x4 x5 x6 x7 x8 (ix2 n o) = _
  rw [val_main_v22_apply, val_main_v21_apply, val_main_v18_apply, val_main_v15_apply, val_main_v17_apply,
    val_main_v20_apply, val_main_call0_v0_apply, val_main_call0_cst_apply]
  refine congrArg₂ max (congrArg₂ (· + ·) (congrArg₂ (· + ·)
    (Finset.sum_congr rfl fun k _ => ?_) (Finset.sum_congr rfl fun k _ => ?_)) (Finset.sum_congr rfl fun k _ => ?_))
    Ideal.ofBits_zero_f32
  · exact congrArg₂ (· * ·)
      (congrArg x3 (show lidx_main_v15 (ix2 n o) k = ix2 n k from
        funext fun a => by match a with | ⟨0, _⟩ => rfl | ⟨1, _⟩ => rfl))
      ((congrArg (val_main_v14 (F := Ideal) x6) (show ridx_main_v15 (ix2 n o) k = ix2 k o from
        funext fun a => by match a with | ⟨0, _⟩ => rfl | ⟨1, _⟩ => rfl)).trans (hWc k o))
  · exact congrArg₂ (· * ·)
      ((congrArg (val_main_v10 (F := Ideal) x3 x5) (show lidx_main_v17 (ix2 n o) k = ix2 n k from
        funext fun a => by match a with | ⟨0, _⟩ => rfl | ⟨1, _⟩ => rfl)).trans (hN n k))
      ((congrArg (val_main_v16 (F := Ideal) x7) (show ridx_main_v17 (ix2 n o) k = ix2 k o from
        funext fun a => by match a with | ⟨0, _⟩ => rfl | ⟨1, _⟩ => rfl)).trans (hWn k o))
  · exact congrArg₂ (· * ·)
      ((congrArg (val_main_v13 (F := Ideal) x4) (show lidx_main_v20 (ix2 n o) k = ix2 n k from
        funext fun a => by match a with | ⟨0, _⟩ => rfl | ⟨1, _⟩ => rfl)).trans (hE n k))
      ((congrArg (val_main_v19 (F := Ideal) x8) (show ridx_main_v20 (ix2 n o) k = ix2 k o from
        funext fun a => by match a with | ⟨0, _⟩ => rfl | ⟨1, _⟩ => rfl)).trans (hWe k o))

/-- Layer 2 of the left graph, from layer 1's result. -/
theorem layer_l2 (x3 : S1024x64.Idx → EReal) (x4 : S1024x32x32.Idx → EReal) (x5 : S1024x32x1.Idx → BitVec 32) (h5 : InRange x5)
    (x6 x7 : S128x64.Idx → EReal) (x8 : S128x32.Idx → EReal)
    (x9 x10 : S128x128.Idx → EReal) (x11 : S128x32.Idx → EReal) :
    cur2 (val_main_v45 (F := Ideal) x3 x4 x5 x6 x7 x8 x9 x10 x11 : S1024x128.Idx → EReal)
      = convG (cur2 (val_main_v22 (F := Ideal) x3 x4 x5 x6 x7 x8 : S1024x128.Idx → EReal)) (cur3 x4) (nbr x5) (cur2 x9) (cur2 x10) (cur2 x11) := by
  -- the index word at (n, k, 0): reshaped, wrapped, broadcast back — the stored word
  have hI : ∀ (n : Fin 1024) (k : Fin 32), val_main_v29 (F := Ideal) x5 (ix3 n k 0) = x5 (ix3 n k 0) := by
    intro n k
    rw [val_main_v29_apply, val_main_v28_apply, val_main_v25_apply, val_main_v27_apply, val_main_v23_apply,
      val_main_v24_apply, val_main_v26_apply, val_main_c_4_apply, val_main_c_5_apply]
    have e : idx_main_v23 (idx_main_v29 (ix3 n k (0 : Fin 1))) = ix3 n k 0 := funext fun a => Fin.ext (by
      have hn := n.isLt; have hk := k.isLt
      match a with
      | ⟨0, _⟩ => show (n.val * 32 + k.val) / 32 = n.val; omega
      | ⟨1, _⟩ => show (n.val * 32 + k.val) / 1 % 32 = k.val; omega
      | ⟨2, _⟩ => rfl)
    rw [e]
    exact wrap_word _ (h5 n k)
  -- the gathered row: the input's row at the neighbour
  have hG : ∀ (n : Fin 1024) (k : Fin 32) (f : Fin 128),
      val_main_v30 (F := Ideal) x3 x4 x5 x6 x7 x8 (ix3 n k f)
        = (val_main_v22 (F := Ideal) x3 x4 x5 x6 x7 x8) (ix2 (nbr x5 n k) f) := by
    intro n k f
    unfold val_main_v30
    refine (gather_rows_apply (N := 1024) (C := 128) (R := 1024) (K := 32) (by decide)
      gather_S1024x128_S1024x32x1_S1024x32x128_2_0_n_n_0_2_1128 rfl rfl rfl rfl rfl rfl rfl
      (val_main_v22 (F := Ideal) x3 x4 x5 x6 x7 x8) (val_main_v29 (F := Ideal) x5) n k f).trans ?_
    refine congrArg (fun r => (val_main_v22 (F := Ideal) x3 x4 x5 x6 x7 x8) (ix2 r f)) (Fin.ext ?_)
    show min (val_main_v29 (F := Ideal) x5 (ix3 n k 0)).toInt.toNat (1024 - 1) = (x5 (ix3 n k 0)).toNat % 1024
    rw [hI n k, clamp_word _ (h5 n k), Nat.mod_eq_of_lt (h5 n k)]
  -- the neighbour mean
  have hN : ∀ (n : Fin 1024) (f : Fin 128),
      val_main_v33 (F := Ideal) x3 x4 x5 x6 x7 x8 (ix2 n f)
        = (∑ k, (val_main_v22 (F := Ideal) x3 x4 x5 x6 x7 x8) (ix2 (nbr x5 n k) f)) * c32 := by
    intro n f
    rw [val_main_v33_apply, val_main_v31_apply, val_main_v32_apply, val_main_cst_7_apply, val_main_cst_6_apply]
    show Ideal.div (Ideal.ofBits .f32 0x00000000#32
        + ∑ k : Fin 32, val_main_v30 (F := Ideal) x3 x4 x5 x6 x7 x8 (idx_main_v31 (ix2 n f) k))
      (Ideal.ofBits .f32 0x42000000#32) = _
    rw [Ideal.ofBits_zero_f32, zero_add, div_32]
    refine congrArg (· * c32) (Finset.sum_congr rfl fun k _ => ?_)
    exact (congrArg (val_main_v30 (F := Ideal) x3 x4 x5 x6 x7 x8)
      (funext fun a => by match a with | ⟨0, _⟩ => rfl | ⟨1, _⟩ => rfl | ⟨2, _⟩ => rfl)).trans (hG n k f)
  -- the edge mean
  have hE : ∀ (n : Fin 1024) (d : Fin 32), val_main_v36 (F := Ideal) x4 (ix2 n d) = (∑ k, x4 (ix3 n k d)) * c32 := by
    intro n d
    rw [val_main_v36_apply, val_main_v34_apply, val_main_v35_apply, val_main_cst_9_apply, val_main_cst_8_apply]
    show Ideal.div (Ideal.ofBits .f32 0x00000000#32 + ∑ k : Fin 32, x4 (idx_main_v34 (ix2 n d) k))
      (Ideal.ofBits .f32 0x42000000#32) = _
    rw [Ideal.ofBits_zero_f32, zero_add, div_32]
    refine congrArg (· * c32) (Finset.sum_congr rfl fun k _ => ?_)
    exact congrArg x4 (funext fun a => by match a with | ⟨0, _⟩ => rfl | ⟨1, _⟩ => rfl | ⟨2, _⟩ => rfl)
  -- the transposed weights
  have hWc : ∀ (f : Fin 128) (o : Fin 128), val_main_v37 (F := Ideal) x9 (ix2 f o) = x9 (ix2 o f) := by
    intro f o
    rw [val_main_v37_apply]
    exact congrArg x9 (funext fun a => by match a with | ⟨0, _⟩ => rfl | ⟨1, _⟩ => rfl)
  have hWn : ∀ (f : Fin 128) (o : Fin 128), val_main_v39 (F := Ideal) x10 (ix2 f o) = x10 (ix2 o f) := by
    intro f o
    rw [val_main_v39_apply]
    exact congrArg x10 (funext fun a => by match a with | ⟨0, _⟩ => rfl | ⟨1, _⟩ => rfl)
  have hWe : ∀ (d : Fin 32) (o : Fin 128), val_main_v42 (F := Ideal) x11 (ix2 d o) = x11 (ix2 o d) := by
    intro d o
    rw [val_main_v42_apply]
    exact congrArg x11 (funext fun a => by match a with | ⟨0, _⟩ => rfl | ⟨1, _⟩ => rfl)
  -- the three products, the two sums and the relu
  funext n o
  rw [convG_apply]
  show val_main_v45 (F := Ideal) x3 x4 x5 x6 x7 x8 x9 x10 x11 (ix2 n o) = _
  rw [val_main_v45_apply, val_main_v44_apply, val_main_v41_apply, val_main_v38_apply, val_main_v40_apply,
    val_main_v43_apply, val_main_call1_v0_apply, val_main_call1_cst_apply]
  refine congrArg₂ max (congrArg₂ (· + ·) (congrArg₂ (· + ·)
    (Finset.sum_congr rfl fun k _ => ?_) (Finset.sum_congr rfl fun k _ => ?_)) (Finset.sum_congr rfl fun k _ => ?_))
    Ideal.ofBits_zero_f32
  · exact congrArg₂ (· * ·)
      (congrArg (val_main_v22 (F := Ideal) x3 x4 x5 x6 x7 x8) (show lidx_main_v38 (ix2 n o) k = ix2 n k from
        funext fun a => by match a with | ⟨0, _⟩ => rfl | ⟨1, _⟩ => rfl))
      ((congrArg (val_main_v37 (F := Ideal) x9) (show ridx_main_v38 (ix2 n o) k = ix2 k o from
        funext fun a => by match a with | ⟨0, _⟩ => rfl | ⟨1, _⟩ => rfl)).trans (hWc k o))
  · exact congrArg₂ (· * ·)
      ((congrArg (val_main_v33 (F := Ideal) x3 x4 x5 x6 x7 x8) (show lidx_main_v40 (ix2 n o) k = ix2 n k from
        funext fun a => by match a with | ⟨0, _⟩ => rfl | ⟨1, _⟩ => rfl)).trans (hN n k))
      ((congrArg (val_main_v39 (F := Ideal) x10) (show ridx_main_v40 (ix2 n o) k = ix2 k o from
        funext fun a => by match a with | ⟨0, _⟩ => rfl | ⟨1, _⟩ => rfl)).trans (hWn k o))
  · exact congrArg₂ (· * ·)
      ((congrArg (val_main_v36 (F := Ideal) x4) (show lidx_main_v43 (ix2 n o) k = ix2 n k from
        funext fun a => by match a with | ⟨0, _⟩ => rfl | ⟨1, _⟩ => rfl)).trans (hE n k))
      ((congrArg (val_main_v42 (F := Ideal) x11) (show ridx_main_v43 (ix2 n o) k = ix2 k o from
        funext fun a => by match a with | ⟨0, _⟩ => rfl | ⟨1, _⟩ => rfl)).trans (hWe k o))

/-- Layer 3 of the left graph, from layer 2's result. -/
theorem layer_l3 (x3 : S1024x64.Idx → EReal) (x4 : S1024x32x32.Idx → EReal) (x5 : S1024x32x1.Idx → BitVec 32) (h5 : InRange x5)
    (x6 x7 : S128x64.Idx → EReal) (x8 : S128x32.Idx → EReal)
    (x9 x10 : S128x128.Idx → EReal) (x11 : S128x32.Idx → EReal)
    (x12 x13 : S64x128.Idx → EReal) (x14 : S64x32.Idx → EReal) :
    cur2 (val_main_v68 (F := Ideal) x3 x4 x5 x6 x7 x8 x9 x10 x11 x12 x13 x14 : S1024x64.Idx → EReal)
      = convG (cur2 (val_main_v45 (F := Ideal) x3 x4 x5 x6 x7 x8 x9 x10 x11 : S1024x128.Idx → EReal)) (cur3 x4) (nbr x5) (cur2 x12) (cur2 x13) (cur2 x14) := by
  -- the index word at (n, k, 0): reshaped, wrapped, broadcast back — the stored word
  have hI : ∀ (n : Fin 1024) (k : Fin 32), val_main_v52 (F := Ideal) x5 (ix3 n k 0) = x5 (ix3 n k 0) := by
    intro n k
    rw [val_main_v52_apply, val_main_v51_apply, val_main_v48_apply, val_main_v50_apply, val_main_v46_apply,
      val_main_v47_apply, val_main_v49_apply, val_main_c_10_apply, val_main_c_11_apply]
    have e : idx_main_v46 (idx_main_v52 (ix3 n k (0 : Fin 1))) = ix3 n k 0 := funext fun a => Fin.ext (by
      have hn := n.isLt; have hk := k.isLt
      match a with
      | ⟨0, _⟩ => show (n.val * 32 + k.val) / 32 = n.val; omega
      | ⟨1, _⟩ => show (n.val * 32 + k.val) / 1 % 32 = k.val; omega
      | ⟨2, _⟩ => rfl)
    rw [e]
    exact wrap_word _ (h5 n k)
  -- the gathered row: the input's row at the neighbour
  have hG : ∀ (n : Fin 1024) (k : Fin 32) (f : Fin 128),
      val_main_v53 (F := Ideal) x3 x4 x5 x6 x7 x8 x9 x10 x11 (ix3 n k f)
        = (val_main_v45 (F := Ideal) x3 x4 x5 x6 x7 x8 x9 x10 x11) (ix2 (nbr x5 n k) f) := by
    intro n k f
    unfold val_main_v53
    refine (gather_rows_apply (N := 1024) (C := 128) (R := 1024) (K := 32) (by decide)
      gather_S1024x128_S1024x32x1_S1024x32x128_2_0_n_n_0_2_1128 rfl rfl rfl rfl rfl rfl rfl
      (val_main_v45 (F := Ideal) x3 x4 x5 x6 x7 x8 x9 x10 x11) (val_main_v52 (F := Ideal) x5) n k f).trans ?_
    refine congrArg (fun r => (val_main_v45 (F := Ideal) x3 x4 x5 x6 x7 x8 x9 x10 x11) (ix2 r f)) (Fin.ext ?_)
    show min (val_main_v52 (F := Ideal) x5 (ix3 n k 0)).toInt.toNat (1024 - 1) = (x5 (ix3 n k 0)).toNat % 1024
    rw [hI n k, clamp_word _ (h5 n k), Nat.mod_eq_of_lt (h5 n k)]
  -- the neighbour mean
  have hN : ∀ (n : Fin 1024) (f : Fin 128),
      val_main_v56 (F := Ideal) x3 x4 x5 x6 x7 x8 x9 x10 x11 (ix2 n f)
        = (∑ k, (val_main_v45 (F := Ideal) x3 x4 x5 x6 x7 x8 x9 x10 x11) (ix2 (nbr x5 n k) f)) * c32 := by
    intro n f
    rw [val_main_v56_apply, val_main_v54_apply, val_main_v55_apply, val_main_cst_13_apply, val_main_cst_12_apply]
    show Ideal.div (Ideal.ofBits .f32 0x00000000#32
        + ∑ k : Fin 32, val_main_v53 (F := Ideal) x3 x4 x5 x6 x7 x8 x9 x10 x11 (idx_main_v54 (ix2 n f) k))
      (Ideal.ofBits .f32 0x42000000#32) = _
    rw [Ideal.ofBits_zero_f32, zero_add, div_32]
    refine congrArg (· * c32) (Finset.sum_congr rfl fun k _ => ?_)
    exact (congrArg (val_main_v53 (F := Ideal) x3 x4 x5 x6 x7 x8 x9 x10 x11)
      (funext fun a => by match a with | ⟨0, _⟩ => rfl | ⟨1, _⟩ => rfl | ⟨2, _⟩ => rfl)).trans (hG n k f)
  -- the edge mean
  have hE : ∀ (n : Fin 1024) (d : Fin 32), val_main_v59 (F := Ideal) x4 (ix2 n d) = (∑ k, x4 (ix3 n k d)) * c32 := by
    intro n d
    rw [val_main_v59_apply, val_main_v57_apply, val_main_v58_apply, val_main_cst_15_apply, val_main_cst_14_apply]
    show Ideal.div (Ideal.ofBits .f32 0x00000000#32 + ∑ k : Fin 32, x4 (idx_main_v57 (ix2 n d) k))
      (Ideal.ofBits .f32 0x42000000#32) = _
    rw [Ideal.ofBits_zero_f32, zero_add, div_32]
    refine congrArg (· * c32) (Finset.sum_congr rfl fun k _ => ?_)
    exact congrArg x4 (funext fun a => by match a with | ⟨0, _⟩ => rfl | ⟨1, _⟩ => rfl | ⟨2, _⟩ => rfl)
  -- the transposed weights
  have hWc : ∀ (f : Fin 128) (o : Fin 64), val_main_v60 (F := Ideal) x12 (ix2 f o) = x12 (ix2 o f) := by
    intro f o
    rw [val_main_v60_apply]
    exact congrArg x12 (funext fun a => by match a with | ⟨0, _⟩ => rfl | ⟨1, _⟩ => rfl)
  have hWn : ∀ (f : Fin 128) (o : Fin 64), val_main_v62 (F := Ideal) x13 (ix2 f o) = x13 (ix2 o f) := by
    intro f o
    rw [val_main_v62_apply]
    exact congrArg x13 (funext fun a => by match a with | ⟨0, _⟩ => rfl | ⟨1, _⟩ => rfl)
  have hWe : ∀ (d : Fin 32) (o : Fin 64), val_main_v65 (F := Ideal) x14 (ix2 d o) = x14 (ix2 o d) := by
    intro d o
    rw [val_main_v65_apply]
    exact congrArg x14 (funext fun a => by match a with | ⟨0, _⟩ => rfl | ⟨1, _⟩ => rfl)
  -- the three products, the two sums and the relu
  funext n o
  rw [convG_apply]
  show val_main_v68 (F := Ideal) x3 x4 x5 x6 x7 x8 x9 x10 x11 x12 x13 x14 (ix2 n o) = _
  rw [val_main_v68_apply, val_main_v67_apply, val_main_v64_apply, val_main_v61_apply, val_main_v63_apply,
    val_main_v66_apply, val_main_call2_v0_apply, val_main_call2_cst_apply]
  refine congrArg₂ max (congrArg₂ (· + ·) (congrArg₂ (· + ·)
    (Finset.sum_congr rfl fun k _ => ?_) (Finset.sum_congr rfl fun k _ => ?_)) (Finset.sum_congr rfl fun k _ => ?_))
    Ideal.ofBits_zero_f32
  · exact congrArg₂ (· * ·)
      (congrArg (val_main_v45 (F := Ideal) x3 x4 x5 x6 x7 x8 x9 x10 x11) (show lidx_main_v61 (ix2 n o) k = ix2 n k from
        funext fun a => by match a with | ⟨0, _⟩ => rfl | ⟨1, _⟩ => rfl))
      ((congrArg (val_main_v60 (F := Ideal) x12) (show ridx_main_v61 (ix2 n o) k = ix2 k o from
        funext fun a => by match a with | ⟨0, _⟩ => rfl | ⟨1, _⟩ => rfl)).trans (hWc k o))
  · exact congrArg₂ (· * ·)
      ((congrArg (val_main_v56 (F := Ideal) x3 x4 x5 x6 x7 x8 x9 x10 x11) (show lidx_main_v63 (ix2 n o) k = ix2 n k from
        funext fun a => by match a with | ⟨0, _⟩ => rfl | ⟨1, _⟩ => rfl)).trans (hN n k))
      ((congrArg (val_main_v62 (F := Ideal) x13) (show ridx_main_v63 (ix2 n o) k = ix2 k o from
        funext fun a => by match a with | ⟨0, _⟩ => rfl | ⟨1, _⟩ => rfl)).trans (hWn k o))
  · exact congrArg₂ (· * ·)
      ((congrArg (val_main_v59 (F := Ideal) x4) (show lidx_main_v66 (ix2 n o) k = ix2 n k from
        funext fun a => by match a with | ⟨0, _⟩ => rfl | ⟨1, _⟩ => rfl)).trans (hE n k))
      ((congrArg (val_main_v65 (F := Ideal) x14) (show ridx_main_v66 (ix2 n o) k = ix2 k o from
        funext fun a => by match a with | ⟨0, _⟩ => rfl | ⟨1, _⟩ => rfl)).trans (hWe k o))

/-- The left graph's three layers. -/
theorem side_left (x3 : S1024x64.Idx → EReal) (x4 : S1024x32x32.Idx → EReal) (x5 : S1024x32x1.Idx → BitVec 32) (h5 : InRange x5)
    (x6 x7 : S128x64.Idx → EReal) (x8 : S128x32.Idx → EReal) (x9 x10 : S128x128.Idx → EReal) (x11 : S128x32.Idx → EReal)
    (x12 x13 : S64x128.Idx → EReal) (x14 : S64x32.Idx → EReal) :
    cur2 (val_main_v68 (F := Ideal) x3 x4 x5 x6 x7 x8 x9 x10 x11 x12 x13 x14 : S1024x64.Idx → EReal)
      = sideG (cur2 x3) (cur3 x4) (nbr x5) (cur2 x6) (cur2 x7) (cur2 x8) (cur2 x9) (cur2 x10) (cur2 x11) (cur2 x12) (cur2 x13) (cur2 x14) := by
  -- layer 3 of layer 2 of layer 1
  rw [layer_l3 x3 x4 x5 h5 x6 x7 x8 x9 x10 x11 x12 x13 x14, layer_l2 x3 x4 x5 h5 x6 x7 x8 x9 x10 x11,
    layer_l1 x3 x4 x5 h5 x6 x7 x8]
  rfl

/-! ## The right graph -/

/-- Layer 1 of the right graph. -/
theorem layer_r1 (x0 : S1024x64.Idx → EReal) (x1 : S1024x32x32.Idx → EReal) (x2 : S1024x32x1.Idx → BitVec 32) (h2 : InRange x2)
    (x6 x7 : S128x64.Idx → EReal) (x8 : S128x32.Idx → EReal) :
    cur2 (val_main_v91 (F := Ideal) x0 x1 x2 x6 x7 x8 : S1024x128.Idx → EReal)
      = convG (cur2 x0) (cur3 x1) (nbr x2) (cur2 x6) (cur2 x7) (cur2 x8) := by
  -- the index word at (n, k, 0): reshaped, wrapped, broadcast back — the stored word
  have hI : ∀ (n : Fin 1024) (k : Fin 32), val_main_v75 (F := Ideal) x2 (ix3 n k 0) = x2 (ix3 n k 0) := by
    intro n k
    rw [val_main_v75_apply, val_main_v74_apply, val_main_v71_apply, val_main_v73_apply, val_main_v69_apply,
      val_main_v70_apply, val_main_v72_apply, val_main_c_16_apply, val_main_c_17_apply]
    have e : idx_main_v69 (idx_main_v75 (ix3 n k (0 : Fin 1))) = ix3 n k 0 := funext fun a => Fin.ext (by
      have hn := n.isLt; have hk := k.isLt
      match a with
      | ⟨0, _⟩ => show (n.val * 32 + k.val) / 32 = n.val; omega
      | ⟨1, _⟩ => show (n.val * 32 + k.val) / 1 % 32 = k.val; omega
      | ⟨2, _⟩ => rfl)
    rw [e]
    exact wrap_word _ (h2 n k)
  -- the gathered row: the input's row at the neighbour
  have hG : ∀ (n : Fin 1024) (k : Fin 32) (f : Fin 64),
      val_main_v76 (F := Ideal) x0 x2 (ix3 n k f) = x0 (ix2 (nbr x2 n k) f) := by
    intro n k f
    unfold val_main_v76
    refine (gather_rows_apply (N := 1024) (C := 64) (R := 1024) (K := 32) (by decide)
      gather_S1024x64_S1024x32x1_S1024x32x64_2_0_n_n_0_2_164 rfl rfl rfl rfl rfl rfl rfl
      x0 (val_main_v75 (F := Ideal) x2) n k f).trans ?_
    refine congrArg (fun r => x0 (ix2 r f)) (Fin.ext ?_)
    show min (val_main_v75 (F := Ideal) x2 (ix3 n k 0)).toInt.toNat (1024 - 1) = (x2 (ix3 n k 0)).toNat % 1024
    rw [hI n k, clamp_word _ (h2 n k), Nat.mod_eq_of_lt (h2 n k)]
  -- the neighbour mean
  have hN : ∀ (n : Fin 1024) (f : Fin 64),
      val_main_v79 (F := Ideal) x0 x2 (ix2 n f) = (∑ k, x0 (ix2 (nbr x2 n k) f)) * c32 := by
    intro n f
    rw [val_main_v79_apply, val_main_v77_apply, val_main_v78_apply, val_main_cst_19_apply, val_main_cst_18_apply]
    show Ideal.div (Ideal.ofBits .f32 0x00000000#32 + ∑ k : Fin 32, val_main_v76 (F := Ideal) x0 x2 (idx_main_v77 (ix2 n f) k))
      (Ideal.ofBits .f32 0x42000000#32) = _
    rw [Ideal.ofBits_zero_f32, zero_add, div_32]
    refine congrArg (· * c32) (Finset.sum_congr rfl fun k _ => ?_)
    exact (congrArg (val_main_v76 (F := Ideal) x0 x2)
      (funext fun a => by match a with | ⟨0, _⟩ => rfl | ⟨1, _⟩ => rfl | ⟨2, _⟩ => rfl)).trans (hG n k f)
  -- the edge mean
  have hE : ∀ (n : Fin 1024) (d : Fin 32), val_main_v82 (F := Ideal) x1 (ix2 n d) = (∑ k, x1 (ix3 n k d)) * c32 := by
    intro n d
    rw [val_main_v82_apply, val_main_v80_apply, val_main_v81_apply, val_main_cst_21_apply, val_main_cst_20_apply]
    show Ideal.div (Ideal.ofBits .f32 0x00000000#32 + ∑ k : Fin 32, x1 (idx_main_v80 (ix2 n d) k))
      (Ideal.ofBits .f32 0x42000000#32) = _
    rw [Ideal.ofBits_zero_f32, zero_add, div_32]
    refine congrArg (· * c32) (Finset.sum_congr rfl fun k _ => ?_)
    exact congrArg x1 (funext fun a => by match a with | ⟨0, _⟩ => rfl | ⟨1, _⟩ => rfl | ⟨2, _⟩ => rfl)
  -- the transposed weights
  have hWc : ∀ (f : Fin 64) (o : Fin 128), val_main_v83 (F := Ideal) x6 (ix2 f o) = x6 (ix2 o f) := by
    intro f o
    rw [val_main_v83_apply]
    exact congrArg x6 (funext fun a => by match a with | ⟨0, _⟩ => rfl | ⟨1, _⟩ => rfl)
  have hWn : ∀ (f : Fin 64) (o : Fin 128), val_main_v85 (F := Ideal) x7 (ix2 f o) = x7 (ix2 o f) := by
    intro f o
    rw [val_main_v85_apply]
    exact congrArg x7 (funext fun a => by match a with | ⟨0, _⟩ => rfl | ⟨1, _⟩ => rfl)
  have hWe : ∀ (d : Fin 32) (o : Fin 128), val_main_v88 (F := Ideal) x8 (ix2 d o) = x8 (ix2 o d) := by
    intro d o
    rw [val_main_v88_apply]
    exact congrArg x8 (funext fun a => by match a with | ⟨0, _⟩ => rfl | ⟨1, _⟩ => rfl)
  -- the three products, the two sums and the relu
  funext n o
  rw [convG_apply]
  show val_main_v91 (F := Ideal) x0 x1 x2 x6 x7 x8 (ix2 n o) = _
  rw [val_main_v91_apply, val_main_v90_apply, val_main_v87_apply, val_main_v84_apply, val_main_v86_apply,
    val_main_v89_apply, val_main_call3_v0_apply, val_main_call3_cst_apply]
  refine congrArg₂ max (congrArg₂ (· + ·) (congrArg₂ (· + ·)
    (Finset.sum_congr rfl fun k _ => ?_) (Finset.sum_congr rfl fun k _ => ?_)) (Finset.sum_congr rfl fun k _ => ?_))
    Ideal.ofBits_zero_f32
  · exact congrArg₂ (· * ·)
      (congrArg x0 (show lidx_main_v84 (ix2 n o) k = ix2 n k from
        funext fun a => by match a with | ⟨0, _⟩ => rfl | ⟨1, _⟩ => rfl))
      ((congrArg (val_main_v83 (F := Ideal) x6) (show ridx_main_v84 (ix2 n o) k = ix2 k o from
        funext fun a => by match a with | ⟨0, _⟩ => rfl | ⟨1, _⟩ => rfl)).trans (hWc k o))
  · exact congrArg₂ (· * ·)
      ((congrArg (val_main_v79 (F := Ideal) x0 x2) (show lidx_main_v86 (ix2 n o) k = ix2 n k from
        funext fun a => by match a with | ⟨0, _⟩ => rfl | ⟨1, _⟩ => rfl)).trans (hN n k))
      ((congrArg (val_main_v85 (F := Ideal) x7) (show ridx_main_v86 (ix2 n o) k = ix2 k o from
        funext fun a => by match a with | ⟨0, _⟩ => rfl | ⟨1, _⟩ => rfl)).trans (hWn k o))
  · exact congrArg₂ (· * ·)
      ((congrArg (val_main_v82 (F := Ideal) x1) (show lidx_main_v89 (ix2 n o) k = ix2 n k from
        funext fun a => by match a with | ⟨0, _⟩ => rfl | ⟨1, _⟩ => rfl)).trans (hE n k))
      ((congrArg (val_main_v88 (F := Ideal) x8) (show ridx_main_v89 (ix2 n o) k = ix2 k o from
        funext fun a => by match a with | ⟨0, _⟩ => rfl | ⟨1, _⟩ => rfl)).trans (hWe k o))

/-- Layer 2 of the right graph, from layer 1's result. -/
theorem layer_r2 (x0 : S1024x64.Idx → EReal) (x1 : S1024x32x32.Idx → EReal) (x2 : S1024x32x1.Idx → BitVec 32) (h2 : InRange x2)
    (x6 x7 : S128x64.Idx → EReal) (x8 : S128x32.Idx → EReal)
    (x9 x10 : S128x128.Idx → EReal) (x11 : S128x32.Idx → EReal) :
    cur2 (val_main_v114 (F := Ideal) x0 x1 x2 x6 x7 x8 x9 x10 x11 : S1024x128.Idx → EReal)
      = convG (cur2 (val_main_v91 (F := Ideal) x0 x1 x2 x6 x7 x8 : S1024x128.Idx → EReal)) (cur3 x1) (nbr x2) (cur2 x9) (cur2 x10) (cur2 x11) := by
  -- the index word at (n, k, 0): reshaped, wrapped, broadcast back — the stored word
  have hI : ∀ (n : Fin 1024) (k : Fin 32), val_main_v98 (F := Ideal) x2 (ix3 n k 0) = x2 (ix3 n k 0) := by
    intro n k
    rw [val_main_v98_apply, val_main_v97_apply, val_main_v94_apply, val_main_v96_apply, val_main_v92_apply,
      val_main_v93_apply, val_main_v95_apply, val_main_c_22_apply, val_main_c_23_apply]
    have e : idx_main_v92 (idx_main_v98 (ix3 n k (0 : Fin 1))) = ix3 n k 0 := funext fun a => Fin.ext (by
      have hn := n.isLt; have hk := k.isLt
      match a with
      | ⟨0, _⟩ => show (n.val * 32 + k.val) / 32 = n.val; omega
      | ⟨1, _⟩ => show (n.val * 32 + k.val) / 1 % 32 = k.val; omega
      | ⟨2, _⟩ => rfl)
    rw [e]
    exact wrap_word _ (h2 n k)
  -- the gathered row: the input's row at the neighbour
  have hG : ∀ (n : Fin 1024) (k : Fin 32) (f : Fin 128),
      val_main_v99 (F := Ideal) x0 x1 x2 x6 x7 x8 (ix3 n k f)
        = (val_main_v91 (F := Ideal) x0 x1 x2 x6 x7 x8) (ix2 (nbr x2 n k) f) := by
    intro n k f
    unfold val_main_v99
    refine (gather_rows_apply (N := 1024) (C := 128) (R := 1024) (K := 32) (by decide)
      gather_S1024x128_S1024x32x1_S1024x32x128_2_0_n_n_0_2_1128 rfl rfl rfl rfl rfl rfl rfl
      (val_main_v91 (F := Ideal) x0 x1 x2 x6 x7 x8) (val_main_v98 (F := Ideal) x2) n k f).trans ?_
    refine congrArg (fun r => (val_main_v91 (F := Ideal) x0 x1 x2 x6 x7 x8) (ix2 r f)) (Fin.ext ?_)
    show min (val_main_v98 (F := Ideal) x2 (ix3 n k 0)).toInt.toNat (1024 - 1) = (x2 (ix3 n k 0)).toNat % 1024
    rw [hI n k, clamp_word _ (h2 n k), Nat.mod_eq_of_lt (h2 n k)]
  -- the neighbour mean
  have hN : ∀ (n : Fin 1024) (f : Fin 128),
      val_main_v102 (F := Ideal) x0 x1 x2 x6 x7 x8 (ix2 n f)
        = (∑ k, (val_main_v91 (F := Ideal) x0 x1 x2 x6 x7 x8) (ix2 (nbr x2 n k) f)) * c32 := by
    intro n f
    rw [val_main_v102_apply, val_main_v100_apply, val_main_v101_apply, val_main_cst_25_apply, val_main_cst_24_apply]
    show Ideal.div (Ideal.ofBits .f32 0x00000000#32
        + ∑ k : Fin 32, val_main_v99 (F := Ideal) x0 x1 x2 x6 x7 x8 (idx_main_v100 (ix2 n f) k))
      (Ideal.ofBits .f32 0x42000000#32) = _
    rw [Ideal.ofBits_zero_f32, zero_add, div_32]
    refine congrArg (· * c32) (Finset.sum_congr rfl fun k _ => ?_)
    exact (congrArg (val_main_v99 (F := Ideal) x0 x1 x2 x6 x7 x8)
      (funext fun a => by match a with | ⟨0, _⟩ => rfl | ⟨1, _⟩ => rfl | ⟨2, _⟩ => rfl)).trans (hG n k f)
  -- the edge mean
  have hE : ∀ (n : Fin 1024) (d : Fin 32), val_main_v105 (F := Ideal) x1 (ix2 n d) = (∑ k, x1 (ix3 n k d)) * c32 := by
    intro n d
    rw [val_main_v105_apply, val_main_v103_apply, val_main_v104_apply, val_main_cst_27_apply, val_main_cst_26_apply]
    show Ideal.div (Ideal.ofBits .f32 0x00000000#32 + ∑ k : Fin 32, x1 (idx_main_v103 (ix2 n d) k))
      (Ideal.ofBits .f32 0x42000000#32) = _
    rw [Ideal.ofBits_zero_f32, zero_add, div_32]
    refine congrArg (· * c32) (Finset.sum_congr rfl fun k _ => ?_)
    exact congrArg x1 (funext fun a => by match a with | ⟨0, _⟩ => rfl | ⟨1, _⟩ => rfl | ⟨2, _⟩ => rfl)
  -- the transposed weights
  have hWc : ∀ (f : Fin 128) (o : Fin 128), val_main_v106 (F := Ideal) x9 (ix2 f o) = x9 (ix2 o f) := by
    intro f o
    rw [val_main_v106_apply]
    exact congrArg x9 (funext fun a => by match a with | ⟨0, _⟩ => rfl | ⟨1, _⟩ => rfl)
  have hWn : ∀ (f : Fin 128) (o : Fin 128), val_main_v108 (F := Ideal) x10 (ix2 f o) = x10 (ix2 o f) := by
    intro f o
    rw [val_main_v108_apply]
    exact congrArg x10 (funext fun a => by match a with | ⟨0, _⟩ => rfl | ⟨1, _⟩ => rfl)
  have hWe : ∀ (d : Fin 32) (o : Fin 128), val_main_v111 (F := Ideal) x11 (ix2 d o) = x11 (ix2 o d) := by
    intro d o
    rw [val_main_v111_apply]
    exact congrArg x11 (funext fun a => by match a with | ⟨0, _⟩ => rfl | ⟨1, _⟩ => rfl)
  -- the three products, the two sums and the relu
  funext n o
  rw [convG_apply]
  show val_main_v114 (F := Ideal) x0 x1 x2 x6 x7 x8 x9 x10 x11 (ix2 n o) = _
  rw [val_main_v114_apply, val_main_v113_apply, val_main_v110_apply, val_main_v107_apply, val_main_v109_apply,
    val_main_v112_apply, val_main_call4_v0_apply, val_main_call4_cst_apply]
  refine congrArg₂ max (congrArg₂ (· + ·) (congrArg₂ (· + ·)
    (Finset.sum_congr rfl fun k _ => ?_) (Finset.sum_congr rfl fun k _ => ?_)) (Finset.sum_congr rfl fun k _ => ?_))
    Ideal.ofBits_zero_f32
  · exact congrArg₂ (· * ·)
      (congrArg (val_main_v91 (F := Ideal) x0 x1 x2 x6 x7 x8) (show lidx_main_v107 (ix2 n o) k = ix2 n k from
        funext fun a => by match a with | ⟨0, _⟩ => rfl | ⟨1, _⟩ => rfl))
      ((congrArg (val_main_v106 (F := Ideal) x9) (show ridx_main_v107 (ix2 n o) k = ix2 k o from
        funext fun a => by match a with | ⟨0, _⟩ => rfl | ⟨1, _⟩ => rfl)).trans (hWc k o))
  · exact congrArg₂ (· * ·)
      ((congrArg (val_main_v102 (F := Ideal) x0 x1 x2 x6 x7 x8) (show lidx_main_v109 (ix2 n o) k = ix2 n k from
        funext fun a => by match a with | ⟨0, _⟩ => rfl | ⟨1, _⟩ => rfl)).trans (hN n k))
      ((congrArg (val_main_v108 (F := Ideal) x10) (show ridx_main_v109 (ix2 n o) k = ix2 k o from
        funext fun a => by match a with | ⟨0, _⟩ => rfl | ⟨1, _⟩ => rfl)).trans (hWn k o))
  · exact congrArg₂ (· * ·)
      ((congrArg (val_main_v105 (F := Ideal) x1) (show lidx_main_v112 (ix2 n o) k = ix2 n k from
        funext fun a => by match a with | ⟨0, _⟩ => rfl | ⟨1, _⟩ => rfl)).trans (hE n k))
      ((congrArg (val_main_v111 (F := Ideal) x11) (show ridx_main_v112 (ix2 n o) k = ix2 k o from
        funext fun a => by match a with | ⟨0, _⟩ => rfl | ⟨1, _⟩ => rfl)).trans (hWe k o))

/-- Layer 3 of the right graph, from layer 2's result. -/
theorem layer_r3 (x0 : S1024x64.Idx → EReal) (x1 : S1024x32x32.Idx → EReal) (x2 : S1024x32x1.Idx → BitVec 32) (h2 : InRange x2)
    (x6 x7 : S128x64.Idx → EReal) (x8 : S128x32.Idx → EReal)
    (x9 x10 : S128x128.Idx → EReal) (x11 : S128x32.Idx → EReal)
    (x12 x13 : S64x128.Idx → EReal) (x14 : S64x32.Idx → EReal) :
    cur2 (val_main_v137 (F := Ideal) x0 x1 x2 x6 x7 x8 x9 x10 x11 x12 x13 x14 : S1024x64.Idx → EReal)
      = convG (cur2 (val_main_v114 (F := Ideal) x0 x1 x2 x6 x7 x8 x9 x10 x11 : S1024x128.Idx → EReal)) (cur3 x1) (nbr x2) (cur2 x12) (cur2 x13) (cur2 x14) := by
  -- the index word at (n, k, 0): reshaped, wrapped, broadcast back — the stored word
  have hI : ∀ (n : Fin 1024) (k : Fin 32), val_main_v121 (F := Ideal) x2 (ix3 n k 0) = x2 (ix3 n k 0) := by
    intro n k
    rw [val_main_v121_apply, val_main_v120_apply, val_main_v117_apply, val_main_v119_apply, val_main_v115_apply,
      val_main_v116_apply, val_main_v118_apply, val_main_c_28_apply, val_main_c_29_apply]
    have e : idx_main_v115 (idx_main_v121 (ix3 n k (0 : Fin 1))) = ix3 n k 0 := funext fun a => Fin.ext (by
      have hn := n.isLt; have hk := k.isLt
      match a with
      | ⟨0, _⟩ => show (n.val * 32 + k.val) / 32 = n.val; omega
      | ⟨1, _⟩ => show (n.val * 32 + k.val) / 1 % 32 = k.val; omega
      | ⟨2, _⟩ => rfl)
    rw [e]
    exact wrap_word _ (h2 n k)
  -- the gathered row: the input's row at the neighbour
  have hG : ∀ (n : Fin 1024) (k : Fin 32) (f : Fin 128),
      val_main_v122 (F := Ideal) x0 x1 x2 x6 x7 x8 x9 x10 x11 (ix3 n k f)
        = (val_main_v114 (F := Ideal) x0 x1 x2 x6 x7 x8 x9 x10 x11) (ix2 (nbr x2 n k) f) := by
    intro n k f
    unfold val_main_v122
    refine (gather_rows_apply (N := 1024) (C := 128) (R := 1024) (K := 32) (by decide)
      gather_S1024x128_S1024x32x1_S1024x32x128_2_0_n_n_0_2_1128 rfl rfl rfl rfl rfl rfl rfl
      (val_main_v114 (F := Ideal) x0 x1 x2 x6 x7 x8 x9 x10 x11) (val_main_v121 (F := Ideal) x2) n k f).trans ?_
    refine congrArg (fun r => (val_main_v114 (F := Ideal) x0 x1 x2 x6 x7 x8 x9 x10 x11) (ix2 r f)) (Fin.ext ?_)
    show min (val_main_v121 (F := Ideal) x2 (ix3 n k 0)).toInt.toNat (1024 - 1) = (x2 (ix3 n k 0)).toNat % 1024
    rw [hI n k, clamp_word _ (h2 n k), Nat.mod_eq_of_lt (h2 n k)]
  -- the neighbour mean
  have hN : ∀ (n : Fin 1024) (f : Fin 128),
      val_main_v125 (F := Ideal) x0 x1 x2 x6 x7 x8 x9 x10 x11 (ix2 n f)
        = (∑ k, (val_main_v114 (F := Ideal) x0 x1 x2 x6 x7 x8 x9 x10 x11) (ix2 (nbr x2 n k) f)) * c32 := by
    intro n f
    rw [val_main_v125_apply, val_main_v123_apply, val_main_v124_apply, val_main_cst_31_apply, val_main_cst_30_apply]
    show Ideal.div (Ideal.ofBits .f32 0x00000000#32
        + ∑ k : Fin 32, val_main_v122 (F := Ideal) x0 x1 x2 x6 x7 x8 x9 x10 x11 (idx_main_v123 (ix2 n f) k))
      (Ideal.ofBits .f32 0x42000000#32) = _
    rw [Ideal.ofBits_zero_f32, zero_add, div_32]
    refine congrArg (· * c32) (Finset.sum_congr rfl fun k _ => ?_)
    exact (congrArg (val_main_v122 (F := Ideal) x0 x1 x2 x6 x7 x8 x9 x10 x11)
      (funext fun a => by match a with | ⟨0, _⟩ => rfl | ⟨1, _⟩ => rfl | ⟨2, _⟩ => rfl)).trans (hG n k f)
  -- the edge mean
  have hE : ∀ (n : Fin 1024) (d : Fin 32), val_main_v128 (F := Ideal) x1 (ix2 n d) = (∑ k, x1 (ix3 n k d)) * c32 := by
    intro n d
    rw [val_main_v128_apply, val_main_v126_apply, val_main_v127_apply, val_main_cst_33_apply, val_main_cst_32_apply]
    show Ideal.div (Ideal.ofBits .f32 0x00000000#32 + ∑ k : Fin 32, x1 (idx_main_v126 (ix2 n d) k))
      (Ideal.ofBits .f32 0x42000000#32) = _
    rw [Ideal.ofBits_zero_f32, zero_add, div_32]
    refine congrArg (· * c32) (Finset.sum_congr rfl fun k _ => ?_)
    exact congrArg x1 (funext fun a => by match a with | ⟨0, _⟩ => rfl | ⟨1, _⟩ => rfl | ⟨2, _⟩ => rfl)
  -- the transposed weights
  have hWc : ∀ (f : Fin 128) (o : Fin 64), val_main_v129 (F := Ideal) x12 (ix2 f o) = x12 (ix2 o f) := by
    intro f o
    rw [val_main_v129_apply]
    exact congrArg x12 (funext fun a => by match a with | ⟨0, _⟩ => rfl | ⟨1, _⟩ => rfl)
  have hWn : ∀ (f : Fin 128) (o : Fin 64), val_main_v131 (F := Ideal) x13 (ix2 f o) = x13 (ix2 o f) := by
    intro f o
    rw [val_main_v131_apply]
    exact congrArg x13 (funext fun a => by match a with | ⟨0, _⟩ => rfl | ⟨1, _⟩ => rfl)
  have hWe : ∀ (d : Fin 32) (o : Fin 64), val_main_v134 (F := Ideal) x14 (ix2 d o) = x14 (ix2 o d) := by
    intro d o
    rw [val_main_v134_apply]
    exact congrArg x14 (funext fun a => by match a with | ⟨0, _⟩ => rfl | ⟨1, _⟩ => rfl)
  -- the three products, the two sums and the relu
  funext n o
  rw [convG_apply]
  show val_main_v137 (F := Ideal) x0 x1 x2 x6 x7 x8 x9 x10 x11 x12 x13 x14 (ix2 n o) = _
  rw [val_main_v137_apply, val_main_v136_apply, val_main_v133_apply, val_main_v130_apply, val_main_v132_apply,
    val_main_v135_apply, val_main_call5_v0_apply, val_main_call5_cst_apply]
  refine congrArg₂ max (congrArg₂ (· + ·) (congrArg₂ (· + ·)
    (Finset.sum_congr rfl fun k _ => ?_) (Finset.sum_congr rfl fun k _ => ?_)) (Finset.sum_congr rfl fun k _ => ?_))
    Ideal.ofBits_zero_f32
  · exact congrArg₂ (· * ·)
      (congrArg (val_main_v114 (F := Ideal) x0 x1 x2 x6 x7 x8 x9 x10 x11) (show lidx_main_v130 (ix2 n o) k = ix2 n k from
        funext fun a => by match a with | ⟨0, _⟩ => rfl | ⟨1, _⟩ => rfl))
      ((congrArg (val_main_v129 (F := Ideal) x12) (show ridx_main_v130 (ix2 n o) k = ix2 k o from
        funext fun a => by match a with | ⟨0, _⟩ => rfl | ⟨1, _⟩ => rfl)).trans (hWc k o))
  · exact congrArg₂ (· * ·)
      ((congrArg (val_main_v125 (F := Ideal) x0 x1 x2 x6 x7 x8 x9 x10 x11) (show lidx_main_v132 (ix2 n o) k = ix2 n k from
        funext fun a => by match a with | ⟨0, _⟩ => rfl | ⟨1, _⟩ => rfl)).trans (hN n k))
      ((congrArg (val_main_v131 (F := Ideal) x13) (show ridx_main_v132 (ix2 n o) k = ix2 k o from
        funext fun a => by match a with | ⟨0, _⟩ => rfl | ⟨1, _⟩ => rfl)).trans (hWn k o))
  · exact congrArg₂ (· * ·)
      ((congrArg (val_main_v128 (F := Ideal) x1) (show lidx_main_v135 (ix2 n o) k = ix2 n k from
        funext fun a => by match a with | ⟨0, _⟩ => rfl | ⟨1, _⟩ => rfl)).trans (hE n k))
      ((congrArg (val_main_v134 (F := Ideal) x14) (show ridx_main_v135 (ix2 n o) k = ix2 k o from
        funext fun a => by match a with | ⟨0, _⟩ => rfl | ⟨1, _⟩ => rfl)).trans (hWe k o))

/-- The right graph's three layers. -/
theorem side_right (x0 : S1024x64.Idx → EReal) (x1 : S1024x32x32.Idx → EReal) (x2 : S1024x32x1.Idx → BitVec 32) (h2 : InRange x2)
    (x6 x7 : S128x64.Idx → EReal) (x8 : S128x32.Idx → EReal) (x9 x10 : S128x128.Idx → EReal) (x11 : S128x32.Idx → EReal)
    (x12 x13 : S64x128.Idx → EReal) (x14 : S64x32.Idx → EReal) :
    cur2 (val_main_v137 (F := Ideal) x0 x1 x2 x6 x7 x8 x9 x10 x11 x12 x13 x14 : S1024x64.Idx → EReal)
      = sideG (cur2 x0) (cur3 x1) (nbr x2) (cur2 x6) (cur2 x7) (cur2 x8) (cur2 x9) (cur2 x10) (cur2 x11) (cur2 x12) (cur2 x13) (cur2 x14) := by
  -- layer 3 of layer 2 of layer 1
  rw [layer_r3 x0 x1 x2 h2 x6 x7 x8 x9 x10 x11 x12 x13 x14, layer_r2 x0 x1 x2 h2 x6 x7 x8 x9 x10 x11,
    layer_r1 x0 x1 x2 h2 x6 x7 x8]
  rfl

end Cert.RefValue

end
-- ==== Proof.RefValue.lean ====
/-
  The reference program's result, read back: its composed term of the arguments is the network, neighbour
  means by gather and the merge formed before A1, of the stored arguments, laid out flat.
-/
import proofs.«429352_j49331994362309_3_alg».proof.Proof.Gen.ReferenceIdeal.Read
import proofs.«429352_j49331994362309_3_alg».proof.Proof.Cur
import proofs.«429352_j49331994362309_3_alg».proof.Proof.RefSide

set_option maxRecDepth 16384

noncomputable section

namespace Cert.RefValue.Dense

open Idealize.ShloMosaic Idealize.ShloMosaic.TcCoe Idealize.ShloMosaic.ValueIdx Idealize.SL.Sem
open Cert.ReferenceIdeal Cert.ReferenceIdeal.Gen Cert.ReferenceIdeal.Read Cert.Spec Cert.Cur

/-- The word 0x3F000000 denotes the real 1/2. -/
theorem ofBits_half : Ideal.ofBits .f32 0x3F000000#32 = half := by
  unfold half
  simp [Ideal.ofBits, Ideal.ieee, -EReal.coe_mul]; norm_num

section Dense
variable (x0 : S1024x64.Idx → EReal) (x1 : S1024x32x32.Idx → EReal) (x2 : S1024x32x1.Idx → BitVec 32)
  (x3 : S1024x64.Idx → EReal) (x4 : S1024x32x32.Idx → EReal) (x5 : S1024x32x1.Idx → BitVec 32)
  (x6 x7 : S128x64.Idx → EReal) (x8 : S128x32.Idx → EReal) (x9 x10 : S128x128.Idx → EReal) (x11 : S128x32.Idx → EReal)
  (x12 x13 : S64x128.Idx → EReal) (x14 : S64x32.Idx → EReal)
  (x15 : S128x64.Idx → EReal) (x16 : S64x128.Idx → EReal) (x17 : S2x64.Idx → EReal)

/-- The merged pair, transposed: feature f of row p = i·1024 + j is ½ (xl i f + xr j f), with i = p / 1024 and j = p % 1024. -/
theorem merged_at (p : Fin 1048576) (f : Fin 64) :
    (val_main_v146 (F := Ideal) x0 x1 x2 x3 x4 x5 x6 x7 x8 x9 x10 x11 x12 x13 x14 : S64x1048576.Idx → EReal) (ix2 f p)
      = half * (cur2 (val_main_v68 (F := Ideal) x3 x4 x5 x6 x7 x8 x9 x10 x11 x12 x13 x14 : S1024x64.Idx → EReal) (⟨p.val / 1024, by have := p.isLt; omega⟩ : Fin 1024) f + cur2 (val_main_v137 (F := Ideal) x0 x1 x2 x6 x7 x8 x9 x10 x11 x12 x13 x14 : S1024x64.Idx → EReal) (⟨p.val % 1024, Nat.mod_lt _ (by decide)⟩ : Fin 1024) f) := by
  rw [val_main_v146_apply, val_main_v145_apply, val_main_v144_apply, val_main_v143_apply, val_main_cst_34_apply,
    val_main_v142_apply, val_main_v140_apply, val_main_v141_apply, val_main_v138_apply, val_main_v139_apply,
    Ideal.mulf_def, Ideal.addf_def, Ideal.ofBits_def, ofBits_half]
  have h0 := f.isLt
  have h1 := p.isLt
  have el : idx_main_v138 (idx_main_v140 (idx_main_v145 (idx_main_v146 (ix2 f p))))
      = (ix2 (⟨p.val / 1024, by have := p.isLt; omega⟩ : Fin 1024) f : S1024x64.Idx) :=
    funext fun a => Fin.ext (by
      match a with
      | ⟨0, _⟩ => show (p.val * 64 + f.val) / 65536 = p.val / 1024; omega
      | ⟨1, _⟩ => show (p.val * 64 + f.val) % 64 = f.val; omega)
  have er : idx_main_v139 (idx_main_v141 (idx_main_v145 (idx_main_v146 (ix2 f p))))
      = (ix2 (⟨p.val % 1024, Nat.mod_lt _ (by decide)⟩ : Fin 1024) f : S1024x64.Idx) :=
    funext fun a => Fin.ext (by
      match a with
      | ⟨0, _⟩ => show (p.val * 64 + f.val) / 64 % 1024 = p.val % 1024; omega
      | ⟨1, _⟩ => show (p.val * 64 + f.val) % 64 = f.val; omega)
  rw [el, er]
  rfl

/-- The first dense layer's activation d at row p. -/
theorem h1_at (d : Fin 128) (p : Fin 1048576) :
    (val_main_v148 (F := Ideal) x0 x1 x2 x3 x4 x5 x6 x7 x8 x9 x10 x11 x12 x13 x14 x15 : S128x1048576.Idx → EReal) (ix2 d p)
      = h1G (cur2 (val_main_v68 (F := Ideal) x3 x4 x5 x6 x7 x8 x9 x10 x11 x12 x13 x14 : S1024x64.Idx → EReal)) (cur2 (val_main_v137 (F := Ideal) x0 x1 x2 x6 x7 x8 x9 x10 x11 x12 x13 x14 : S1024x64.Idx → EReal)) (cur2 x15) d (⟨p.val / 1024, by have := p.isLt; omega⟩ : Fin 1024) (⟨p.val % 1024, Nat.mod_lt _ (by decide)⟩ : Fin 1024) := by
  rw [val_main_v148_apply, val_main_v147_apply, val_main_call6_v0_apply, val_main_call6_cst_apply,
    Ideal.maximumf_def, Ideal.ofBits_def, Ideal.ofBits_zero_f32]
  refine congrArg (max · 0) (Finset.sum_congr rfl fun f _ => ?_)
  have el : lidx_main_v147 (ix2 d p) f = (ix2 d f : S128x64.Idx) :=
    funext fun a => by match a with | ⟨0, _⟩ => rfl | ⟨1, _⟩ => rfl
  have er : ridx_main_v147 (ix2 d p) f = (ix2 f p : S64x1048576.Idx) :=
    funext fun a => by match a with | ⟨0, _⟩ => rfl | ⟨1, _⟩ => rfl
  rw [el, er, merged_at]
  rfl

/-- The second dense layer's activation g at row p. -/
theorem h2_at (g : Fin 64) (p : Fin 1048576) :
    (val_main_v150 (F := Ideal) x0 x1 x2 x3 x4 x5 x6 x7 x8 x9 x10 x11 x12 x13 x14 x15 x16 : S64x1048576.Idx → EReal) (ix2 g p)
      = max (∑ d : Fin 128, cur2 x16 g d * h1G (cur2 (val_main_v68 (F := Ideal) x3 x4 x5 x6 x7 x8 x9 x10 x11 x12 x13 x14 : S1024x64.Idx → EReal)) (cur2 (val_main_v137 (F := Ideal) x0 x1 x2 x6 x7 x8 x9 x10 x11 x12 x13 x14 : S1024x64.Idx → EReal)) (cur2 x15) d (⟨p.val / 1024, by have := p.isLt; omega⟩ : Fin 1024) (⟨p.val % 1024, Nat.mod_lt _ (by decide)⟩ : Fin 1024)) 0 := by
  rw [val_main_v150_apply, val_main_v149_apply, val_main_call7_v0_apply, val_main_call7_cst_apply,
    Ideal.maximumf_def, Ideal.ofBits_def, Ideal.ofBits_zero_f32]
  refine congrArg (max · 0) (Finset.sum_congr rfl fun d _ => ?_)
  have el : lidx_main_v149 (ix2 g p) d = (ix2 g d : S64x128.Idx) :=
    funext fun a => by match a with | ⟨0, _⟩ => rfl | ⟨1, _⟩ => rfl
  have er : ridx_main_v149 (ix2 g p) d = (ix2 d p : S128x1048576.Idx) :=
    funext fun a => by match a with | ⟨0, _⟩ => rfl | ⟨1, _⟩ => rfl
  rw [el, er, h1_at]
  rfl

/-- The result's entry (a, p) is the dense part at (a, p / 1024, p % 1024). -/
theorem dense_at (a : Fin 2) (p : Fin 1048576) :
    (val_main_v152 (F := Ideal) x0 x1 x2 x3 x4 x5 x6 x7 x8 x9 x10 x11 x12 x13 x14 x15 x16 x17 : S2x1048576.Idx → EReal) (ix2 a p)
      = denseG (cur2 (val_main_v68 (F := Ideal) x3 x4 x5 x6 x7 x8 x9 x10 x11 x12 x13 x14 : S1024x64.Idx → EReal)) (cur2 (val_main_v137 (F := Ideal) x0 x1 x2 x6 x7 x8 x9 x10 x11 x12 x13 x14 : S1024x64.Idx → EReal)) (cur2 x15) (cur2 x16) (cur2 x17) a (⟨p.val / 1024, by have := p.isLt; omega⟩ : Fin 1024) (⟨p.val % 1024, Nat.mod_lt _ (by decide)⟩ : Fin 1024) := by
  rw [val_main_v152_apply, val_main_v151_apply, val_main_call8_v0_apply, val_main_call8_cst_apply,
    Ideal.maximumf_def, Ideal.ofBits_def, Ideal.ofBits_zero_f32]
  refine congrArg (max · 0) (Finset.sum_congr rfl fun g _ => ?_)
  have el : lidx_main_v151 (ix2 a p) g = (ix2 a g : S2x64.Idx) :=
    funext fun b => by match b with | ⟨0, _⟩ => rfl | ⟨1, _⟩ => rfl
  have er : ridx_main_v151 (ix2 a p) g = (ix2 g p : S64x1048576.Idx) :=
    funext fun b => by match b with | ⟨0, _⟩ => rfl | ⟨1, _⟩ => rfl
  rw [el, er, h2_at]
  rfl

/-- The reference's result array is the dense part of the two sides' stored outputs, laid out flat. -/
theorem dense_flat (q : S2x1048576.Idx) :
    (val_main_v152 (F := Ideal) x0 x1 x2 x3 x4 x5 x6 x7 x8 x9 x10 x11 x12 x13 x14 x15 x16 x17 : S2x1048576.Idx → EReal) q
      = flat (denseG (cur2 (val_main_v68 (F := Ideal) x3 x4 x5 x6 x7 x8 x9 x10 x11 x12 x13 x14 : S1024x64.Idx → EReal)) (cur2 (val_main_v137 (F := Ideal) x0 x1 x2 x6 x7 x8 x9 x10 x11 x12 x13 x14 : S1024x64.Idx → EReal)) (cur2 x15) (cur2 x16) (cur2 x17)) q :=
  (congrArg (val_main_v152 (F := Ideal) x0 x1 x2 x3 x4 x5 x6 x7 x8 x9 x10 x11 x12 x13 x14 x15 x16 x17 : S2x1048576.Idx → EReal) (eq_ix2 q)).trans
    (dense_at x0 x1 x2 x3 x4 x5 x6 x7 x8 x9 x10 x11 x12 x13 x14 x15 x16 x17 (q 0) (q 1))

end Dense

end Cert.RefValue.Dense

namespace Cert.RefValue

open Idealize.ShloMosaic Idealize.ShloMosaic.TcCoe Idealize.ShloMosaic.ValueIdx Idealize.SL.Sem
open Cert.ReferenceIdeal Cert.ReferenceIdeal.Gen Cert.Spec Cert.Cur

/-- The reference's result is the network of the stored arguments, neighbour means by gather and the merge formed
    before A1, laid out flat: the dense part of the two sides' outputs, each side's output being its three layers. -/
theorem result (m : (ℓ : Loc nD τ sig) → Buf (Elt Ideal) ℓ) (c : Dev nD)
    (h5 : InRange (m ((c.tc : Thread nD τ).loc main_arg5))) (h2 : InRange (m ((c.tc : Thread nD τ).loc main_arg2))) :
    (Cert.ReferenceIdeal.Value.res_main_v152 (F := Ideal) m c : S2x1048576.Idx → EReal)
      = flat (netG (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))) := by
  rw [Read.val_main_v152_eq]
  funext q
  rw [Dense.dense_flat]
  unfold netG
  rw [side_left _ _ _ h5, side_right _ _ _ h2]

end Cert.RefValue

end
-- ==== Proof.KCount.lean ====
/-
  The mean-neighbour matrix as the convolution body builds it: thirty-two one-hot comparisons of an index
  column against the column numbers, summed, times 1/32. Read at (n, j) it is the number of slots k whose
  index word is the word of j, times the real 1/32.
-/
import proofs.«429352_j49331994362309_3_alg».proof.Proof.Gen.KernelIdeal.Frame
import proofs.«429352_j49331994362309_3_alg».proof.Proof.Cur
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Cur

/-- The bf16 pattern of +0 denotes 0. -/
theorem bf16_zero : Ideal.ofBits .bf16 0x0000#16 = 0 := by
  simp [Ideal.ofBits, Ideal.ieee]

/-- The bf16 pattern 0x3D00 denotes the real 1/32. -/
theorem bf16_inv32 : Ideal.ofBits .bf16 0x3D00#16 = ((1 / 32 : ℝ) : EReal) := by
  simp [Ideal.ofBits, Ideal.ieee, -EReal.coe_mul]; norm_num

/-- One slot's value on words: the one-bit comparison of two words, widened and read as a signed number, is 1 when
    the words are equal and 0 otherwise. -/
theorem slot_word (a b : BitVec 32) :
    ((((IntOp.cmpi .eq a b).setWidth 32).toInt : ℝ) : EReal) = if a = b then (1 : EReal) else 0 := by
  by_cases h : a = b
  · have hc : IntOp.cmpi .eq a b = 1#1 := by subst h; simp [IntOp.cmpi]
    rw [hc, if_pos h]
    have : ((1#1 : BitVec 1).setWidth 32).toInt = 1 := by decide
    rw [this]; simp
  · have hb : (a == b) = false := beq_eq_false_iff_ne.mpr h
    have hc : IntOp.cmpi .eq a b = 0#1 := by simp [IntOp.cmpi, hb]
    rw [hc, if_neg h]
    have : ((0#1 : BitVec 1).setWidth 32).toInt = 0 := by decide
    rw [this]; simp

/-- A one-column matrix broadcast along its rows reads, at (p, c), the column at p. -/
theorem bcast_col_apply {α : Type} (v : S1024x1.Idx → α) (h : S1024x1.Broadcasts S1024x1024) (p c : Fin 1024) :
    broadcastTo S1024x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The column numbers: the iota along axis 1 reads, at (p, c), the word of c. -/
theorem iota_col_apply (h : S1024x1024.Iotas .tc 32 [1]) (p c : Fin 1024) :
    iota .tc S1024x1024 32 [1] h (ix2 p c) = BitVec.ofNat 32 c.val :=
  iota_single_apply .tc S1024x1024 32 1 h (ix2 p c)

/-- Column o of the index block as a one-column matrix reads, at (p, 0), the block at (p, o). -/
theorem col_apply (o : ℕ) (ho : o < 32) (v3 : IVec S1024x32 32) (h : S1024x32.Slices ![0, o] S1024x1) (p : Fin 1024) :
    extractStridedSlice S1024x1 ![0, o] v3 h (ix2 p (0 : Fin 1)) = v3 (ix2 p ⟨o, ho⟩) :=
  slice2_axis1_apply o v3 h p 0 ⟨o, ho⟩ rfl

/-- The indicator of slot o at (n, j): 1 when the index word at (n, o) is the word of j, 0 otherwise (0 past the last slot). -/
def ind (v3 : IVec S1024x32 32) (n j : Fin 1024) (o : ℕ) : EReal :=
  if h : o < 32 then (if v3 (ix2 n ⟨o, h⟩) = BitVec.ofNat 32 j.val then (1 : EReal) else 0) else 0

theorem ind_fin (v3 : IVec S1024x32 32) (n j : Fin 1024) (k : Fin 32) :
    ind v3 n j k.val = if v3 (ix2 n k) = BitVec.ofNat 32 j.val then (1 : EReal) else 0 := by
  unfold ind
  rw [dif_pos k.isLt]

/-- One slot, read at (n, j): the indicator that the index word at (n, o) is the word of j. -/
theorem slot_apply (o : ℕ) (v3 : IVec S1024x32 32) (h : S1024x32.Slices ![0, o] S1024x1)
    (hb : S1024x1.Broadcasts S1024x1024) (hi : S1024x1024.Iotas .tc 32 [1]) (h1 : 1 < 32)
    (ht : FTy.bits .bf16 < FTy.bits .f32) (n j : Fin 1024) :
    (truncf .bf16 (sitofp (F := Ideal) .f32 (extui 32 (cmpi .eq (broadcastTo S1024x1024 (extractStridedSlice S1024x1 ![0, o] v3 h) hb)
      (iota .tc S1024x1024 32 [1] hi)) h1)) ht : FVec Ideal S1024x1024 .bf16) (ix2 n j) = ind v3 n j o := by
  have ho : o < 32 := by
    have := h.2 1
    exact Nat.lt_of_succ_le this
  rw [truncf_apply, sitofp_apply, extui_apply]
  show ((((IntOp.cmpi .eq (broadcastTo S1024x1024 (extractStridedSlice S1024x1 ![0, o] v3 h) hb (ix2 n j))
      (iota .tc S1024x1024 32 [1] hi (ix2 n j))).setWidth 32).toInt : ℝ) : EReal) = _
  rw [bcast_col_apply, iota_col_apply, col_apply o ho, slot_word]
  unfold ind
  rw [dif_pos ho]

/-- The splat constants of the body at the extended reals. -/
theorem scalar_zero : (Scalar.ofBits .bf16 0x0000#16 : Ideal .bf16) = 0 := bf16_zero
theorem scalar_inv32 : (Scalar.ofBits .bf16 0x3D00#16 : Ideal .bf16) = c32 := bf16_inv32

/-- Slots 0..4 onto the zero splat. -/
theorem pay5_apply (v2 : Vec Ideal S1x1024x32 .i32) (n j : Fin 1024) :
    k0_pay5 (F := Ideal) v2 (ix2 n j) = ∑ o ∈ Finset.range 5, ind (k0_pay3 v2) n j o := by
  unfold k0_pay5
  simp only [addf_apply, broadcast_apply, slot_apply 0, slot_apply 1, slot_apply 2, slot_apply 3, slot_apply 4, scalar_zero, Finset.sum_range_succ, Finset.sum_range_zero]

/-- Slot 5 alone. -/
theorem pay6_apply (v2 : Vec Ideal S1x1024x32 .i32) (n j : Fin 1024) :
    k0_pay6 (F := Ideal) v2 (ix2 n j) = ind (k0_pay3 v2) n j 5 := by
  unfold k0_pay6
  simp only [slot_apply 5]

/-- Slots 6..13 onto the sum of the two running values handed in. -/
theorem pay7_apply (v3 : IVec S1024x32 32) (v42 v48 : FVec Ideal S1024x1024 .bf16) (n j : Fin 1024) :
    k0_pay7 (F := Ideal) v3 (iota .tc S1024x1024 32 [1] iota_S1024x1024_d1_w32) v42 v48 (ix2 n j)
      = v42 (ix2 n j) + v48 (ix2 n j) + ind v3 n j 6 + ind v3 n j 7 + ind v3 n j 8 + ind v3 n j 9 + ind v3 n j 10 + ind v3 n j 11 + ind v3 n j 12 + ind v3 n j 13 := by
  unfold k0_pay7
  simp only [addf_apply, slot_apply 6, slot_apply 7, slot_apply 8, slot_apply 9, slot_apply 10, slot_apply 11, slot_apply 12, slot_apply 13]

/-- Slots 14..22 onto the running value handed in; slot 14's comparison is made apart. -/
theorem pay9_apply (v3 : IVec S1024x32 32) (v105 : FVec Ideal S1024x1024 .bf16) (n j : Fin 1024) :
    k0_pay9 (F := Ideal) v3 (iota .tc S1024x1024 32 [1] iota_S1024x1024_d1_w32) v105 (k0_pay8 v3 (iota .tc S1024x1024 32 [1] iota_S1024x1024_d1_w32)) (ix2 n j)
      = v105 (ix2 n j) + ind v3 n j 14 + ind v3 n j 15 + ind v3 n j 16 + ind v3 n j 17 + ind v3 n j 18 + ind v3 n j 19 + ind v3 n j 20 + ind v3 n j 21 + ind v3 n j 22 := by
  unfold k0_pay9 k0_pay8
  simp only [addf_apply, slot_apply 14, slot_apply 15, slot_apply 16, slot_apply 17, slot_apply 18, slot_apply 19, slot_apply 20, slot_apply 21, slot_apply 22]

/-- Slots 23..30 onto the running value handed in. -/
theorem pay10_apply (v3 : IVec S1024x32 32) (v168 : FVec Ideal S1024x1024 .bf16) (n j : Fin 1024) :
    k0_pay10 (F := Ideal) v3 (iota .tc S1024x1024 32 [1] iota_S1024x1024_d1_w32) v168 (ix2 n j)
      = v168 (ix2 n j) + ind v3 n j 23 + ind v3 n j 24 + ind v3 n j 25 + ind v3 n j 26 + ind v3 n j 27 + ind v3 n j 28 + ind v3 n j 29 + ind v3 n j 30 := by
  unfold k0_pay10
  simp only [addf_apply, slot_apply 23, slot_apply 24, slot_apply 25, slot_apply 26, slot_apply 27, slot_apply 28, slot_apply 29, slot_apply 30]

/-- Slot 31 onto the running value handed in, then the product with the splat 1/32; slot 31's comparison is made and
    widened apart. -/
theorem pay12_apply (v3 : IVec S1024x32 32) (v224 : FVec Ideal S1024x1024 .bf16) (n j : Fin 1024) :
    k0_pay12 (F := Ideal) v224 (k0_pay11 v3 (iota .tc S1024x1024 32 [1] iota_S1024x1024_d1_w32)) (ix2 n j)
      = (v224 (ix2 n j) + ind v3 n j 31) * c32 := by
  unfold k0_pay12 k0_pay11
  simp only [mulf_apply, addf_apply, broadcast_apply, slot_apply 31, scalar_inv32]

/-- The index block with its unit axis dropped reads, at (n, k), the block at (0, n, k). -/
theorem pay3_apply (v2 : Vec Ideal S1x1024x32 .i32) (n : Fin 1024) (k : Fin 32) :
    k0_pay3 (F := Ideal) v2 (ix2 n k) = v2 (ix3 (0 : Fin 1) n k) := by
  unfold k0_pay3
  exact shapeCast_1ab_ab_apply v2 shapeCasts_S1x1024x32_S1024x32 n k

/-- The running count after thirty-one slots, as the body computes it from the loaded index block. -/
def cnt31 (v2 : Vec Ideal S1x1024x32 .i32) : FVec Ideal S1024x1024 .bf16 :=
  k0_pay10 (k0_pay3 v2) (iota .tc S1024x1024 32 [1] iota_S1024x1024_d1_w32)
    (k0_pay9 (k0_pay3 v2) (iota .tc S1024x1024 32 [1] iota_S1024x1024_d1_w32)
      (k0_pay7 (k0_pay3 v2) (iota .tc S1024x1024 32 [1] iota_S1024x1024_d1_w32) (k0_pay5 v2) (k0_pay6 v2))
      (k0_pay8 (k0_pay3 v2) (iota .tc S1024x1024 32 [1] iota_S1024x1024_d1_w32)))

/-- The last slot's comparison, widened. -/
def last32 (v2 : Vec Ideal S1x1024x32 .i32) : IVec S1024x1024 32 :=
  k0_pay11 (k0_pay3 v2) (iota .tc S1024x1024 32 [1] iota_S1024x1024_d1_w32)

/-- The matrix the body multiplies by, at (n, j): the count of slots pointing at j, times 1/32. -/
theorem meanMat_apply (v2 : Vec Ideal S1x1024x32 .i32) (n j : Fin 1024) :
    k0_pay12 (F := Ideal) (cnt31 v2) (last32 v2) (ix2 n j) = cntMat (fun n k => v2 (ix3 (0 : Fin 1) n k)) n j := by
  unfold cnt31 last32
  rw [pay12_apply, pay10_apply, pay9_apply, pay7_apply, pay5_apply, pay6_apply]
  have hw : ∀ k : Fin 32, (if v2 (ix3 (0 : Fin 1) n k) = BitVec.ofNat 32 j.val then (1 : EReal) else 0)
      = ind (k0_pay3 v2) n j k.val := by
    intro k
    rw [ind_fin, pay3_apply]
  have hs : (∑ k : Fin 32, (if v2 (ix3 (0 : Fin 1) n k) = BitVec.ofNat 32 j.val then (1 : EReal) else 0))
      = ∑ o ∈ Finset.range 32, ind (k0_pay3 v2) n j o := by
    rw [← Fin.sum_univ_eq_sum_range (fun o => ind (k0_pay3 v2) n j o) 32]
    exact Finset.sum_congr rfl (fun k _ => hw k)
  show _ = (∑ k : Fin 32, (if v2 (ix3 (0 : Fin 1) n k) = BitVec.ofNat 32 j.val then (1 : EReal) else 0)) * c32
  rw [hs]
  simp only [Finset.sum_range_succ, Finset.sum_range_zero]

end Cert.KernelIdeal.KV

end
-- ==== Proof.KConv.lean ====
/-
  The convolution region: what one grid point leaves in its output block, read at an index, is three layers
  of the fused layout's convolution of the point's input blocks; and the region's whole output array
  (side, feature, node) is that function of the arrays the region finds, side by side.
-/
import proofs.«429352_j49331994362309_3_alg».proof.Proof.Gen.KernelIdeal.Frame
import proofs.«429352_j49331994362309_3_alg».proof.Proof.Cur
import Idealize.ShloMosaic.Lib.ValueIdx
import Idealize.ShloMosaic.Lib.ValueLayout
import Idealize.ShloMosaic.Lib.Pipeline.Value
import Idealize.ShloMosaic.PureOps.Ideal.Laws
import proofs.«429352_j49331994362309_3_alg».proof.Proof.KCount
set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Cur

/-! The product of a [1024, 1024] by a [1024, 64] matrix into a zero accumulator, read at (n, o). -/
theorem lhs_nbr64_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_nbr64_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_nbr64_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_nbr64_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl
theorem mm_nbr64 {φ₁ φ₂ : FTy} (a : FVec Ideal S1024x1024 φ₁) (b : FVec Ideal S1024x64 φ₂) (n : Fin 1024) (o : Fin 64) :
    matmul dot_S1024x1024_S1024x64_S1024x64_1_0_0_1_n_n none a b (constant (F := Ideal) S1024x64 .f32 0x00000000#32) (ix2 n o)
      = ∑ k : Fin 1024, a (ix2 n k) * b (ix2 k o) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 n o) ((ValueIdx.contrEquiv1 dot_S1024x1024_S1024x64_S1024x64_1_0_0_1_n_n 1024 rfl rfl).symm k) = ix2 n k := funext fun c => Fin.ext (by
    match c with
    | ⟨0, _⟩ => exact lhs_nbr64_0 _ _
    | ⟨1, _⟩ => exact (lhs_nbr64_1 _ _).trans hk)
  have er : dot_S1024x1024_S1024x64_S1024x64_1_0_0_1_n_n.rhsIdx (ix2 n o) ((ValueIdx.contrEquiv1 dot_S1024x1024_S1024x64_S1024x64_1_0_0_1_n_n 1024 rfl rfl).symm k) = ix2 k o := funext fun c => Fin.ext (by
    match c with
    | ⟨0, _⟩ => exact (rhs_nbr64_0 _ _).trans hk
    | ⟨1, _⟩ => exact rhs_nbr64_1 _ _)
  rw [el, er]

/-! The product of a [1024, 1024] by a [1024, 128] matrix into a zero accumulator, read at (n, o). -/
theorem lhs_nbr128_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_nbr128_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_nbr128_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_nbr128_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl
theorem mm_nbr128 {φ₁ φ₂ : FTy} (a : FVec Ideal S1024x1024 φ₁) (b : FVec Ideal S1024x128 φ₂) (n : Fin 1024) (o : Fin 128) :
    matmul dot_S1024x1024_S1024x128_S1024x128_1_0_0_1_n_n none a b (constant (F := Ideal) S1024x128 .f32 0x00000000#32) (ix2 n o)
      = ∑ k : Fin 1024, a (ix2 n k) * b (ix2 k o) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 n o) ((ValueIdx.contrEquiv1 dot_S1024x1024_S1024x128_S1024x128_1_0_0_1_n_n 1024 rfl rfl).symm k) = ix2 n k := funext fun c => Fin.ext (by
    match c with
    | ⟨0, _⟩ => exact lhs_nbr128_0 _ _
    | ⟨1, _⟩ => exact (lhs_nbr128_1 _ _).trans hk)
  have er : dot_S1024x1024_S1024x128_S1024x128_1_0_0_1_n_n.rhsIdx (ix2 n o) ((ValueIdx.contrEquiv1 dot_S1024x1024_S1024x128_S1024x128_1_0_0_1_n_n 1024 rfl rfl).symm k) = ix2 k o := funext fun c => Fin.ext (by
    match c with
    | ⟨0, _⟩ => exact (rhs_nbr128_0 _ _).trans hk
    | ⟨1, _⟩ => exact rhs_nbr128_1 _ _)
  rw [el, er]

/-! The product of a [1024, 64] by a [64, 128] matrix into a zero accumulator, read at (n, o). -/
theorem lhs_w64_128_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem lhs_w64_128_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem rhs_w64_128_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem rhs_w64_128_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl
theorem mm_w64_128 {φ₁ φ₂ : FTy} (a : FVec Ideal S1024x64 φ₁) (b : FVec Ideal S64x128 φ₂) (n : Fin 1024) (o : Fin 128) :
    matmul dot_S1024x64_S64x128_S1024x128_1_0_0_1_n_n none a b (constant (F := Ideal) S1024x128 .f32 0x00000000#32) (ix2 n o)
      = ∑ k : Fin 64, a (ix2 n k) * b (ix2 k o) := by
  simp only [matmul]
  rw [Ideal.matmul_constant_zero_apply, ← Equiv.sum_comp (ValueIdx.contrEquiv1 dot_S1024x64_S64x128_S1024x128_1_0_0_1_n_n 64 rfl rfl).symm]
  refine Finset.sum_congr rfl fun k _ => ?_
  have hk := ValueIdx.contrEquiv1_symm_val dot_S1024x64_S64x128_S1024x128_1_0_0_1_n_n 64 rfl rfl k
  have el : dot_S1024x64_S64x128_S1024x128_1_0_0_1_n_n.lhsIdx (ix2 n o) ((ValueIdx.contrEquiv1 dot_S1024x64_S64x128_S1024x128_1_0_0_1_n_n 64 rfl rfl).symm k) = ix2 n k := funext fun c => Fin.ext (by
    match c with
    | ⟨0, _⟩ => exact lhs_w64_128_0 _ _
    | ⟨1, _⟩ => exact (lhs_w64_128_1 _ _).trans hk)
  have er : dot_S1024x64_S64x128_S1024x128_1_0_0_1_n_n.rhsIdx (ix2 n o) ((ValueIdx.contrEquiv1 dot_S1024x64_S64x128_S1024x128_1_0_0_1_n_n 64 rfl rfl).symm k) = ix2 k o := funext fun c => Fin.ext (by
    match c with
    | ⟨0, _⟩ => exact (rhs_w64_128_0 _ _).trans hk
    | ⟨1, _⟩ => exact rhs_w64_128_1 _ _)
  rw [el, er]

/-! The product of a [1024, 32] by a [32, 128] matrix into a zero accumulator, read at (n, o). -/
theorem lhs_e128_0 (i : S1024x128.Idx) (q : dot_S1024x32_S32x128_S1024x128_1_0_0_1_n_n.contr.Idx) :
    (dot_S1024x32_S32x128_S1024x128_1_0_0_1_n_n.lhsIdx i q 0).val = (i 0).val := by
  unfold DotDims.lhsIdx
  rw [dif_neg (show ¬(0 : Fin S1024x32.rank) ∈ dot_S1024x32_S32x128_S1024x128_1_0_0_1_n_n.lhsBatch by decide), dif_pos (show (0 : Fin S1024x32.rank) ∈ dot_S1024x32_S32x128_S1024x128_1_0_0_1_n_n.lhsNonContracting by decide)]
  rfl
theorem lhs_e128_1 (i : S1024x128.Idx) (q : dot_S1024x32_S32x128_S1024x128_1_0_0_1_n_n.contr.Idx) :
    (dot_S1024x32_S32x128_S1024x128_1_0_0_1_n_n.lhsIdx i q 1).val = (q ⟨0, by decide⟩).val :=
  dot_S1024x32_S32x128_S1024x128_1_0_0_1_n_n.lhsIdx_val_of_single rfl i q
theorem rhs_e128_0 (i : S1024x128.Idx) (q : dot_S1024x32_S32x128_S1024x128_1_0_0_1_n_n.contr.Idx) :
    (dot_S1024x32_S32x128_S1024x128_1_0_0_1_n_n.rhsIdx i q 0).val = (q ⟨0, by decide⟩).val :=
  dot_S1024x32_S32x128_S1024x128_1_0_0_1_n_n.rhsIdx_val_of_single rfl i q
theorem rhs_e128_1 (i : S1024x128.Idx) (q : dot_S1024x32_S32x128_S1024x128_1_0_0_1_n_n.contr.Idx) :
    (dot_S1024x32_S32x128_S1024x128_1_0_0_1_n_n.rhsIdx i q 1).val = (i 1).val := by
  unfold DotDims.rhsIdx
  rw [dif_neg (show ¬(1 : Fin S32x128.rank) ∈ dot_S1024x32_S32x128_S1024x128_1_0_0_1_n_n.rhsBatch by decide), dif_pos (show (1 : Fin S32x128.rank) ∈ dot_S1024x32_S32x128_S1024x128_1_0_0_1_n_n.rhsNonContracting by decide)]
  rfl
theorem mm_e128 {φ₁ φ₂ : FTy} (a : FVec Ideal S1024x32 φ₁) (b : FVec Ideal S32x128 φ₂) (n : Fin 1024) (o : Fin 128) :
    matmul dot_S1024x32_S32x128_S1024x128_1_0_0_1_n_n none a b (constant (F := Ideal) S1024x128 .f32 0x00000000#32) (ix2 n o)
      = ∑ k : Fin 32, a (ix2 n k) * b (ix2 k o) := by
  simp only [matmul]
  rw [Ideal.matmul_constant_zero_apply, ← Equiv.sum_comp (ValueIdx.contrEquiv1 dot_S1024x32_S32x128_S1024x128_1_0_0_1_n_n 32 rfl rfl).symm]
  refine Finset.sum_congr rfl fun k _ => ?_
  have hk := ValueIdx.contrEquiv1_symm_val dot_S1024x32_S32x128_S1024x128_1_0_0_1_n_n 32 rfl rfl k
  have el : dot_S1024x32_S32x128_S1024x128_1_0_0_1_n_n.lhsIdx (ix2 n o) ((ValueIdx.contrEquiv1 dot_S1024x32_S32x128_S1024x128_1_0_0_1_n_n 32 rfl rfl).symm k) = ix2 n k := funext fun c => Fin.ext (by
    match c with
    | ⟨0, _⟩ => exact lhs_e128_0 _ _
    | ⟨1, _⟩ => exact (lhs_e128_1 _ _).trans hk)
  have er : dot_S1024x32_S32x128_S1024x128_1_0_0_1_n_n.rhsIdx (ix2 n o) ((ValueIdx.contrEquiv1 dot_S1024x32_S32x128_S1024x128_1_0_0_1_n_n 32 rfl rfl).symm k) = ix2 k o := funext fun c => Fin.ext (by
    match c with
    | ⟨0, _⟩ => exact (rhs_e128_0 _ _).trans hk
    | ⟨1, _⟩ => exact rhs_e128_1 _ _)
  rw [el, er]

/-! The product of a [1024, 128] by a [128, 128] matrix into a zero accumulator, read at (n, o). -/
theorem lhs_w128_128_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_w128_128_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_w128_128_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_w128_128_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
theorem mm_w128_128 {φ₁ φ₂ : FTy} (a : FVec Ideal S1024x128 φ₁) (b : FVec Ideal S128x128 φ₂) (n : Fin 1024) (o : Fin 128) :
    matmul dot_S1024x128_S128x128_S1024x128_1_0_0_1_n_n none a b (constant (F := Ideal) S1024x128 .f32 0x00000000#32) (ix2 n o)
      = ∑ k : Fin 128, a (ix2 n k) * b (ix2 k o) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 n o) ((ValueIdx.contrEquiv1 dot_S1024x128_S128x128_S1024x128_1_0_0_1_n_n 128 rfl rfl).symm k) = ix2 n k := funext fun c => Fin.ext (by
    match c with
    | ⟨0, _⟩ => exact lhs_w128_128_0 _ _
    | ⟨1, _⟩ => exact (lhs_w128_128_1 _ _).trans hk)
  have er : dot_S1024x128_S128x128_S1024x128_1_0_0_1_n_n.rhsIdx (ix2 n o) ((ValueIdx.contrEquiv1 dot_S1024x128_S128x128_S1024x128_1_0_0_1_n_n 128 rfl rfl).symm k) = ix2 k o := funext fun c => Fin.ext (by
    match c with
    | ⟨0, _⟩ => exact (rhs_w128_128_0 _ _).trans hk
    | ⟨1, _⟩ => exact rhs_w128_128_1 _ _)
  rw [el, er]

/-! The product of a [1024, 128] by a [128, 64] matrix into a zero accumulator, read at (n, o). -/
theorem lhs_w128_64_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_w128_64_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_w128_64_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_w128_64_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl
theorem mm_w128_64 {φ₁ φ₂ : FTy} (a : FVec Ideal S1024x128 φ₁) (b : FVec Ideal S128x64 φ₂) (n : Fin 1024) (o : Fin 64) :
    matmul dot_S1024x128_S128x64_S1024x64_1_0_0_1_n_n none a b (constant (F := Ideal) S1024x64 .f32 0x00000000#32) (ix2 n o)
      = ∑ k : Fin 128, a (ix2 n k) * b (ix2 k o) := by
  simp only [matmul]
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 n o) ((ValueIdx.contrEquiv1 dot_S1024x128_S128x64_S1024x64_1_0_0_1_n_n 128 rfl rfl).symm k) = ix2 n k := funext fun c => Fin.ext (by
    match c with
    | ⟨0, _⟩ => exact lhs_w128_64_0 _ _
    | ⟨1, _⟩ => exact (lhs_w128_64_1 _ _).trans hk)
  have er : dot_S1024x128_S128x64_S1024x64_1_0_0_1_n_n.rhsIdx (ix2 n o) ((ValueIdx.contrEquiv1 dot_S1024x128_S128x64_S1024x64_1_0_0_1_n_n 128 rfl rfl).symm k) = ix2 k o := funext fun c => Fin.ext (by
    match c with
    | ⟨0, _⟩ => exact (rhs_w128_64_0 _ _).trans hk
    | ⟨1, _⟩ => exact rhs_w128_64_1 _ _)
  rw [el, er]

/-! The product of a [1024, 32] by a [32, 64] matrix into a zero accumulator, read at (n, o). -/
theorem lhs_e64_0 (i : S1024x64.Idx) (q : dot_S1024x32_S32x64_S1024x64_1_0_0_1_n_n.contr.Idx) :
    (dot_S1024x32_S32x64_S1024x64_1_0_0_1_n_n.lhsIdx i q 0).val = (i 0).val := by
  unfold DotDims.lhsIdx
  rw [dif_neg (show ¬(0 : Fin S1024x32.rank) ∈ dot_S1024x32_S32x64_S1024x64_1_0_0_1_n_n.lhsBatch by decide), dif_pos (show (0 : Fin S1024x32.rank) ∈ dot_S1024x32_S32x64_S1024x64_1_0_0_1_n_n.lhsNonContracting by decide)]
  rfl
theorem lhs_e64_1 (i : S1024x64.Idx) (q : dot_S1024x32_S32x64_S1024x64_1_0_0_1_n_n.contr.Idx) :
    (dot_S1024x32_S32x64_S1024x64_1_0_0_1_n_n.lhsIdx i q 1).val = (q ⟨0, by decide⟩).val :=
  dot_S1024x32_S32x64_S1024x64_1_0_0_1_n_n.lhsIdx_val_of_single rfl i q
theorem rhs_e64_0 (i : S1024x64.Idx) (q : dot_S1024x32_S32x64_S1024x64_1_0_0_1_n_n.contr.Idx) :
    (dot_S1024x32_S32x64_S1024x64_1_0_0_1_n_n.rhsIdx i q 0).val = (q ⟨0, by decide⟩).val :=
  dot_S1024x32_S32x64_S1024x64_1_0_0_1_n_n.rhsIdx_val_of_single rfl i q
theorem rhs_e64_1 (i : S1024x64.Idx) (q : dot_S1024x32_S32x64_S1024x64_1_0_0_1_n_n.contr.Idx) :
    (dot_S1024x32_S32x64_S1024x64_1_0_0_1_n_n.rhsIdx i q 1).val = (i 1).val := by
  unfold DotDims.rhsIdx
  rw [dif_neg (show ¬(1 : Fin S32x64.rank) ∈ dot_S1024x32_S32x64_S1024x64_1_0_0_1_n_n.rhsBatch by decide), dif_pos (show (1 : Fin S32x64.rank) ∈ dot_S1024x32_S32x64_S1024x64_1_0_0_1_n_n.rhsNonContracting by decide)]
  rfl
theorem mm_e64 {φ₁ φ₂ : FTy} (a : FVec Ideal S1024x32 φ₁) (b : FVec Ideal S32x64 φ₂) (n : Fin 1024) (o : Fin 64) :
    matmul dot_S1024x32_S32x64_S1024x64_1_0_0_1_n_n none a b (constant (F := Ideal) S1024x64 .f32 0x00000000#32) (ix2 n o)
      = ∑ k : Fin 32, a (ix2 n k) * b (ix2 k o) := by
  simp only [matmul]
  rw [Ideal.matmul_constant_zero_apply, ← Equiv.sum_comp (ValueIdx.contrEquiv1 dot_S1024x32_S32x64_S1024x64_1_0_0_1_n_n 32 rfl rfl).symm]
  refine Finset.sum_congr rfl fun k _ => ?_
  have hk := ValueIdx.contrEquiv1_symm_val dot_S1024x32_S32x64_S1024x64_1_0_0_1_n_n 32 rfl rfl k
  have el : dot_S1024x32_S32x64_S1024x64_1_0_0_1_n_n.lhsIdx (ix2 n o) ((ValueIdx.contrEquiv1 dot_S1024x32_S32x64_S1024x64_1_0_0_1_n_n 32 rfl rfl).symm k) = ix2 n k := funext fun c => Fin.ext (by
    match c with
    | ⟨0, _⟩ => exact lhs_e64_0 _ _
    | ⟨1, _⟩ => exact (lhs_e64_1 _ _).trans hk)
  have er : dot_S1024x32_S32x64_S1024x64_1_0_0_1_n_n.rhsIdx (ix2 n o) ((ValueIdx.contrEquiv1 dot_S1024x32_S32x64_S1024x64_1_0_0_1_n_n 32 rfl rfl).symm k) = ix2 k o := funext fun c => Fin.ext (by
    match c with
    | ⟨0, _⟩ => exact (rhs_e64_0 _ _).trans hk
    | ⟨1, _⟩ => exact rhs_e64_1 _ _)
  rw [el, er]

/-- The first two terms of a layer's affine part at (n, o): the node's own features through WcT plus the
    matrix-mean of the neighbours' features through WnT. -/
def selfNbr {N F O : ℕ} (x : Fin N → Fin F → EReal) (M : Fin N → Fin N → EReal) (WcT WnT : Fin F → Fin O → EReal) :
    Fin N → Fin O → EReal :=
  fun n o => ∑ f, x n f * WcT f o + ∑ f, (∑ j, M n j * x j f) * WnT f o

/-- A layer is the relu of those two terms plus the edge term. -/
theorem convT_eq_selfNbr {N F O E : ℕ} (x : Fin N → Fin F → EReal) (xe : Fin N → Fin E → EReal) (M : Fin N → Fin N → EReal)
    (WcT WnT : Fin F → Fin O → EReal) (WeT : Fin E → Fin O → EReal) (n : Fin N) (o : Fin O) :
    convT x xe M WcT WnT WeT n o = max (selfNbr x M WcT WnT n o + ∑ d, xe n d * WeT d o) 0 := rfl

/-- The first stretch of the body at (n, o): the whole first layer, then the second layer's first two terms. -/
theorem pay14_apply (v1 : FVec Ideal S1024x64 .f32) (v5 : FVec Ideal S1024x32 .bf16) (v224 : FVec Ideal S1024x1024 .bf16)
    (v228 : IVec S1024x1024 32) (v237 v240 : Vec Ideal S64x128 .f32) (v243 : Vec Ideal S32x128 .f32)
    (v256 v259 : Vec Ideal S128x128 .f32) (n : Fin 1024) (o : Fin 128) :
    k0_pay14 (F := Ideal) v1 v5 v224 v228 v237 v240 v243 v256 v259 (ix2 n o)
      = selfNbr (convT (cur2 v1) (cur2 v5) (cur2 (k0_pay12 (F := Ideal) v224 v228)) (cur2 v237) (cur2 v240) (cur2 v243))
          (cur2 (k0_pay12 (F := Ideal) v224 v228)) (cur2 v256) (cur2 v259) n o := by
  unfold k0_pay14
  generalize k0_pay12 (F := Ideal) v224 v228 = M
  simp only [addf_apply, maximumf_apply, truncf_apply, broadcast_apply, shapeCast_self, Ideal.ofBits_def, Ideal.ofBits_zero_f32,
    mm_nbr64, mm_nbr128, mm_w64_128, mm_e128, mm_w128_128]
  rfl

/-- The second stretch at (0, o, n): the second layer finished from its first two terms `a`, then the third layer,
    transposed on the way out. -/
theorem pay1_apply (v5 : FVec Ideal S1024x32 .bf16) (M : FVec Ideal S1024x1024 .bf16) (v264 : FVec Ideal S32x128 .bf16)
    (a : FVec Ideal S1024x128 .f32) (v275 v278 : Vec Ideal S128x64 .f32) (v281 : Vec Ideal S32x64 .f32)
    (o : Fin 64) (n : Fin 1024) :
    k0_pay1 (F := Ideal) v5 M v264 a v275 v278 v281 (ix3 (0 : Fin 1) o n)
      = convT (fun n f => max (a (ix2 n f) + ∑ d, v5 (ix2 n d) * v264 (ix2 d f)) 0) (cur2 v5) (cur2 M)
          (cur2 v275) (cur2 v278) (cur2 v281) n o := by
  unfold k0_pay1
  simp only [shapeCast_ab_1ab_apply]
  refine (transpose_ix2_apply _ _ o n).trans ?_
  simp only [addf_apply, maximumf_apply, truncf_apply, broadcast_apply, shapeCast_self,
    Ideal.ofBits_def, Ideal.ofBits_zero_f32, mm_nbr128, mm_e128, mm_w128_64, mm_e64]
  rfl

/-- The edge weights of the second layer pass through unchanged. -/
theorem pay13_apply (x8 : Vec Ideal S32x128 .f32) (d : Fin 32) (f : Fin 128) :
    k0_pay13 (F := Ideal) x8 (ix2 d f) = x8 (ix2 d f) := by
  unfold k0_pay13
  simp only [truncf_apply, shapeCast_self]

/-- The node-feature block with its unit axis dropped. -/
theorem pay2_cur (x0 : Vec Ideal S1x1024x64 .f32) :
    cur2 (k0_pay2 (F := Ideal) x0) = fun n f => x0 (ix3 (0 : Fin 1) n f) := by
  funext n f
  unfold cur2 k0_pay2
  exact shapeCast_1ab_ab_apply _ _ n f

/-- The edge-mean block with its unit axis dropped. -/
theorem pay4_cur (x2 : Vec Ideal S1x1024x32 .bf16) :
    cur2 (k0_pay4 (F := Ideal) x2) = fun n d => x2 (ix3 (0 : Fin 1) n d) := by
  funext n d
  unfold cur2 k0_pay4
  exact shapeCast_1ab_ab_apply _ _ n d

/-- The matrix the body multiplies by is the count matrix of the index block. -/
theorem mean_cur (x1 : Vec Ideal S1x1024x32 .i32) :
    cur2 (k0_pay12 (F := Ideal) (cnt31 x1) (last32 x1)) = cntMat (fun n k => x1 (ix3 (0 : Fin 1) n k)) :=
  funext fun n => funext fun j => meanMat_apply x1 n j

/-- The two stretches of the body together, at (0, o, n): three layers over the loaded operands. -/
theorem layers_apply (v1 : FVec Ideal S1024x64 .f32) (v5 : FVec Ideal S1024x32 .bf16) (v224 : FVec Ideal S1024x1024 .bf16)
    (v228 : IVec S1024x1024 32) (x3 x4 : Vec Ideal S64x128 .f32) (x5 : Vec Ideal S32x128 .f32)
    (x6 x7 : Vec Ideal S128x128 .f32) (x8 : Vec Ideal S32x128 .f32) (x9 x10 : Vec Ideal S128x64 .f32)
    (x11 : Vec Ideal S32x64 .f32) (o : Fin 64) (n : Fin 1024) :
    k0_pay1 (F := Ideal) v5 (k0_pay12 v224 v228) (k0_pay13 x8) (k0_pay14 v1 v5 v224 v228 x3 x4 x5 x6 x7) x9 x10 x11
        (ix3 (0 : Fin 1) o n)
      = sideT (cur2 v1) (cur2 v5) (cur2 (k0_pay12 (F := Ideal) v224 v228))
          (cur2 x3) (cur2 x4) (cur2 x5) (cur2 x6) (cur2 x7) (cur2 x8) (cur2 x9) (cur2 x10) (cur2 x11) n o := by
  refine (pay1_apply v5 (k0_pay12 v224 v228) (k0_pay13 x8) (k0_pay14 v1 v5 v224 v228 x3 x4 x5 x6 x7) x9 x10 x11 o n).trans ?_
  have h : (fun (n : Fin 1024) (f : Fin 128) =>
        max (k0_pay14 (F := Ideal) v1 v5 v224 v228 x3 x4 x5 x6 x7 (ix2 n f) + ∑ d, v5 (ix2 n d) * k0_pay13 (F := Ideal) x8 (ix2 d f)) 0)
      = convT (convT (cur2 v1) (cur2 v5) (cur2 (k0_pay12 (F := Ideal) v224 v228)) (cur2 x3) (cur2 x4) (cur2 x5))
          (cur2 v5) (cur2 (k0_pay12 (F := Ideal) v224 v228)) (cur2 x6) (cur2 x7) (cur2 x8) := by
    funext n f
    rw [pay14_apply]
    simp only [pay13_apply]
    rfl
  rw [h]
  rfl

theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl

/-- One grid point's output block at (0, o, n): three layers over the point's blocks, transposed on the way out. -/
theorem out0_12_apply (x0 : Vec Ideal S1x1024x64 .f32) (x1 : Vec Ideal S1x1024x32 .i32) (x2 : Vec Ideal S1x1024x32 .bf16)
    (x3 x4 : Vec Ideal S64x128 .f32) (x5 : Vec Ideal S32x128 .f32) (x6 x7 : Vec Ideal S128x128 .f32) (x8 : Vec Ideal S32x128 .f32)
    (x9 x10 : Vec Ideal S128x64 .f32) (x11 : Vec Ideal S32x64 .f32) (o : Fin 64) (n : Fin 1024) :
    out0_12 (F := Ideal) x0 x1 x2 x3 x4 x5 x6 x7 x8 x9 x10 x11 (ix3 (0 : Fin 1) o n)
      = sideT (fun n f => x0 (ix3 (0 : Fin 1) n f)) (fun n d => x2 (ix3 (0 : Fin 1) n d))
          (cntMat (fun n k => x1 (ix3 (0 : Fin 1) n k)))
          (cur2 x3) (cur2 x4) (cur2 x5) (cur2 x6) (cur2 x7) (cur2 x8) (cur2 x9) (cur2 x10) (cur2 x11) n o := by
  unfold out0_12
  rw [View.canon_unit_zero zeros3]
  simp only [View.ld_unit_zero (S := S1x1024x64) zeros3, View.ld_unit_zero (S := S1x1024x32) zeros3,
    View.ld_unit_zero (S := S64x128) zeros2, View.ld_unit_zero (S := S32x128) zeros2, View.ld_unit_zero (S := S128x128) zeros2,
    View.ld_unit_zero (S := S128x64) zeros2, View.ld_unit_zero (S := S32x64) zeros2]
  refine (layers_apply (k0_pay2 x0) (k0_pay4 x2) (cnt31 x1) (last32 x1) x3 x4 x5 x6 x7 x8 x9 x10 x11 o n).trans ?_
  rw [pay2_cur, pay4_cur, mean_cur]

variable (V : (c : Dev nD) → (b : Ref sig .tc) → Buf (Elt Ideal) ((c : Thread nD τ).loc b))

/-- The whole output array as one function of the arrays the region is entered with. -/
def convArr (c : Dev nD) : S2x64x1024.Idx → EReal := fun i =>
  sideT (fun n f => (V c main_v14 : S2x1024x64.Idx → EReal) (ix3 (i 0) n f))
    (fun n d => (V c main_v20 : S2x1024x32.Idx → EReal) (ix3 (i 0) n d))
    (cntMat (fun n k => (V c main_v17 : S2x1024x32.Idx → BitVec 32) (ix3 (i 0) n k)))
    (cur2 (V c main_v21 : S64x128.Idx → EReal)) (cur2 (V c main_v22 : S64x128.Idx → EReal)) (cur2 (V c main_v23 : S32x128.Idx → EReal))
    (cur2 (V c main_v24 : S128x128.Idx → EReal)) (cur2 (V c main_v25 : S128x128.Idx → EReal)) (cur2 (V c main_v26 : S32x128.Idx → EReal))
    (cur2 (V c main_v27 : S128x64.Idx → EReal)) (cur2 (V c main_v28 : S128x64.Idx → EReal)) (cur2 (V c main_v29 : S32x64.Idx → EReal)) (i 2) (i 1)

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

theorem idx_facts_w : ∀ t : Fin cfg0.N,
    (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- The grid point as a side number. -/
abbrev sideOf (t : Fin cfg0.N) : Fin 2 := ⟨t.val, t.isLt⟩

/-- Point t's node-feature block is side t of the node-feature array. -/
theorem blk0_apply (c : Dev nD) (t : Fin cfg0.N) (n : Fin 1024) (f : Fin 64) :
    (iblk0 V c 0 t : Vec Ideal S1x1024x64 .f32) (ix3 (0 : Fin 1) n f)
      = (V c main_v14 : S2x1024x64.Idx → EReal) (ix3 (sideOf t) n f) := by
  obtain ⟨⟨e0, e1, e2⟩, -⟩ := idx_facts t
  unfold iblk0
  rw [View.read_apply]
  show (V c main_v14 : S2x1024x64.Idx → EReal) _ = _
  refine congrArg (V c main_v14 : S2x1024x64.Idx → EReal) (funext fun a => Fin.ext ?_)
  match a with
  | ⟨0, _⟩ => show win0_0.index t (0 : Fin 3) * 1 + 1 * (0 : ℕ) = t.val; omega
  | ⟨1, _⟩ => show win0_0.index t (1 : Fin 3) * 1024 + 1 * n.val = n.val; omega
  | ⟨2, _⟩ => show win0_0.index t (2 : Fin 3) * 64 + 1 * f.val = f.val; omega

/-- Point t's index block is side t of the index array. -/
theorem blk1_apply (c : Dev nD) (t : Fin cfg0.N) (n : Fin 1024) (k : Fin 32) :
    (iblk0 V c 1 t : Vec Ideal S1x1024x32 .i32) (ix3 (0 : Fin 1) n k)
      = (V c main_v17 : S2x1024x32.Idx → BitVec 32) (ix3 (sideOf t) n k) := by
  obtain ⟨-, ⟨e0, e1, e2⟩, -⟩ := idx_facts t
  unfold iblk0
  rw [View.read_apply]
  show (V c main_v17 : S2x1024x32.Idx → BitVec 32) _ = _
  refine congrArg (V c main_v17 : S2x1024x32.Idx → BitVec 32) (funext fun a => Fin.ext ?_)
  match a with
  | ⟨0, _⟩ => show win0_1.index t (0 : Fin 3) * 1 + 1 * (0 : ℕ) = t.val; omega
  | ⟨1, _⟩ => show win0_1.index t (1 : Fin 3) * 1024 + 1 * n.val = n.val; omega
  | ⟨2, _⟩ => show win0_1.index t (2 : Fin 3) * 32 + 1 * k.val = k.val; omega

/-- Point t's edge-mean block is side t of the edge-mean array. -/
theorem blk2_apply (c : Dev nD) (t : Fin cfg0.N) (n : Fin 1024) (d : Fin 32) :
    (iblk0 V c 2 t : Vec Ideal S1x1024x32 .bf16) (ix3 (0 : Fin 1) n d)
      = (V c main_v20 : S2x1024x32.Idx → EReal) (ix3 (sideOf t) n d) := by
  obtain ⟨-, -, ⟨e0, e1, e2⟩, -⟩ := idx_facts t
  unfold iblk0
  rw [View.read_apply]
  show (V c main_v20 : S2x1024x32.Idx → EReal) _ = _
  refine congrArg (V c main_v20 : S2x1024x32.Idx → EReal) (funext fun a => Fin.ext ?_)
  match a with
  | ⟨0, _⟩ => show win0_2.index t (0 : Fin 3) * 1 + 1 * (0 : ℕ) = t.val; omega
  | ⟨1, _⟩ => show win0_2.index t (1 : Fin 3) * 1024 + 1 * n.val = n.val; omega
  | ⟨2, _⟩ => show win0_2.index t (2 : Fin 3) * 32 + 1 * d.val = d.val; omega

/-- Window 3's block is its whole array at every point. -/
theorem blk3_eq (c : Dev nD) (t : Fin cfg0.N) :
    (iblk0 V c 3 t : Vec Ideal S64x128 .f32) = (V c main_v21 : S64x128.Idx → EReal) := by
  obtain ⟨⟨e0, e1⟩, -⟩ := idx_facts_w t
  refine funext fun (y : S64x128.Idx) => ?_
  unfold iblk0
  rw [View.read_apply]
  show (V c main_v21 : S64x128.Idx → EReal) _ = _
  refine congrArg (V c main_v21 : S64x128.Idx → EReal) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- Window 4's block is its whole array at every point. -/
theorem blk4_eq (c : Dev nD) (t : Fin cfg0.N) :
    (iblk0 V c 4 t : Vec Ideal S64x128 .f32) = (V c main_v22 : S64x128.Idx → EReal) := by
  obtain ⟨-, ⟨e0, e1⟩, -⟩ := idx_facts_w t
  refine funext fun (y : S64x128.Idx) => ?_
  unfold iblk0
  rw [View.read_apply]
  show (V c main_v22 : S64x128.Idx → EReal) _ = _
  refine congrArg (V c main_v22 : S64x128.Idx → EReal) (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- Window 5's block is its whole array at every point. -/
theorem blk5_eq (c : Dev nD) (t : Fin cfg0.N) :
    (iblk0 V c 5 t : Vec Ideal S32x128 .f32) = (V c main_v23 : S32x128.Idx → EReal) := by
  obtain ⟨-, -, ⟨e0, e1⟩, -⟩ := idx_facts_w t
  refine funext fun (y : S32x128.Idx) => ?_
  unfold iblk0
  rw [View.read_apply]
  show (V c main_v23 : S32x128.Idx → EReal) _ = _
  refine congrArg (V c main_v23 : S32x128.Idx → EReal) (funext fun a => Fin.ext ?_)
  match a with
  | ⟨0, _⟩ => show win0_5.index t (0 : Fin 2) * 32 + 1 * (y 0).val = (y 0).val; omega
  | ⟨1, _⟩ => show win0_5.index t (1 : Fin 2) * 128 + 1 * (y 1).val = (y 1).val; omega

/-- Window 6's block is its whole array at every point. -/
theorem blk6_eq (c : Dev nD) (t : Fin cfg0.N) :
    (iblk0 V c 6 t : Vec Ideal S128x128 .f32) = (V c main_v24 : S128x128.Idx → EReal) := by
  obtain ⟨-, -, -, ⟨e0, e1⟩, -⟩ := idx_facts_w t
  refine funext fun (y : S128x128.Idx) => ?_
  unfold iblk0
  rw [View.read_apply]
  show (V c main_v24 : S128x128.Idx → EReal) _ = _
  refine congrArg (V c main_v24 : S128x128.Idx → EReal) (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7's block is its whole array at every point. -/
theorem blk7_eq (c : Dev nD) (t : Fin cfg0.N) :
    (iblk0 V c 7 t : Vec Ideal S128x128 .f32) = (V c main_v25 : S128x128.Idx → EReal) := by
  obtain ⟨-, -, -, -, ⟨e0, e1⟩, -⟩ := idx_facts_w t
  refine funext fun (y : S128x128.Idx) => ?_
  unfold iblk0
  rw [View.read_apply]
  show (V c main_v25 : S128x128.Idx → EReal) _ = _
  refine congrArg (V c main_v25 : S128x128.Idx → EReal) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block is its whole array at every point. -/
theorem blk8_eq (c : Dev nD) (t : Fin cfg0.N) :
    (iblk0 V c 8 t : Vec Ideal S32x128 .f32) = (V c main_v26 : S32x128.Idx → EReal) := by
  obtain ⟨-, -, -, -, -, ⟨e0, e1⟩, -⟩ := idx_facts_w t
  refine funext fun (y : S32x128.Idx) => ?_
  unfold iblk0
  rw [View.read_apply]
  show (V c main_v26 : S32x128.Idx → EReal) _ = _
  refine congrArg (V c main_v26 : S32x128.Idx → EReal) (funext fun a => Fin.ext ?_)
  match a with
  | ⟨0, _⟩ => show win0_8.index t (0 : Fin 2) * 32 + 1 * (y 0).val = (y 0).val; omega
  | ⟨1, _⟩ => show win0_8.index t (1 : Fin 2) * 128 + 1 * (y 1).val = (y 1).val; omega

/-- Window 9's block is its whole array at every point. -/
theorem blk9_eq (c : Dev nD) (t : Fin cfg0.N) :
    (iblk0 V c 9 t : Vec Ideal S128x64 .f32) = (V c main_v27 : S128x64.Idx → EReal) := by
  obtain ⟨-, -, -, -, -, -, ⟨e0, e1⟩, -⟩ := idx_facts_w t
  refine funext fun (y : S128x64.Idx) => ?_
  unfold iblk0
  rw [View.read_apply]
  show (V c main_v27 : S128x64.Idx → EReal) _ = _
  refine congrArg (V c main_v27 : S128x64.Idx → EReal) (funext fun a => Fin.ext ?_)
  match a with
  | ⟨0, _⟩ => show win0_9.index t (0 : Fin 2) * 128 + 1 * (y 0).val = (y 0).val; omega
  | ⟨1, _⟩ => show win0_9.index t (1 : Fin 2) * 64 + 1 * (y 1).val = (y 1).val; omega

/-- Window 10's block is its whole array at every point. -/
theorem blk10_eq (c : Dev nD) (t : Fin cfg0.N) :
    (iblk0 V c 10 t : Vec Ideal S128x64 .f32) = (V c main_v28 : S128x64.Idx → EReal) := by
  obtain ⟨-, -, -, -, -, -, -, ⟨e0, e1⟩, -⟩ := idx_facts_w t
  refine funext fun (y : S128x64.Idx) => ?_
  unfold iblk0
  rw [View.read_apply]
  show (V c main_v28 : S128x64.Idx → EReal) _ = _
  refine congrArg (V c main_v28 : S128x64.Idx → EReal) (funext fun a => Fin.ext ?_)
  match a with
  | ⟨0, _⟩ => show win0_10.index t (0 : Fin 2) * 128 + 1 * (y 0).val = (y 0).val; omega
  | ⟨1, _⟩ => show win0_10.index t (1 : Fin 2) * 64 + 1 * (y 1).val = (y 1).val; omega

/-- Window 11's block is its whole array at every point. -/
theorem blk11_eq (c : Dev nD) (t : Fin cfg0.N) :
    (iblk0 V c 11 t : Vec Ideal S32x64 .f32) = (V c main_v29 : S32x64.Idx → EReal) := by
  obtain ⟨-, -, -, -, -, -, -, -, ⟨e0, e1⟩⟩ := idx_facts_w t
  refine funext fun (y : S32x64.Idx) => ?_
  unfold iblk0
  rw [View.read_apply]
  show (V c main_v29 : S32x64.Idx → EReal) _ = _
  refine congrArg (V c main_v29 : S32x64.Idx → EReal) (funext fun a => Fin.ext ?_)
  match a with
  | ⟨0, _⟩ => show win0_11.index t (0 : Fin 2) * 32 + 1 * (y 0).val = (y 0).val; omega
  | ⟨1, _⟩ => show win0_11.index t (1 : Fin 2) * 64 + 1 * (y 1).val = (y 1).val; omega

/-- The output window's block at point t, read off any array, is side t of that array. -/
theorem blk12_read (t : Fin cfg0.N) (G : S2x64x1024.Idx → EReal) (o : Fin 64) (n : Fin 1024) :
    ((cfg0.win 12).blk t).view.read (Elt Ideal) G (ix3 (0 : Fin 1) o n) = G (ix3 (sideOf t) o n) := by
  obtain ⟨-, -, -, ⟨e0, e1, e2⟩⟩ := idx_facts t
  rw [View.read_apply]
  refine congrArg G (funext fun a => Fin.ext ?_)
  match a with
  | ⟨0, _⟩ => show win0_12.index t (0 : Fin 3) * 1 + 1 * (0 : ℕ) = t.val; omega
  | ⟨1, _⟩ => show win0_12.index t (1 : Fin 3) * 64 + 1 * o.val = o.val; omega
  | ⟨2, _⟩ => show win0_12.index t (2 : Fin 3) * 1024 + 1 * n.val = n.val; omega

/-- What point t writes back is block t of the whole-array function. -/
theorem flushed_eq (c : Dev nD) (t : Fin cfg0.N) :
    (dat0 (F := Ideal) V c).flushed 12 t = ((cfg0.win 12).blk t).view.read (Elt Ideal) (convArr V c) := by
  show (cfg0.win 12).cut (grid0.coords t) ((dat0 (F := Ideal) V c).after 12 t) = _
  rw [after0_12]
  funext j
  obtain ⟨u, o, n, rfl⟩ : ∃ (u : Fin 1) (o : Fin 64) (n : Fin 1024), j = ix3 u o n := ⟨j 0, j 1, j 2, eq_ix3 j⟩
  obtain rfl : u = 0 := Subsingleton.elim _ _
  refine Eq.trans ?_ (blk12_read t (convArr V c) o n).symm
  refine (out0_12_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) o n).trans ?_
  simp only [blk0_apply, blk1_apply, blk2_apply, blk3_eq, blk4_eq, blk5_eq, blk6_eq, blk7_eq, blk8_eq, blk9_eq, blk10_eq, blk11_eq]
  rfl

/-- An index of the output array is in point t's block iff each coordinate is in the block's range on its axis. -/
theorem mem_blk12 (t : Fin cfg0.N) (i : S2x64x1024.Idx) :
    i ∈ ((cfg0.win 12).blk t).view.set ↔ ∀ a : Fin 3, win0_12.index t a * S1x64x1024.size a ≤ (i a).val
      ∧ (i a).val < win0_12.index t a * S1x64x1024.size a + S1x64x1024.size a := by
  show i ∈ ((View.whole main_v30).slice (win0_12.rect t)).set ↔ _
  rw [View.set_slice_whole, Rect.mem_set_unit]
  exact Iff.rfl

/-- Every index of the output array is in the block of the point its side names. -/
theorem cover12 (i : S2x64x1024.Idx) :
    ∃ t : Fin cfg0.N, (cfg0.win 12).flush t = true ∧ i ∈ ((cfg0.win 12).blk t).view.set := by
  refine ⟨⟨(i 0).val, (i 0).isLt⟩, flush0_12 _, ?_⟩
  obtain ⟨-, -, -, ⟨e0, e1, e2⟩⟩ := idx_facts ⟨(i 0).val, (i 0).isLt⟩
  have e0' : win0_12.index ⟨(i 0).val, (i 0).isLt⟩ (0 : Fin 3) = (i 0).val := e0
  have h1 : (i 1).val < 64 := (i 1).isLt
  have h2 : (i 2).val < 1024 := (i 2).isLt
  rw [mem_blk12]
  intro a
  match a with
  | ⟨0, _⟩ => show win0_12.index ⟨(i 0).val, (i 0).isLt⟩ (0 : Fin 3) * 1 ≤ (i 0).val ∧ (i 0).val < win0_12.index ⟨(i 0).val, (i 0).isLt⟩ (0 : Fin 3) * 1 + 1; omega
  | ⟨1, _⟩ => show win0_12.index ⟨(i 0).val, (i 0).isLt⟩ (1 : Fin 3) * 64 ≤ (i 1).val ∧ (i 1).val < win0_12.index ⟨(i 0).val, (i 0).isLt⟩ (1 : Fin 3) * 64 + 64; omega
  | ⟨2, _⟩ => show win0_12.index ⟨(i 0).val, (i 0).isLt⟩ (2 : Fin 3) * 1024 ≤ (i 2).val ∧ (i 2).val < win0_12.index ⟨(i 0).val, (i 0).isLt⟩ (2 : Fin 3) * 1024 + 1024; omega

/-- The region's whole output array is that function. -/
theorem reg0_whole (c : Dev nD) : (dat0 (F := Ideal) V c).arrAt 12 cfg0.N = convArr V c :=
  (dat0 (F := Ideal) V c).arrAt_eq_of_cover 12 (convArr V c) (fun t _ => flushed_eq V c t) cover12

/-- The region's output array at (s, o, n): side s's three layers of the arrays the region is entered with. -/
theorem reg0_array (c : Dev nD) (s : Fin 2) (o : Fin 64) (n : Fin 1024) :
    (dat0 (F := Ideal) V c).arrAt 12 cfg0.N (ix3 s o n)
      = sideT (fun n f => (V c main_v14 : S2x1024x64.Idx → EReal) (ix3 s n f))
          (fun n d => (V c main_v20 : S2x1024x32.Idx → EReal) (ix3 s n d))
          (cntMat (fun n k => (V c main_v17 : S2x1024x32.Idx → BitVec 32) (ix3 s n k)))
          (cur2 (V c main_v21 : S64x128.Idx → EReal)) (cur2 (V c main_v22 : S64x128.Idx → EReal)) (cur2 (V c main_v23 : S32x128.Idx → EReal))
          (cur2 (V c main_v24 : S128x128.Idx → EReal)) (cur2 (V c main_v25 : S128x128.Idx → EReal)) (cur2 (V c main_v26 : S32x128.Idx → EReal))
          (cur2 (V c main_v27 : S128x64.Idx → EReal)) (cur2 (V c main_v28 : S128x64.Idx → EReal)) (cur2 (V c main_v29 : S32x64.Idx → EReal)) n o := by
  rw [reg0_whole]
  rfl

end Cert.KernelIdeal.KV

end
-- ==== Proof.KDense.lean ====
/-
  The dense region: one grid point (i, j) leaves in its (2, 256, 128) output block the two dense layers
  applied to relu(U + V) of its blocks of U and V; the region's whole output array (a, i, j) is that function
  of the arrays the region finds.
-/
import proofs.«429352_j49331994362309_3_alg».proof.Proof.Gen.KernelIdeal.Frame
import proofs.«429352_j49331994362309_3_alg».proof.Proof.Cur
import Idealize.ShloMosaic.Lib.ValueIdx
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Cur

variable (V : (c : Dev nD) → (b : Ref sig .tc) → Buf (Elt Ideal) ((c : Thread nD τ).loc b))

namespace Dense

/-- The bf16 word of zero denotes zero. -/
theorem zero_bf16 : (FloatOps.ofBits (F := Ideal) .bf16 0x0000#16 : EReal) = 0 := by
  show Ideal.ofBits .bf16 0x0000#16 = 0
  simp [Ideal.ofBits, Ideal.ieee]
/-- The f32 word of zero denotes zero. -/
theorem zero_f32 : (FloatOps.ofBits (F := Ideal) .f32 0x00000000#32 : EReal) = 0 := Ideal.ofBits_zero_f32

/-! ## The body's value, stage by stage -/

/-- The first layer's activations of a block pair, laid out [128, 256·128]: relu(U + V), the pair (p, q) at column p·128 + q. -/
def hid1 (x0 : Vec Ideal S128x256 .bf16) (x1 : Vec Ideal S128x128 .bf16) : FVec Ideal S128x32768 .bf16 :=
  shapeCast S128x32768
    (maximumf
      (addf
        (broadcastTo S128x256x128 (shapeCast S128x256x1 (shapeCast S128x256 x0 shapeCasts_S128x256_S128x256) shapeCasts_S128x256_S128x256x1) broadcasts_S128x256x1_S128x256x128)
        (broadcastTo S128x256x128 (shapeCast S128x1x128 (shapeCast S128x128 x1 shapeCasts_S128x128_S128x128) shapeCasts_S128x128_S128x1x128) broadcasts_S128x1x128_S128x256x128))
      (broadcast S128x256x128 (Scalar.ofBits .bf16 0x0000#16)))
    shapeCasts_S128x256x128_S128x32768

/-- The second layer: relu(A2 · h1), column by column. -/
def hid2 (x2 : Vec Ideal S64x128 .f32) (h : FVec Ideal S128x32768 .bf16) : FVec Ideal S64x32768 .bf16 :=
  truncf .bf16
    (maximumf
      (matmul dot_S64x128_S128x32768_S64x32768_1_0_0_1_n_n none (truncf .bf16 x2 bitsLt_bf16_f32) h (constant S64x32768 .f32 0x00000000#32))
      (broadcast S64x32768 (Scalar.ofBits .f32 0x00000000#32)))
    bitsLt_bf16_f32

/-- The third layer relu(A3 · h2), its columns p·128 + q laid back out as (p, q). -/
def outv (x3 : Vec Ideal S2x64 .f32) (h : FVec Ideal S64x32768 .bf16) : FVec Ideal S2x256x128 .f32 :=
  shapeCast S2x256x128
    (maximumf
      (matmul dot_S2x64_S64x32768_S2x32768_1_0_0_1_n_n none (truncf .bf16 x3 bitsLt_bf16_f32) h (constant S2x32768 .f32 0x00000000#32))
      (broadcast S2x32768 (Scalar.ofBits .f32 0x00000000#32)))
    shapeCasts_S2x32768_S2x256x128

/-- The body's stored value is the three stages composed. -/
theorem pay_eq (x0 : Vec Ideal S128x256 .bf16) (x1 : Vec Ideal S128x128 .bf16) (x2 : Vec Ideal S64x128 .f32) (x3 : Vec Ideal S2x64 .f32) :
    k1_pay1 x0 x1 x2 x3 = outv x3 (hid2 x2 (hid1 x0 x1)) := rfl

/-- The first stage at row d and column p·128 + q. -/
theorem hid1_apply (x0 : Vec Ideal S128x256 .bf16) (x1 : Vec Ideal S128x128 .bf16) (d : Fin 128) (n : Fin 32768)
    (p : Fin 256) (q : Fin 128) (hn : n.val = p.val * 128 + q.val) :
    hid1 x0 x1 (ix2 d n) = max ((x0 (ix2 d p) : EReal) + x1 (ix2 d q)) 0 := by
  unfold hid1
  refine (shapeCast_apply _ _ (ix2 d n) (ix3 d p q) (by
    rw [Shape.rowMajor_val_three, Shape.rowMajor_val_two]
    show (d.val * 256 + p.val) * 128 + q.val = d.val * 32768 + n.val
    omega)).trans ?_
  rw [maximumf_apply, addf_apply, broadcast_apply]
  have e0 : broadcastTo S128x256x128
          (shapeCast S128x256x1 (shapeCast S128x256 x0 shapeCasts_S128x256_S128x256) shapeCasts_S128x256_S128x256x1)
          broadcasts_S128x256x1_S128x256x128 (ix3 d p q) = x0 (ix2 d p) := by
    refine (broadcastTo_apply _ _ (ix3 d p q) (ix3 d p (0 : Fin 1)) (fun a => match a with
      | ⟨0, _⟩ => rfl | ⟨1, _⟩ => rfl | ⟨2, _⟩ => rfl)).trans ?_
    refine (shapeCast_apply _ _ (ix3 d p (0 : Fin 1)) (ix2 d p) (by
      rw [Shape.rowMajor_val_three, Shape.rowMajor_val_two]
      show d.val * 256 + p.val = (d.val * 256 + p.val) * 1 + 0
      omega)).trans ?_
    rw [shapeCast_self]
  have e1 : broadcastTo S128x256x128
          (shapeCast S128x1x128 (shapeCast S128x128 x1 shapeCasts_S128x128_S128x128) shapeCasts_S128x128_S128x1x128)
          broadcasts_S128x1x128_S128x256x128 (ix3 d p q) = x1 (ix2 d q) := by
    refine (broadcastTo_apply _ _ (ix3 d p q) (ix3 d (0 : Fin 1) q) (fun a => match a with
      | ⟨0, _⟩ => rfl | ⟨1, _⟩ => rfl | ⟨2, _⟩ => rfl)).trans ?_
    refine (shapeCast_apply _ _ (ix3 d (0 : Fin 1) q) (ix2 d q) (by
      rw [Shape.rowMajor_val_three, Shape.rowMajor_val_two]
      show d.val * 128 + q.val = (d.val * 1 + 0) * 128 + q.val
      omega)).trans ?_
    rw [shapeCast_self]
  rw [e0, e1]
  exact congrArg (max _) zero_bf16

theorem lhsA_0 (i : S64x32768.Idx) (q : dot_S64x128_S128x32768_S64x32768_1_0_0_1_n_n.contr.Idx) :
    (dot_S64x128_S128x32768_S64x32768_1_0_0_1_n_n.lhsIdx i q 0).val = (i 0).val := by
  unfold DotDims.lhsIdx
  rw [dif_neg (show ¬(0 : Fin S64x128.rank) ∈ dot_S64x128_S128x32768_S64x32768_1_0_0_1_n_n.lhsBatch by decide), dif_pos (show (0 : Fin S64x128.rank) ∈ dot_S64x128_S128x32768_S64x32768_1_0_0_1_n_n.lhsNonContracting by decide)]
  rfl
theorem lhsA_1 (i : S64x32768.Idx) (q : dot_S64x128_S128x32768_S64x32768_1_0_0_1_n_n.contr.Idx) :
    (dot_S64x128_S128x32768_S64x32768_1_0_0_1_n_n.lhsIdx i q 1).val = (q ⟨0, by decide⟩).val :=
  dot_S64x128_S128x32768_S64x32768_1_0_0_1_n_n.lhsIdx_val_of_single rfl i q
theorem rhsA_0 (i : S64x32768.Idx) (q : dot_S64x128_S128x32768_S64x32768_1_0_0_1_n_n.contr.Idx) :
    (dot_S64x128_S128x32768_S64x32768_1_0_0_1_n_n.rhsIdx i q 0).val = (q ⟨0, by decide⟩).val :=
  dot_S64x128_S128x32768_S64x32768_1_0_0_1_n_n.rhsIdx_val_of_single rfl i q
theorem rhsA_1 (i : S64x32768.Idx) (q : dot_S64x128_S128x32768_S64x32768_1_0_0_1_n_n.contr.Idx) :
    (dot_S64x128_S128x32768_S64x32768_1_0_0_1_n_n.rhsIdx i q 1).val = (i 1).val := by
  unfold DotDims.rhsIdx
  rw [dif_neg (show ¬(1 : Fin S128x32768.rank) ∈ dot_S64x128_S128x32768_S64x32768_1_0_0_1_n_n.rhsBatch by decide), dif_pos (show (1 : Fin S128x32768.rank) ∈ dot_S64x128_S128x32768_S64x32768_1_0_0_1_n_n.rhsNonContracting by decide)]
  rfl

/-- The product into a zero accumulator, at an entry: the sum over the contracted axis. -/
theorem mmA_apply (l : FVec Ideal S64x128 .bf16) (r : FVec Ideal S128x32768 .bf16) (g : Fin 64) (n : Fin 32768) :
    matmul dot_S64x128_S128x32768_S64x32768_1_0_0_1_n_n none l r (constant (F := Ideal) S64x32768 .f32 0x00000000#32) (ix2 g n)
      = ∑ k : Fin 128, (l (ix2 g k) : EReal) * r (ix2 k n) := by
  refine (Ideal.matmul_constant_zero_apply dot_S64x128_S128x32768_S64x32768_1_0_0_1_n_n none l r (ix2 g n)).trans ?_
  rw [← Equiv.sum_comp (ValueIdx.contrEquiv1 dot_S64x128_S128x32768_S64x32768_1_0_0_1_n_n 128 rfl rfl).symm]
  refine Finset.sum_congr rfl fun k _ => ?_
  have hk := ValueIdx.contrEquiv1_symm_val dot_S64x128_S128x32768_S64x32768_1_0_0_1_n_n 128 rfl rfl k
  have el : dot_S64x128_S128x32768_S64x32768_1_0_0_1_n_n.lhsIdx (ix2 g n) ((ValueIdx.contrEquiv1 dot_S64x128_S128x32768_S64x32768_1_0_0_1_n_n 128 rfl rfl).symm k) = ix2 g k := funext fun a => Fin.ext (by
    match a with
    | ⟨0, _⟩ => exact lhsA_0 _ _
    | ⟨1, _⟩ => exact (lhsA_1 _ _).trans hk)
  have er : dot_S64x128_S128x32768_S64x32768_1_0_0_1_n_n.rhsIdx (ix2 g n) ((ValueIdx.contrEquiv1 dot_S64x128_S128x32768_S64x32768_1_0_0_1_n_n 128 rfl rfl).symm k) = ix2 k n := funext fun a => Fin.ext (by
    match a with
    | ⟨0, _⟩ => exact (rhsA_0 _ _).trans hk
    | ⟨1, _⟩ => exact rhsA_1 _ _)
  rw [el, er]

theorem lhsB_0 (i : S2x32768.Idx) (q : dot_S2x64_S64x32768_S2x32768_1_0_0_1_n_n.contr.Idx) :
    (dot_S2x64_S64x32768_S2x32768_1_0_0_1_n_n.lhsIdx i q 0).val = (i 0).val := by
  unfold DotDims.lhsIdx
  rw [dif_neg (show ¬(0 : Fin S2x64.rank) ∈ dot_S2x64_S64x32768_S2x32768_1_0_0_1_n_n.lhsBatch by decide), dif_pos (show (0 : Fin S2x64.rank) ∈ dot_S2x64_S64x32768_S2x32768_1_0_0_1_n_n.lhsNonContracting by decide)]
  rfl
theorem lhsB_1 (i : S2x32768.Idx) (q : dot_S2x64_S64x32768_S2x32768_1_0_0_1_n_n.contr.Idx) :
    (dot_S2x64_S64x32768_S2x32768_1_0_0_1_n_n.lhsIdx i q 1).val = (q ⟨0, by decide⟩).val :=
  dot_S2x64_S64x32768_S2x32768_1_0_0_1_n_n.lhsIdx_val_of_single rfl i q
theorem rhsB_0 (i : S2x32768.Idx) (q : dot_S2x64_S64x32768_S2x32768_1_0_0_1_n_n.contr.Idx) :
    (dot_S2x64_S64x32768_S2x32768_1_0_0_1_n_n.rhsIdx i q 0).val = (q ⟨0, by decide⟩).val :=
  dot_S2x64_S64x32768_S2x32768_1_0_0_1_n_n.rhsIdx_val_of_single rfl i q
theorem rhsB_1 (i : S2x32768.Idx) (q : dot_S2x64_S64x32768_S2x32768_1_0_0_1_n_n.contr.Idx) :
    (dot_S2x64_S64x32768_S2x32768_1_0_0_1_n_n.rhsIdx i q 1).val = (i 1).val := by
  unfold DotDims.rhsIdx
  rw [dif_neg (show ¬(1 : Fin S64x32768.rank) ∈ dot_S2x64_S64x32768_S2x32768_1_0_0_1_n_n.rhsBatch by decide), dif_pos (show (1 : Fin S64x32768.rank) ∈ dot_S2x64_S64x32768_S2x32768_1_0_0_1_n_n.rhsNonContracting by decide)]
  rfl

/-- The product into a zero accumulator, at an entry: the sum over the contracted axis. -/
theorem mmB_apply (l : FVec Ideal S2x64 .bf16) (r : FVec Ideal S64x32768 .bf16) (g : Fin 2) (n : Fin 32768) :
    matmul dot_S2x64_S64x32768_S2x32768_1_0_0_1_n_n none l r (constant (F := Ideal) S2x32768 .f32 0x00000000#32) (ix2 g n)
      = ∑ k : Fin 64, (l (ix2 g k) : EReal) * r (ix2 k n) := by
  refine (Ideal.matmul_constant_zero_apply dot_S2x64_S64x32768_S2x32768_1_0_0_1_n_n none l r (ix2 g n)).trans ?_
  rw [← Equiv.sum_comp (ValueIdx.contrEquiv1 dot_S2x64_S64x32768_S2x32768_1_0_0_1_n_n 64 rfl rfl).symm]
  refine Finset.sum_congr rfl fun k _ => ?_
  have hk := ValueIdx.contrEquiv1_symm_val dot_S2x64_S64x32768_S2x32768_1_0_0_1_n_n 64 rfl rfl k
  have el : dot_S2x64_S64x32768_S2x32768_1_0_0_1_n_n.lhsIdx (ix2 g n) ((ValueIdx.contrEquiv1 dot_S2x64_S64x32768_S2x32768_1_0_0_1_n_n 64 rfl rfl).symm k) = ix2 g k := funext fun a => Fin.ext (by
    match a with
    | ⟨0, _⟩ => exact lhsB_0 _ _
    | ⟨1, _⟩ => exact (lhsB_1 _ _).trans hk)
  have er : dot_S2x64_S64x32768_S2x32768_1_0_0_1_n_n.rhsIdx (ix2 g n) ((ValueIdx.contrEquiv1 dot_S2x64_S64x32768_S2x32768_1_0_0_1_n_n 64 rfl rfl).symm k) = ix2 k n := funext fun a => Fin.ext (by
    match a with
    | ⟨0, _⟩ => exact (rhsB_0 _ _).trans hk
    | ⟨1, _⟩ => exact rhsB_1 _ _)
  rw [el, er]

/-- The second stage at an entry. -/
theorem hid2_apply (x2 : Vec Ideal S64x128 .f32) (h : FVec Ideal S128x32768 .bf16) (g : Fin 64) (n : Fin 32768) :
    hid2 x2 h (ix2 g n) = max (∑ d : Fin 128, (x2 (ix2 g d) : EReal) * h (ix2 d n)) 0 := by
  unfold hid2
  rw [truncf_apply, maximumf_apply, broadcast_apply, mmA_apply]
  simp only [truncf_apply]
  exact congrArg (max _) zero_f32

/-- The third stage at (a, p, q): column p·128 + q of the product. -/
theorem outv_apply (x3 : Vec Ideal S2x64 .f32) (h : FVec Ideal S64x32768 .bf16) (a : Fin 2) (p : Fin 256) (q : Fin 128)
    (n : Fin 32768) (hn : n.val = p.val * 128 + q.val) :
    outv x3 h (ix3 a p q) = max (∑ g : Fin 64, (x3 (ix2 a g) : EReal) * h (ix2 g n)) 0 := by
  unfold outv
  refine (shapeCast_apply _ _ (ix3 a p q) (ix2 a n) (by
    rw [Shape.rowMajor_val_three, Shape.rowMajor_val_two]
    show a.val * 32768 + n.val = (a.val * 256 + p.val) * 128 + q.val
    omega)).trans ?_
  rw [maximumf_apply, broadcast_apply, mmB_apply]
  simp only [truncf_apply]
  exact congrArg (max _) zero_f32

/-- The body's stored value at (a, p, q): the two dense layers on relu(U_p + V_q). -/
theorem pay_apply (x0 : Vec Ideal S128x256 .bf16) (x1 : Vec Ideal S128x128 .bf16) (x2 : Vec Ideal S64x128 .f32) (x3 : Vec Ideal S2x64 .f32)
    (a : Fin 2) (p : Fin 256) (q : Fin 128) :
    k1_pay1 x0 x1 x2 x3 (ix3 a p q)
      = max (∑ g : Fin 64, (x3 (ix2 a g) : EReal) * max (∑ d : Fin 128, (x2 (ix2 g d) : EReal) * max ((x0 (ix2 d p) : EReal) + x1 (ix2 d q)) 0) 0) 0 := by
  have hn : p.val * 128 + q.val < 32768 := by have := p.isLt; have := q.isLt; omega
  rw [pay_eq, outv_apply x3 _ a p q ⟨p.val * 128 + q.val, hn⟩ rfl]
  refine congrArg (max · 0) (Finset.sum_congr rfl fun g _ => ?_)
  rw [hid2_apply]
  refine congrArg (fun z => _ * max z 0) (Finset.sum_congr rfl fun d _ => ?_)
  rw [hid1_apply x0 x1 d ⟨p.val * 128 + q.val, hn⟩ p q rfl]

/-! ## From the blocks to the array -/

theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

/-- What the body leaves in the output block at (a, p, q), from the four input blocks. -/
theorem out_apply (x0 : Vec Ideal S128x256 .bf16) (x1 : Vec Ideal S128x128 .bf16) (x2 : Vec Ideal S64x128 .f32) (x3 : Vec Ideal S2x64 .f32)
    (a : Fin 2) (p : Fin 256) (q : Fin 128) :
    out1_4 x0 x1 x2 x3 (ix3 a p q)
      = max (∑ g : Fin 64, (x3 (ix2 a g) : EReal) * max (∑ d : Fin 128, (x2 (ix2 g d) : EReal) * max ((x0 (ix2 d p) : EReal) + x1 (ix2 d q)) 0) 0) 0 := by
  unfold out1_4
  rw [View.canon_unit_zero zeros3]
  simp only [View.ld_unit_zero (S := S128x256) zeros2, View.ld_unit_zero (S := S128x128) zeros2,
    View.ld_unit_zero (S := S64x128) zeros2, View.ld_unit_zero (S := S2x64) zeros2]
  exact pay_apply x0 x1 x2 x3 a p q

/-- The region's output as one function of the four arrays it reads. -/
def denseArr (Ua Va : S128x1024.Idx → EReal) (A2 : S64x128.Idx → EReal) (A3 : S2x64.Idx → EReal) : S2x1024x1024.Idx → EReal :=
  fun k => denseUV (cur2 Ua) (cur2 Va) (cur2 A2) (cur2 A3) (k 0) (k 1) (k 2)

/-- The block indices over the 4 × 8 grid: U's block column is the output's block row, V's block column the output's
    block column, A2 and A3 are whole, and the output's block (0, r, s) has r ≤ 3, s ≤ 7. -/
theorem idx_facts : ∀ t : Fin cfg1.N,
    win1_0.index t (0 : Fin 2) = 0 ∧ win1_0.index t (1 : Fin 2) = win1_4.index t (1 : Fin 3)
    ∧ win1_1.index t (0 : Fin 2) = 0 ∧ win1_1.index t (1 : Fin 2) = win1_4.index t (2 : Fin 3)
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = 0 ∧ win1_4.index t (1 : Fin 3) ≤ 3 ∧ win1_4.index t (2 : Fin 3) ≤ 7 :=
  (by decide +kernel : ∀ t : Fin grid1.N, _)

/-- Every block (0, r, s) of the output is some grid point's. -/
theorem idx_onto : ∀ (r : Fin 4) (s : Fin 8), ∃ t : Fin cfg1.N, win1_4.index t = ![0, r.val, s.val] :=
  (by decide +kernel : ∀ (r : Fin 4) (s : Fin 8), ∃ t : Fin grid1.N, win1_4.index t = ![0, r.val, s.val])

/-- The four arrays the region reads, at their literal types. -/
abbrev Uarr (c : Dev nD) : S128x1024.Idx → EReal := V c main_v38
abbrev Varr (c : Dev nD) : S128x1024.Idx → EReal := V c main_v42
abbrev A2arr (c : Dev nD) : S64x128.Idx → EReal := V c main_arg16
abbrev A3arr (c : Dev nD) : S2x64.Idx → EReal := V c main_arg17

/-- U's block at a point: columns r·256 … r·256 + 255 of U, r the output's block row. -/
theorem blk0_apply (c : Dev nD) (t : Fin cfg1.N) (d : Fin 128) (p : Fin 256) (i : Fin 1024)
    (hi : i.val = win1_4.index t (1 : Fin 3) * 256 + p.val) :
    (iblk1 (F := Ideal) V c 0 t : Vec Ideal S128x256 .bf16) (ix2 d p) = Uarr V c (ix2 d i) := by
  obtain ⟨e0, e1, -⟩ := idx_facts t
  show (V c main_v38 : S128x1024.Idx → EReal) (((cfg1.win 0).blk t).view.emb (ix2 d p)) = _
  refine congrArg (V c main_v38 : S128x1024.Idx → EReal) (funext fun a => Fin.ext ?_)
  match a with
  | ⟨0, _⟩ => show win1_0.index t (0 : Fin 2) * 128 + 1 * d.val = d.val; omega
  | ⟨1, _⟩ => show win1_0.index t (1 : Fin 2) * 256 + 1 * p.val = i.val; omega

/-- V's block at a point: columns s·128 … s·128 + 127 of V, s the output's block column. -/
theorem blk1_apply (c : Dev nD) (t : Fin cfg1.N) (d : Fin 128) (q : Fin 128) (j : Fin 1024)
    (hj : j.val = win1_4.index t (2 : Fin 3) * 128 + q.val) :
    (iblk1 (F := Ideal) V c 1 t : Vec Ideal S128x128 .bf16) (ix2 d q) = Varr V c (ix2 d j) := by
  obtain ⟨-, -, e0, e1, -⟩ := idx_facts t
  show (V c main_v42 : S128x1024.Idx → EReal) (((cfg1.win 1).blk t).view.emb (ix2 d q)) = _
  refine congrArg (V c main_v42 : S128x1024.Idx → EReal) (funext fun a => Fin.ext ?_)
  match a with
  | ⟨0, _⟩ => show win1_1.index t (0 : Fin 2) * 128 + 1 * d.val = d.val; omega
  | ⟨1, _⟩ => show win1_1.index t (1 : Fin 2) * 128 + 1 * q.val = j.val; omega

/-- A2's block at every point is A2. -/
theorem blk2_apply (c : Dev nD) (t : Fin cfg1.N) (g : Fin 64) (d : Fin 128) :
    (iblk1 (F := Ideal) V c 2 t : Vec Ideal S64x128 .f32) (ix2 g d) = A2arr V c (ix2 g d) := by
  obtain ⟨-, -, -, -, e0, e1, -⟩ := idx_facts t
  show (V c main_arg16 : S64x128.Idx → EReal) (((cfg1.win 2).blk t).view.emb (ix2 g d)) = _
  refine congrArg (V c main_arg16 : S64x128.Idx → EReal) (funext fun a => Fin.ext ?_)
  match a with
  | ⟨0, _⟩ => show win1_2.index t (0 : Fin 2) * 64 + 1 * g.val = g.val; omega
  | ⟨1, _⟩ => show win1_2.index t (1 : Fin 2) * 128 + 1 * d.val = d.val; omega

/-- A3's block at every point is A3. -/
theorem blk3_apply (c : Dev nD) (t : Fin cfg1.N) (a : Fin 2) (g : Fin 64) :
    (iblk1 (F := Ideal) V c 3 t : Vec Ideal S2x64 .f32) (ix2 a g) = A3arr V c (ix2 a g) := by
  obtain ⟨-, -, -, -, -, -, e0, e1, -⟩ := idx_facts t
  show (V c main_arg17 : S2x64.Idx → EReal) (((cfg1.win 3).blk t).view.emb (ix2 a g)) = _
  refine congrArg (V c main_arg17 : S2x64.Idx → EReal) (funext fun b => Fin.ext ?_)
  match b with
  | ⟨0, _⟩ => show win1_3.index t (0 : Fin 2) * 2 + 1 * a.val = a.val; omega
  | ⟨1, _⟩ => show win1_3.index t (1 : Fin 2) * 64 + 1 * g.val = g.val; omega

/-- What a point leaves in its output block, at an index of the block, is the region's function of the arrays at the
    array index under it: block (0, r, s) at (a, p, q) sits over (a, r·256 + p, s·128 + q). -/
theorem flushed_at (c : Dev nD) (t : Fin cfg1.N) (y : S2x256x128.Idx) :
    out1_4 (iblk1 (F := Ideal) V c 0 t) (iblk1 (F := Ideal) V c 1 t) (iblk1 (F := Ideal) V c 2 t) (iblk1 (F := Ideal) V c 3 t) y
      = denseArr (V c main_v38) (V c main_v42) (V c main_arg16) (V c main_arg17) (((cfg1.win 4).blk t).view.emb y) := by
  obtain ⟨a, p, q, rfl⟩ : ∃ (a : Fin 2) (p : Fin 256) (q : Fin 128), y = ix3 a p q := ⟨y 0, y 1, y 2, eq_ix3 y⟩
  obtain ⟨-, -, -, -, -, -, -, -, e0, e1, e2⟩ := idx_facts t
  have hi : win1_4.index t (1 : Fin 3) * 256 + p.val < 1024 := by have := p.isLt; omega
  have hj : win1_4.index t (2 : Fin 3) * 128 + q.val < 1024 := by have := q.isLt; omega
  have hk : ((cfg1.win 4).blk t).view.emb (ix3 a p q)
      = (ix3 a ⟨win1_4.index t (1 : Fin 3) * 256 + p.val, hi⟩ ⟨win1_4.index t (2 : Fin 3) * 128 + q.val, hj⟩ : S2x1024x1024.Idx) :=
    funext fun b => Fin.ext (by
      match b with
      | ⟨0, _⟩ => show win1_4.index t (0 : Fin 3) * 2 + 1 * a.val = a.val; omega
      | ⟨1, _⟩ => show win1_4.index t (1 : Fin 3) * 256 + 1 * p.val = win1_4.index t (1 : Fin 3) * 256 + p.val; omega
      | ⟨2, _⟩ => show win1_4.index t (2 : Fin 3) * 128 + 1 * q.val = win1_4.index t (2 : Fin 3) * 128 + q.val; omega)
  rw [hk]
  refine (out_apply (iblk1 (F := Ideal) V c 0 t) (iblk1 (F := Ideal) V c 1 t) (iblk1 (F := Ideal) V c 2 t) (iblk1 (F := Ideal) V c 3 t) a p q).trans ?_
  show _ = max (∑ g : Fin 64, A3arr V c (ix2 a g)
      * max (∑ d : Fin 128, A2arr V c (ix2 g d)
        * max (Uarr V c (ix2 d ⟨win1_4.index t (1 : Fin 3) * 256 + p.val, hi⟩)
          + Varr V c (ix2 d ⟨win1_4.index t (2 : Fin 3) * 128 + q.val, hj⟩)) 0) 0) 0
  refine congrArg (max · 0) (Finset.sum_congr rfl fun g _ => ?_)
  rw [blk3_apply V c t a g]
  refine congrArg (fun z => _ * max z 0) (Finset.sum_congr rfl fun d _ => ?_)
  rw [blk2_apply V c t g d, blk0_apply V c t d p ⟨_, hi⟩ rfl, blk1_apply V c t d q ⟨_, hj⟩ rfl]

/-- What point t writes back is block t of the region's function of the arrays. -/
theorem flushed_eq (c : Dev nD) (t : Fin cfg1.N) :
    (dat1 (F := Ideal) V c).flushed 4 t
      = ((cfg1.win 4).blk t).view.read (Elt Ideal) (denseArr (V c main_v38) (V c main_v42) (V c main_arg16) (V c main_arg17)) := by
  show (cfg1.win 4).cut (grid1.coords t) ((dat1 (F := Ideal) V c).after 4 t) = _
  rw [after1_4]
  funext y
  exact flushed_at V c t y

/-- An index of the output array is in point t's block iff each coordinate is in the block's range on its axis. -/
theorem mem_blk (t : Fin cfg1.N) (k : S2x1024x1024.Idx) :
    k ∈ ((cfg1.win 4).blk t).view.set
      ↔ ∀ a : Fin 3, win1_4.index t a * S2x256x128.size a ≤ (k a).val ∧ (k a).val < win1_4.index t a * S2x256x128.size a + S2x256x128.size a := by
  show k ∈ ((View.whole main_v43).slice (win1_4.rect t)).set ↔ _
  rw [View.set_slice_whole, Rect.mem_set_unit]
  exact Iff.rfl

/-- Every index (a, i, j) of the output array is in the block of the point with block row i / 256 and block column j / 128. -/
theorem covered (k : S2x1024x1024.Idx) :
    ∃ t : Fin cfg1.N, (cfg1.win 4).flush t = true ∧ k ∈ ((cfg1.win 4).blk t).view.set := by
  have h0 : (k 0).val < 2 := (k 0).isLt
  have h1 : (k 1).val < 1024 := (k 1).isLt
  have h2 : (k 2).val < 1024 := (k 2).isLt
  obtain ⟨t, ht⟩ := idx_onto ⟨(k 1).val / 256, by omega⟩ ⟨(k 2).val / 128, by omega⟩
  have q0 : win1_4.index t (0 : Fin 3) = 0 := congrFun ht 0
  have q1 : win1_4.index t (1 : Fin 3) = (k 1).val / 256 := congrFun ht 1
  have q2 : win1_4.index t (2 : Fin 3) = (k 2).val / 128 := congrFun ht 2
  refine ⟨t, flush1_4 t, ?_⟩
  rw [mem_blk]
  intro a
  match a with
  | ⟨0, _⟩ => show win1_4.index t (0 : Fin 3) * 2 ≤ (k 0).val ∧ (k 0).val < win1_4.index t (0 : Fin 3) * 2 + 2; omega
  | ⟨1, _⟩ => show win1_4.index t (1 : Fin 3) * 256 ≤ (k 1).val ∧ (k 1).val < win1_4.index t (1 : Fin 3) * 256 + 256; omega
  | ⟨2, _⟩ => show win1_4.index t (2 : Fin 3) * 128 ≤ (k 2).val ∧ (k 2).val < win1_4.index t (2 : Fin 3) * 128 + 128; omega

/-- The output array after the region's last point is the region's function of the arrays it found. -/
theorem array_eq (c : Dev nD) :
    (dat1 (F := Ideal) V c).arrAt 4 cfg1.N = denseArr (V c main_v38) (V c main_v42) (V c main_arg16) (V c main_arg17) :=
  (dat1 (F := Ideal) V c).arrAt_eq_of_cover 4 (denseArr (V c main_v38) (V c main_v42) (V c main_arg16) (V c main_arg17))
    (fun t _ => flushed_eq V c t) covered

end Dense

/-- The region's output array at (a, i, j). -/
theorem reg1_array (c : Dev nD) (a : Fin 2) (i j : Fin 1024) :
    (dat1 (F := Ideal) V c).arrAt 4 cfg1.N (ix3 a i j)
      = denseUV (cur2 (V c main_v38 : S128x1024.Idx → EReal)) (cur2 (V c main_v42 : S128x1024.Idx → EReal))
          (cur2 (V c main_arg16 : S64x128.Idx → EReal)) (cur2 (V c main_arg17 : S2x64.Idx → EReal)) a i j := by
  rw [Dense.array_eq V c]
  rfl

end Cert.KernelIdeal.KV

end
-- ==== Proof.KHost0.lean ====
/-
  The arrays the convolution region is entered with, as functions of the program's arguments: the two sides'
  node features stacked, the two sides' index words (clipped into the node range, which leaves words already
  in range as they are) stacked, the two sides' edge means stacked, and each weight matrix transposed.
-/
import proofs.«429352_j49331994362309_3_alg».proof.Proof.Gen.KernelIdeal.Frame
import proofs.«429352_j49331994362309_3_alg».proof.Proof.Cur
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.Lib.StableHlo.Run
set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Cur

/-! ## Layout operations read at coordinates -/

/-- A matrix given a leading unit axis reads, at (0, n, f), the matrix at (n, f). -/
theorem lead_apply {α : Type} {a b : ℕ} (x : (⟨2, ![a, b]⟩ : Shape).Idx → α) (ha : a ≠ 1) (hb : b ≠ 1)
    (h : (⟨2, ![a, b]⟩ : Shape).BroadcastsInDim ⟨3, ![1, a, b]⟩ (![1, 2] : Fin 2 → Fin 3)) (u : Fin 1) (n : Fin a) (f : Fin b) :
    broadcastInDim ⟨3, ![1, a, b]⟩ (![1, 2] : Fin 2 → Fin 3) h x (ix3 u n f) = x (ix2 n f) :=
  broadcastInDim_apply _ h x _ (ix2 n f) fun i => match i with
    | ⟨0, _⟩ => by show n.val = if a = 1 then 0 else n.val; rw [if_neg ha]
    | ⟨1, _⟩ => by show f.val = if b = 1 then 0 else f.val; rw [if_neg hb]

/-- Two arrays with a leading unit axis joined along it read, at (s, n, f), the first at (0, n, f) if s = 0 and the second otherwise. -/
theorem stack_apply {α : Type} {a b : ℕ} (x₁ x₂ : (⟨3, ![1, a, b]⟩ : Shape).Idx → α)
    (h : Shape.Concatenates [(⟨3, ![1, a, b]⟩ : Shape), ⟨3, ![1, a, b]⟩] ⟨3, ![2, a, b]⟩ 0) (s : Fin 2) (n : Fin a) (f : Fin b) :
    concatenate ⟨3, ![2, a, b]⟩ 0 [⟨⟨3, ![1, a, b]⟩, x₁⟩, ⟨⟨3, ![1, a, b]⟩, x₂⟩] h (ix3 s n f)
      = if s = 0 then x₁ (ix3 (0 : Fin 1) n f) else x₂ (ix3 (0 : Fin 1) n f) := by
  by_cases hs : s = 0
  · rw [if_pos hs]
    subst hs
    exact concatenate_pair_apply_left (0 : Fin 3) x₁ x₂ h (ix3 (0 : Fin 2) n f) rfl (ix3 (0 : Fin 1) n f)
      (fun i => match i with | ⟨0, _⟩ => rfl | ⟨1, _⟩ => rfl | ⟨2, _⟩ => rfl)
  · rw [if_neg hs]
    have h1 : s = 1 := Fin.ext (by
      have := s.isLt
      have h0 : s.val ≠ 0 := fun e => hs (Fin.ext e)
      show s.val = 1
      omega)
    subst h1
    exact concatenate_pair_apply_right (0 : Fin 3) x₁ x₂ h (ix3 (1 : Fin 2) n f) rfl rfl (ix3 (0 : Fin 1) n f)
      (fun i => match i with | ⟨0, _⟩ => fun hne => absurd rfl hne | ⟨1, _⟩ => fun _ => rfl | ⟨2, _⟩ => fun _ => rfl)
      (by rfl)

/-- An array with a trailing unit axis, that axis dropped, reads, at (n, k), the array at (n, k, 0). -/
theorem dropLast_apply {α : Type} {a b : ℕ} (x : (⟨3, ![a, b, 1]⟩ : Shape).Idx → α)
    (h : (⟨3, ![a, b, 1]⟩ : Shape).ShapeCasts ⟨2, ![a, b]⟩) (n : Fin a) (k : Fin b) :
    shapeCast ⟨2, ![a, b]⟩ x h (ix2 n k) = x (ix3 n k (0 : Fin 1)) :=
  shapeCast_apply x h _ _ (by
    rw [Shape.rowMajor_val_three, Shape.rowMajor_val_two]
    show (n.val * b + k.val) * 1 + 0 = n.val * b + k.val
    rw [Nat.mul_one, Nat.add_zero])

/-! ## The clip of an index word and the mean over the edge slots -/

/-- A word that reads as a number below 1024, clipped into [0, 1023] as a signed word, is itself. -/
theorem clip_word (w : BitVec 32) (h : w.toNat < 1024) : IntOp.minsi 1023#32 (IntOp.maxsi 0#32 w) = w := by
  have hi : w.toInt = (w.toNat : ℤ) := by
    have hlt : 2 * w.toNat < 2 ^ 32 := by
      have h2 : (2 : ℕ) ^ 32 = 4294967296 := by norm_num
      omega
    rw [BitVec.toInt_eq_toNat_cond, if_pos hlt]
  have e0 : (0#32 : BitVec 32).toInt = 0 := by decide
  have e1 : (1023#32 : BitVec 32).toInt = 1023 := by decide
  have s0 : w.slt 0#32 = false := by
    rw [BitVec.slt, hi, e0]; exact decide_eq_false (by omega)
  have s1 : (1023#32 : BitVec 32).slt w = false := by
    rw [BitVec.slt, hi, e1]; exact decide_eq_false (by omega)
  unfold IntOp.minsi IntOp.maxsi
  rw [s0]
  simp only [Bool.false_eq_true, if_false]
  rw [s1]
  simp only [Bool.false_eq_true, if_false]

/-- The pattern 0x42000000 is the real 32. -/
theorem ofBits_32 : Ideal.ofBits .f32 0x42000000#32 = ((32 : ℝ) : EReal) := by
  simp [Ideal.ofBits, Ideal.ieee, -EReal.coe_mul]; norm_num

/-- The clip into [0, 1023] as the program spells it: the minimum with 1023 of the maximum with 0, each constant broadcast. -/
def clipv (v : S1024x32.Idx → BitVec 32) : S1024x32.Idx → BitVec 32 :=
  minsi (broadcastInDim S1024x32 (![] : Fin 0 → Fin S1024x32.rank) bcast_S_S1024x32 (constantI S_ 32 1023#32))
    (maxsi (broadcastInDim S1024x32 (![] : Fin 0 → Fin S1024x32.rank) bcast_S_S1024x32 (constantI S_ 32 0#32)) v)

theorem clipv_apply (v : S1024x32.Idx → BitVec 32) (i : S1024x32.Idx) :
    clipv v i = IntOp.minsi 1023#32 (IntOp.maxsi 0#32 (v i)) := rfl

/-- The mean over the middle axis as the program spells it: the sum from zero, divided by the broadcast 32, rounded to bf16 (the identity here). -/
def meanv (x : S1024x32x32.Idx → EReal) : S1024x32.Idx → EReal :=
  truncf .bf16 (Host.divf (Host.reduceAdd (F := Ideal) (φ := .f32) x (constant (F := Ideal) S_ .f32 0x00000000#32) reducesTo_S1024x32x32_S1024x32_d1 h_S_)
    (broadcastInDim S1024x32 (![] : Fin 0 → Fin S1024x32.rank) bcast_S_S1024x32 (constant (F := Ideal) S_ .f32 0x42000000#32))) bitsLt_bf16_f32

/-- That mean, read at (n, d), is the edge mean of the array. -/
theorem mean_apply (x : S1024x32x32.Idx → EReal) (n : Fin 1024) (d : Fin 32) :
    meanv x (ix2 n d) = edgeMean (cur3 x) n d := by
  show Ideal.div (Ideal.hostReduceAdd reducesTo_S1024x32x32_S1024x32_d1 x (Ideal.ofBits .f32 0x00000000#32) (ix2 n d)) (Ideal.ofBits .f32 0x42000000#32) = _
  rw [Ideal.ofBits_zero_f32, ofBits_32, Ideal.div_coe (by norm_num), Ideal.hostReduceAdd_single reducesTo_S1024x32x32_S1024x32_d1 (by decide), zero_add]
  unfold edgeMean cur3 c32
  refine congrArg (· * _) (Finset.sum_congr rfl fun k _ => ?_)
  exact congrArg x (funext fun a => Fin.ext (by match a with | ⟨0, _⟩ => rfl | ⟨1, _⟩ => rfl | ⟨2, _⟩ => rfl))

variable (m : (ℓ : Loc nD τ sig) → Buf (Elt Ideal) ℓ) (ρ : Dev nD → PrngReg)

/-! ## Each array at the region's entry as the host operations' term over the arguments -/

set_option maxHeartbeats 2000000 in
/-- The stacked node features: the two sides' arrays, each given a leading unit axis, joined along it. -/
theorem e_v14 (c : Dev nD) : (V5 m ρ c main_v14 : S2x1024x64.Idx → EReal)
    = concatenate S2x1024x64 0
        [⟨S1x1024x64, broadcastInDim S1x1024x64 (![1, 2] : Fin 2 → Fin S1x1024x64.rank) bcast_S1024x64_S1x1024x64_1_2 (m ((c : Thread nD τ).loc main_arg3) : S1024x64.Idx → EReal)⟩,
         ⟨S1x1024x64, broadcastInDim S1x1024x64 (![1, 2] : Fin 2 → Fin S1x1024x64.rank) bcast_S1024x64_S1x1024x64_1_2 (m ((c : Thread nD τ).loc main_arg0) : S1024x64.Idx → EReal)⟩]
        concatenates_S1x1024x64_S1x1024x64_S2x1024x64_d0 := by
  dsimp only [Gen.V5, Gen.W5, Gen.W4, Gen.W3, Gen.W2, Gen.W1, Gen.W0]
  simp only [hostOps0_4, hostOps0_3, hostOps0_2, hostOps0_1, hostOps0]
  after_results

set_option maxHeartbeats 8000000 in
/-- The stacked index words: each side's words, the trailing unit axis dropped, clipped, given a leading unit axis, joined along it. -/
theorem e_v17 (c : Dev nD) : (V5 m ρ c main_v17 : S2x1024x32.Idx → BitVec 32)
    = concatenate S2x1024x32 0
        [⟨S1x1024x32, broadcastInDim S1x1024x32 (![1, 2] : Fin 2 → Fin S1x1024x32.rank) bcast_S1024x32_S1x1024x32_1_2
            (clipv (shapeCast S1024x32 (m ((c : Thread nD τ).loc main_arg5) : S1024x32x1.Idx → BitVec 32) shapeCasts_S1024x32x1_S1024x32))⟩,
         ⟨S1x1024x32, broadcastInDim S1x1024x32 (![1, 2] : Fin 2 → Fin S1x1024x32.rank) bcast_S1024x32_S1x1024x32_1_2
            (clipv (shapeCast S1024x32 (m ((c : Thread nD τ).loc main_arg2) : S1024x32x1.Idx → BitVec 32) shapeCasts_S1024x32x1_S1024x32))⟩]
        concatenates_S1x1024x32_S1x1024x32_S2x1024x32_d0 := by
  dsimp only [Gen.V5, Gen.W5, Gen.W4, Gen.W3, Gen.W2, Gen.W1, Gen.W0]
  simp only [hostOps0_4, hostOps0_3, hostOps0_2, hostOps0_1, hostOps0]
  after_results <;> rfl

set_option maxHeartbeats 8000000 in
/-- The stacked edge means: each side's mean, given a leading unit axis, joined along it. -/
theorem e_v20 (c : Dev nD) : (V5 m ρ c main_v20 : S2x1024x32.Idx → EReal)
    = concatenate S2x1024x32 0
        [⟨S1x1024x32, broadcastInDim S1x1024x32 (![1, 2] : Fin 2 → Fin S1x1024x32.rank) bcast_S1024x32_S1x1024x32_1_2
            (meanv (m ((c : Thread nD τ).loc main_arg4) : S1024x32x32.Idx → EReal))⟩,
         ⟨S1x1024x32, broadcastInDim S1x1024x32 (![1, 2] : Fin 2 → Fin S1x1024x32.rank) bcast_S1024x32_S1x1024x32_1_2
            (meanv (m ((c : Thread nD τ).loc main_arg1) : S1024x32x32.Idx → EReal))⟩]
        concatenates_S1x1024x32_S1x1024x32_S2x1024x32_d0 := by
  dsimp only [Gen.V5, Gen.W5, Gen.W4, Gen.W3, Gen.W2, Gen.W1, Gen.W0]
  simp only [hostOps0_4, hostOps0_3, hostOps0_2, hostOps0_1, hostOps0]
  after_results <;> rfl

set_option maxHeartbeats 1000000 in
/-- The array `main_v21` is `main_arg6` transposed. -/
theorem e_v21 (c : Dev nD) : (V5 m ρ c main_v21 : S64x128.Idx → EReal)
    = transpose S64x128 [1, 0] (m ((c : Thread nD τ).loc main_arg6) : S128x64.Idx → EReal) transposes_S128x64_S64x128_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v22` is `main_arg7` transposed. -/
theorem e_v22 (c : Dev nD) : (V5 m ρ c main_v22 : S64x128.Idx → EReal)
    = transpose S64x128 [1, 0] (m ((c : Thread nD τ).loc main_arg7) : S128x64.Idx → EReal) transposes_S128x64_S64x128_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v23` is `main_arg8` transposed. -/
theorem e_v23 (c : Dev nD) : (V5 m ρ c main_v23 : S32x128.Idx → EReal)
    = transpose S32x128 [1, 0] (m ((c : Thread nD τ).loc main_arg8) : S128x32.Idx → EReal) transposes_S128x32_S32x128_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v24` is `main_arg9` transposed. -/
theorem e_v24 (c : Dev nD) : (V5 m ρ c main_v24 : S128x128.Idx → EReal)
    = transpose S128x128 [1, 0] (m ((c : Thread nD τ).loc main_arg9) : S128x128.Idx → EReal) transposes_S128x128_S128x128_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v25` is `main_arg10` transposed. -/
theorem e_v25 (c : Dev nD) : (V5 m ρ c main_v25 : S128x128.Idx → EReal)
    = transpose S128x128 [1, 0] (m ((c : Thread nD τ).loc main_arg10) : S128x128.Idx → EReal) transposes_S128x128_S128x128_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v26` is `main_arg11` transposed. -/
theorem e_v26 (c : Dev nD) : (V5 m ρ c main_v26 : S32x128.Idx → EReal)
    = transpose S32x128 [1, 0] (m ((c : Thread nD τ).loc main_arg11) : S128x32.Idx → EReal) transposes_S128x32_S32x128_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v27` is `main_arg12` transposed. -/
theorem e_v27 (c : Dev nD) : (V5 m ρ c main_v27 : S128x64.Idx → EReal)
    = transpose S128x64 [1, 0] (m ((c : Thread nD τ).loc main_arg12) : S64x128.Idx → EReal) transposes_S64x128_S128x64_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v28` is `main_arg13` transposed. -/
theorem e_v28 (c : Dev nD) : (V5 m ρ c main_v28 : S128x64.Idx → EReal)
    = transpose S128x64 [1, 0] (m ((c : Thread nD τ).loc main_arg13) : S64x128.Idx → EReal) transposes_S64x128_S128x64_1_0 := by
  dsimp only [Gen.V5, Gen.W5, Gen.W4, Gen.W3, Gen.W2, Gen.W1, Gen.W0]
  simp only [hostOps0_4, hostOps0_3, hostOps0_2, hostOps0_1, hostOps0]
  after_results

set_option maxHeartbeats 1000000 in
/-- The array `main_v29` is `main_arg14` transposed. -/
theorem e_v29 (c : Dev nD) : (V5 m ρ c main_v29 : S32x64.Idx → EReal)
    = transpose S32x64 [1, 0] (m ((c : Thread nD τ).loc main_arg14) : S64x32.Idx → EReal) transposes_S64x32_S32x64_1_0 := by
  dsimp only [Gen.V5, Gen.W5, Gen.W4, Gen.W3, Gen.W2, Gen.W1, Gen.W0]
  simp only [hostOps0_4, hostOps0_3, hostOps0_2, hostOps0_1, hostOps0]
  after_results

/-! ## The arrays at coordinates -/

theorem V5_x (c : Dev nD) (s : Fin 2) (n : Fin 1024) (f : Fin 64) :
    (V5 m ρ c main_v14 : S2x1024x64.Idx → EReal) (ix3 s n f)
      = if s = 0 then (m ((c : Thread nD τ).loc main_arg3) : S1024x64.Idx → EReal) (ix2 n f)
        else (m ((c : Thread nD τ).loc main_arg0) : S1024x64.Idx → EReal) (ix2 n f) := by
  rw [e_v14, stack_apply, lead_apply _ (by decide) (by decide), lead_apply _ (by decide) (by decide)]

theorem V5_ij (c : Dev nD) (h5 : InRange (m ((c : Thread nD τ).loc main_arg5))) (h2 : InRange (m ((c : Thread nD τ).loc main_arg2)))
    (s : Fin 2) (n : Fin 1024) (k : Fin 32) :
    (V5 m ρ c main_v17 : S2x1024x32.Idx → BitVec 32) (ix3 s n k)
      = if s = 0 then (m ((c : Thread nD τ).loc main_arg5) : S1024x32x1.Idx → BitVec 32) (ix3 n k 0)
        else (m ((c : Thread nD τ).loc main_arg2) : S1024x32x1.Idx → BitVec 32) (ix3 n k 0) := by
  rw [e_v17, stack_apply, lead_apply _ (by decide) (by decide), lead_apply _ (by decide) (by decide),
    clipv_apply, clipv_apply, dropLast_apply, dropLast_apply, clip_word _ (h5 n k), clip_word _ (h2 n k)]

theorem V5_xe (c : Dev nD) (s : Fin 2) (n : Fin 1024) (d : Fin 32) :
    (V5 m ρ c main_v20 : S2x1024x32.Idx → EReal) (ix3 s n d)
      = if s = 0 then edgeMean (cur3 (m ((c : Thread nD τ).loc main_arg4) : S1024x32x32.Idx → EReal)) n d
        else edgeMean (cur3 (m ((c : Thread nD τ).loc main_arg1) : S1024x32x32.Idx → EReal)) n d := by
  rw [e_v20, stack_apply, lead_apply _ (by decide) (by decide), lead_apply _ (by decide) (by decide), mean_apply, mean_apply]

theorem V5_w21 (c : Dev nD) : cur2 (V5 m ρ c main_v21 : S64x128.Idx → EReal) = fun f o => cur2 (m ((c : Thread nD τ).loc main_arg6) : S128x64.Idx → EReal) o f := by
  funext f o
  show (V5 m ρ c main_v21 : S64x128.Idx → EReal) (ix2 f o) = (m ((c : Thread nD τ).loc main_arg6) : S128x64.Idx → EReal) (ix2 o f)
  rw [e_v21]
  exact transpose_ix2_apply _ _ f o
theorem V5_w22 (c : Dev nD) : cur2 (V5 m ρ c main_v22 : S64x128.Idx → EReal) = fun f o => cur2 (m ((c : Thread nD τ).loc main_arg7) : S128x64.Idx → EReal) o f := by
  funext f o
  show (V5 m ρ c main_v22 : S64x128.Idx → EReal) (ix2 f o) = (m ((c : Thread nD τ).loc main_arg7) : S128x64.Idx → EReal) (ix2 o f)
  rw [e_v22]
  exact transpose_ix2_apply _ _ f o
theorem V5_w23 (c : Dev nD) : cur2 (V5 m ρ c main_v23 : S32x128.Idx → EReal) = fun f o => cur2 (m ((c : Thread nD τ).loc main_arg8) : S128x32.Idx → EReal) o f := by
  funext f o
  show (V5 m ρ c main_v23 : S32x128.Idx → EReal) (ix2 f o) = (m ((c : Thread nD τ).loc main_arg8) : S128x32.Idx → EReal) (ix2 o f)
  rw [e_v23]
  exact transpose_ix2_apply _ _ f o
theorem V5_w24 (c : Dev nD) : cur2 (V5 m ρ c main_v24 : S128x128.Idx → EReal) = fun f o => cur2 (m ((c : Thread nD τ).loc main_arg9) : S128x128.Idx → EReal) o f := by
  funext f o
  show (V5 m ρ c main_v24 : S128x128.Idx → EReal) (ix2 f o) = (m ((c : Thread nD τ).loc main_arg9) : S128x128.Idx → EReal) (ix2 o f)
  rw [e_v24]
  exact transpose_ix2_apply _ _ f o
theorem V5_w25 (c : Dev nD) : cur2 (V5 m ρ c main_v25 : S128x128.Idx → EReal) = fun f o => cur2 (m ((c : Thread nD τ).loc main_arg10) : S128x128.Idx → EReal) o f := by
  funext f o
  show (V5 m ρ c main_v25 : S128x128.Idx → EReal) (ix2 f o) = (m ((c : Thread nD τ).loc main_arg10) : S128x128.Idx → EReal) (ix2 o f)
  rw [e_v25]
  exact transpose_ix2_apply _ _ f o
theorem V5_w26 (c : Dev nD) : cur2 (V5 m ρ c main_v26 : S32x128.Idx → EReal) = fun f o => cur2 (m ((c : Thread nD τ).loc main_arg11) : S128x32.Idx → EReal) o f := by
  funext f o
  show (V5 m ρ c main_v26 : S32x128.Idx → EReal) (ix2 f o) = (m ((c : Thread nD τ).loc main_arg11) : S128x32.Idx → EReal) (ix2 o f)
  rw [e_v26]
  exact transpose_ix2_apply _ _ f o
theorem V5_w27 (c : Dev nD) : cur2 (V5 m ρ c main_v27 : S128x64.Idx → EReal) = fun f o => cur2 (m ((c : Thread nD τ).loc main_arg12) : S64x128.Idx → EReal) o f := by
  funext f o
  show (V5 m ρ c main_v27 : S128x64.Idx → EReal) (ix2 f o) = (m ((c : Thread nD τ).loc main_arg12) : S64x128.Idx → EReal) (ix2 o f)
  rw [e_v27]
  exact transpose_ix2_apply _ _ f o
theorem V5_w28 (c : Dev nD) : cur2 (V5 m ρ c main_v28 : S128x64.Idx → EReal) = fun f o => cur2 (m ((c : Thread nD τ).loc main_arg13) : S64x128.Idx → EReal) o f := by
  funext f o
  show (V5 m ρ c main_v28 : S128x64.Idx → EReal) (ix2 f o) = (m ((c : Thread nD τ).loc main_arg13) : S64x128.Idx → EReal) (ix2 o f)
  rw [e_v28]
  exact transpose_ix2_apply _ _ f o
theorem V5_w29 (c : Dev nD) : cur2 (V5 m ρ c main_v29 : S32x64.Idx → EReal) = fun f o => cur2 (m ((c : Thread nD τ).loc main_arg14) : S64x32.Idx → EReal) o f := by
  funext f o
  show (V5 m ρ c main_v29 : S32x64.Idx → EReal) (ix2 f o) = (m ((c : Thread nD τ).loc main_arg14) : S64x32.Idx → EReal) (ix2 o f)
  rw [e_v29]
  exact transpose_ix2_apply _ _ f o

end Cert.KernelIdeal.KV

end
-- ==== Proof.KHost1.lean ====
/-
  Between the two regions and after the second: the dense region is entered with U = ½ · A1 · (left side's
  convolution output) and V = ½ · A1 · (right side's), its two weight arrays the program's arguments unchanged;
  and the program's result is the dense region's output array flattened row-major over the pair (i, j).
-/
import proofs.«429352_j49331994362309_3_alg».proof.Proof.Gen.KernelIdeal.Frame
import proofs.«429352_j49331994362309_3_alg».proof.Proof.Cur
import Idealize.ShloMosaic.Lib.ValueIdx
import Idealize.ShloMosaic.Lib.Pipeline.Value
import Idealize.ShloMosaic.PureOps.Ideal.Laws
import Idealize.ShloMosaic.Lib.StableHlo.Run
set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Cur

variable (m : (ℓ : Loc nD τ sig) → Buf (Elt Ideal) ℓ) (ρ : Dev nD → PrngReg)

/-- The first dense weight matrix as launched, at its literal type. -/
abbrev a1Arr (c : Dev nD) : S128x64.Idx → EReal := m ((c : Thread nD τ).loc main_arg15)
/-- The convolution region's output array (side, feature, node), at its literal type. -/
abbrev convOut (c : Dev nD) : S2x64x1024.Idx → EReal := (dat0 (F := Ideal) (V5 m ρ) c).arrAt 12 cfg0.N
/-- The dense region's two first operands as it finds them, at their literal types. -/
abbrev uArr (c : Dev nD) : S128x1024.Idx → EReal := V7 m ρ c main_v38
abbrev vArr (c : Dev nD) : S128x1024.Idx → EReal := V7 m ρ c main_v42

/-- A buffer that none of a list of host operations writes holds afterwards what it held before. -/
local macro "keeps_buffer " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.reshape_writes, Finset.mem_singleton]
      repeat' apply And.intro
      all_goals exact StableHlo.devRef_ne_of_ne (by decide))))

/-! ## The pieces of the host's computation, read at an index -/

/-- The word 0x3F000000 is the real one half. -/
theorem ofBits_half : Ideal.ofBits .f32 0x3F000000#32 = half := by
  unfold half
  simp [Ideal.ofBits, Ideal.ieee, -EReal.coe_mul]; norm_num

/-- The broadcast of that constant holds one half everywhere. -/
theorem halfVec_apply (j : S128x1024.Idx) :
    broadcastInDim S128x1024 ![] bcast_S_S128x1024 (constant (F := Ideal) S_ .f32 0x3F000000#32) j = half := by
  rw [broadcastInDim_apply ![] bcast_S_S128x1024 _ j ix0 (fun a => a.elim0), constant_apply, ofBits_half]

/-! The product's record contracts the left operand's axis 1 with the right operand's axis 0: at output index i and
    contraction index q the left operand is read at (i 0, q) and the right at (q, i 1). -/

theorem lhs_dotA1_0 (i : S128x1024.Idx) (q : dot_S128x64_S64x1024_S128x1024_1_0_0_1_n_n.contr.Idx) :
    (dot_S128x64_S64x1024_S128x1024_1_0_0_1_n_n.lhsIdx i q 0).val = (i 0).val := by
  unfold DotDims.lhsIdx
  rw [dif_neg (show ¬(0 : Fin S128x64.rank) ∈ dot_S128x64_S64x1024_S128x1024_1_0_0_1_n_n.lhsBatch by decide), dif_pos (show (0 : Fin S128x64.rank) ∈ dot_S128x64_S64x1024_S128x1024_1_0_0_1_n_n.lhsNonContracting by decide)]
  rfl
theorem lhs_dotA1_1 (i : S128x1024.Idx) (q : dot_S128x64_S64x1024_S128x1024_1_0_0_1_n_n.contr.Idx) :
    (dot_S128x64_S64x1024_S128x1024_1_0_0_1_n_n.lhsIdx i q 1).val = (q ⟨0, by decide⟩).val :=
  dot_S128x64_S64x1024_S128x1024_1_0_0_1_n_n.lhsIdx_val_of_single rfl i q
theorem rhs_dotA1_0 (i : S128x1024.Idx) (q : dot_S128x64_S64x1024_S128x1024_1_0_0_1_n_n.contr.Idx) :
    (dot_S128x64_S64x1024_S128x1024_1_0_0_1_n_n.rhsIdx i q 0).val = (q ⟨0, by decide⟩).val :=
  dot_S128x64_S64x1024_S128x1024_1_0_0_1_n_n.rhsIdx_val_of_single rfl i q
theorem rhs_dotA1_1 (i : S128x1024.Idx) (q : dot_S128x64_S64x1024_S128x1024_1_0_0_1_n_n.contr.Idx) :
    (dot_S128x64_S64x1024_S128x1024_1_0_0_1_n_n.rhsIdx i q 1).val = (i 1).val := by
  unfold DotDims.rhsIdx
  rw [dif_neg (show ¬(1 : Fin S64x1024.rank) ∈ dot_S128x64_S64x1024_S128x1024_1_0_0_1_n_n.rhsBatch by decide), dif_pos (show (1 : Fin S64x1024.rank) ∈ dot_S128x64_S64x1024_S128x1024_1_0_0_1_n_n.rhsNonContracting by decide)]
  rfl

/-- The host's product of a (128, 64) matrix with a (64, 1024) matrix, at entry (d, i): the sum over the 64 features. -/
theorem dotA1_apply (a : FVec Ideal S128x64 .f32) (y : FVec Ideal S64x1024 .f32) (d : Fin 128) (i : Fin 1024) :
    Host.dotGeneral (F := Ideal) dot_S128x64_S64x1024_S128x1024_1_0_0_1_n_n none a y (ix2 d i) = ∑ f : Fin 64, a (ix2 d f) * y (ix2 f i) := by
  simp only [Host.dotGeneral]
  rw [Ideal.dotGeneral_apply, ← Equiv.sum_comp (ValueIdx.contrEquiv1 dot_S128x64_S64x1024_S128x1024_1_0_0_1_n_n 64 rfl rfl).symm]
  refine Finset.sum_congr rfl fun k _ => ?_
  have hk := ValueIdx.contrEquiv1_symm_val dot_S128x64_S64x1024_S128x1024_1_0_0_1_n_n 64 rfl rfl k
  have el : dot_S128x64_S64x1024_S128x1024_1_0_0_1_n_n.lhsIdx (ix2 d i) ((ValueIdx.contrEquiv1 dot_S128x64_S64x1024_S128x1024_1_0_0_1_n_n 64 rfl rfl).symm k) = ix2 d k := funext fun a => Fin.ext (by
    match a with
    | ⟨0, _⟩ => exact lhs_dotA1_0 _ _
    | ⟨1, _⟩ => exact (lhs_dotA1_1 _ _).trans hk)
  have er : dot_S128x64_S64x1024_S128x1024_1_0_0_1_n_n.rhsIdx (ix2 d i) ((ValueIdx.contrEquiv1 dot_S128x64_S64x1024_S128x1024_1_0_0_1_n_n 64 rfl rfl).symm k) = ix2 k i := funext fun a => Fin.ext (by
    match a with
    | ⟨0, _⟩ => exact (rhs_dotA1_0 _ _).trans hk
    | ⟨1, _⟩ => exact rhs_dotA1_1 _ _)
  rw [el, er]

/-- One side's slab of the (side, feature, node) array, reshaped to (feature, node), at entry (f, i). -/
theorem slab_apply {α : Type} (x : S2x64x1024.Idx → α) (off : Fin S2x64x1024.rank → Nat) (h : S2x64x1024.Slices off S1x64x1024)
    (s : Fin 2) (h0 : off 0 = s.val) (h1 : off 1 = 0) (h2 : off 2 = 0) (f : Fin 64) (i : Fin 1024) :
    shapeCast S64x1024 (extractStridedSlice S1x64x1024 off x h) shapeCasts_S1x64x1024_S64x1024 (ix2 f i) = x (ix3 s f i) := by
  refine (shapeCast_apply _ shapeCasts_S1x64x1024_S64x1024 (ix2 f i) (ix3 (0 : Fin 1) f i) ?_).trans ?_
  · rw [Shape.rowMajor_val_three, Shape.rowMajor_val_two]
    show ((0 : Fin 1).val * 64 + f.val) * 1024 + i.val = f.val * 1024 + i.val
    have : (0 : Fin 1).val = 0 := rfl
    omega
  · exact extractStridedSlice_apply off x h (ix3 (0 : Fin 1) f i) (ix3 s f i) (fun a => match a with
      | ⟨0, _⟩ => by show s.val = off 0 + (0 : Fin 1).val; have : (0 : Fin 1).val = 0 := rfl; omega
      | ⟨1, _⟩ => by show f.val = off 1 + f.val; omega
      | ⟨2, _⟩ => by show i.val = off 2 + i.val; omega)

/-- What the host computes from the first dense weights and one side's slab of the convolution output. -/
def hostHalf (off : Fin S2x64x1024.rank → Nat) (h : S2x64x1024.Slices off S1x64x1024) (a : FVec Ideal S128x64 .f32)
    (x : FVec Ideal S2x64x1024 .f32) : FVec Ideal S128x1024 .bf16 :=
  truncf (F := Ideal) .bf16
    (mulf (broadcastInDim S128x1024 ![] bcast_S_S128x1024 (constant (F := Ideal) S_ .f32 0x3F000000#32))
      (Host.dotGeneral (F := Ideal) dot_S128x64_S64x1024_S128x1024_1_0_0_1_n_n none a
        (shapeCast S64x1024 (extractStridedSlice S1x64x1024 off x h) shapeCasts_S1x64x1024_S64x1024)))
    bitsLt_bf16_f32

/-- At entry (d, i) it is one half of row d of the weights against column i of the slab of side s. -/
theorem hostHalf_apply (off : Fin S2x64x1024.rank → Nat) (h : S2x64x1024.Slices off S1x64x1024) (a : FVec Ideal S128x64 .f32)
    (x : FVec Ideal S2x64x1024 .f32) (s : Fin 2) (h0 : off 0 = s.val) (h1 : off 1 = 0) (h2 : off 2 = 0) (d : Fin 128) (i : Fin 1024) :
    hostHalf off h a x (ix2 d i) = half * ∑ f : Fin 64, a (ix2 d f) * x (ix3 s f i) := by
  unfold hostHalf
  rw [truncf_apply, mulf_apply, halfVec_apply, dotA1_apply]
  refine congrArg (half * ·) (Finset.sum_congr rfl fun f _ => ?_)
  rw [slab_apply x off h s h0 h1 h2 f i]

/-! ## The buffers between the regions -/

/-- No host operation and no region writes the first dense weight matrix: after the convolution region it is as launched. -/
theorem W6_a1 (c : Dev nD) : (W6 m ρ c (Proc.devRef .tc main_arg15) : S128x64.Idx → EReal) = a1Arr m c :=
  calc (W6 m ρ c (Proc.devRef .tc main_arg15) : S128x64.Idx → EReal)
    _ = W7 m ρ c (Proc.devRef .tc main_arg15) := Eq.symm (by keeps_buffer hostOps1)
    _ = W8 m ρ c (Proc.devRef .tc main_arg15) := (W8_of_ne m ρ c main_arg15 (by decide)).symm
    _ = W9 m ρ c (Proc.devRef .tc main_arg15) := Eq.symm (by keeps_buffer hostOps2)
    _ = a1Arr m c := W9_main_arg15 m ρ c

/-- After the convolution region its output buffer holds the region's output array. -/
theorem W6_conv (c : Dev nD) : (W6 m ρ c (Proc.devRef .tc main_v30) : S2x64x1024.Idx → EReal) = convOut m ρ c :=
  W6_arr m ρ c 12

theorem V7_u (c : Dev nD) (d : Fin 128) (i : Fin 1024) :
    uArr m ρ c (ix2 d i) = half * ∑ f : Fin 64, a1Arr m c (ix2 d f) * convOut m ρ c (ix3 (0 : Fin 2) f i) := by
  have e : uArr m ρ c = hostHalf ![0, 0, 0] slices_S2x64x1024_S1x64x1024_0_0_0 (W6 m ρ c (Proc.devRef .tc main_arg15))
      (W6 m ρ c (Proc.devRef .tc main_v30)) := by
    show StableHlo.after hostOps1 _ (Proc.devRef .tc main_v38) = _
    simp only [hostOps1]
    after_results
    rfl
  rw [e, hostHalf_apply ![0, 0, 0] slices_S2x64x1024_S1x64x1024_0_0_0 _ _ (0 : Fin 2) rfl rfl rfl d i, W6_a1, W6_conv]

theorem V7_v (c : Dev nD) (d : Fin 128) (j : Fin 1024) :
    vArr m ρ c (ix2 d j) = half * ∑ f : Fin 64, a1Arr m c (ix2 d f) * convOut m ρ c (ix3 (1 : Fin 2) f j) := by
  have e : vArr m ρ c = hostHalf ![1, 0, 0] slices_S2x64x1024_S1x64x1024_1_0_0 (W6 m ρ c (Proc.devRef .tc main_arg15))
      (W6 m ρ c (Proc.devRef .tc main_v30)) := by
    show StableHlo.after hostOps1 _ (Proc.devRef .tc main_v42) = _
    simp only [hostOps1]
    after_results
    rfl
  rw [e, hostHalf_apply ![1, 0, 0] slices_S2x64x1024_S1x64x1024_1_0_0 _ _ (1 : Fin 2) rfl rfl rfl d j, W6_a1, W6_conv]

theorem V7_a2 (c : Dev nD) : (V7 m ρ c main_arg16 : S64x128.Idx → EReal) = m ((c : Thread nD τ).loc main_arg16) :=
  calc (V7 m ρ c main_arg16 : S64x128.Idx → EReal)
    _ = W8 m ρ c (Proc.devRef .tc main_arg16) :=
        ((W8_arr m ρ c 2).trans (((dat1 (V7 m ρ) c).arrAt_in 2 rfl _).trans (A_eq1 (V7 m ρ) c 2))).symm
    _ = W9 m ρ c (Proc.devRef .tc main_arg16) := Eq.symm (by keeps_buffer hostOps2)
    _ = m ((c : Thread nD τ).loc main_arg16) := W9_main_arg16 m ρ c

theorem V7_a3 (c : Dev nD) : (V7 m ρ c main_arg17 : S2x64.Idx → EReal) = m ((c : Thread nD τ).loc main_arg17) :=
  calc (V7 m ρ c main_arg17 : S2x64.Idx → EReal)
    _ = W8 m ρ c (Proc.devRef .tc main_arg17) :=
        ((W8_arr m ρ c 3).trans (((dat1 (V7 m ρ) c).arrAt_in 3 rfl _).trans (A_eq1 (V7 m ρ) c 3))).symm
    _ = W9 m ρ c (Proc.devRef .tc main_arg17) := Eq.symm (by keeps_buffer hostOps2)
    _ = m ((c : Thread nD τ).loc main_arg17) := W9_main_arg17 m ρ c

theorem W9_out (c : Dev nD) (q : S2x1048576.Idx) :
    (W9 m ρ c (Proc.devRef .tc main_v44) : S2x1048576.Idx → EReal) q
      = (dat1 (F := Ideal) (V7 m ρ) c).arrAt 4 cfg1.N
          (ix3 (⟨(q 0).val, idx2_lt0 q⟩ : Fin 2) (⟨(q 1).val / 1024, by have := idx2_lt1 q; omega⟩ : Fin 1024)
            (⟨(q 1).val % 1024, Nat.mod_lt _ (by decide)⟩ : Fin 1024)) := by
  have e : (W9 m ρ c (Proc.devRef .tc main_v44) : S2x1048576.Idx → EReal)
      = shapeCast S2x1048576 (W8 m ρ c (Proc.devRef .tc main_v43) : S2x1024x1024.Idx → EReal)
          shapeCasts_S2x1024x1024_S2x1048576 := by
    show StableHlo.after hostOps2 _ (Proc.devRef .tc main_v44) = _
    simp only [hostOps2]
    after_results
    rfl
  have h0 := idx2_lt0 q
  have h1 := idx2_lt1 q
  rw [e]
  refine (shapeCast_apply _ shapeCasts_S2x1024x1024_S2x1048576 q
    (ix3 (⟨(q 0).val, idx2_lt0 q⟩ : Fin 2) (⟨(q 1).val / 1024, by have := idx2_lt1 q; omega⟩ : Fin 1024)
      (⟨(q 1).val % 1024, Nat.mod_lt _ (by decide)⟩ : Fin 1024)) ?_).trans ?_
  · rw [Shape.rowMajor_val_three, Shape.rowMajor_val_two]
    show ((q 0).val * 1024 + (q 1).val / 1024) * 1024 + (q 1).val % 1024 = (q 0).val * 1048576 + (q 1).val
    omega
  · exact congrFun (W8_arr m ρ c 4) _

end Cert.KernelIdeal.KV

end
-- ==== Proof.KValue.lean ====
/-
  The fused program's result, assembled: the result array is the dense region's output flattened; the dense
  region is entered with U and V, halves of A1 applied to the convolution region's two output sides; the
  convolution region's output side s is three layers, in the fused layout, of side s's stored arguments —
  which is the matrix-product arrangement of the network of the arguments.
-/
import proofs.«429352_j49331994362309_3_alg».proof.Proof.Gen.KernelIdeal.Frame
import proofs.«429352_j49331994362309_3_alg».proof.Proof.Cur
import Idealize.ShloMosaic.Lib.ValueIdx
import Idealize.ShloMosaic.Lib.Pipeline.Value
import Idealize.ShloMosaic.PureOps.Ideal.Laws
import proofs.«429352_j49331994362309_3_alg».proof.Proof.KConv
import proofs.«429352_j49331994362309_3_alg».proof.Proof.KDense
import proofs.«429352_j49331994362309_3_alg».proof.Proof.KHost0
import proofs.«429352_j49331994362309_3_alg».proof.Proof.KHost1
import proofs.«429352_j49331994362309_3_alg».proof.Proof.Algebra
set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.Spec Cert.Cur

variable (m : (ℓ : Loc nD τ sig) → Buf (Elt Ideal) ℓ) (ρ : Dev nD → PrngReg)

/-- The convolution region's left side (side 0) is the left graph's three layers. -/
theorem conv_left (c : Dev nD) (h5 : InRange (m ((c : Thread nD τ).loc main_arg5))) (h2 : InRange (m ((c : Thread nD τ).loc main_arg2))) (f : Fin 64) (i : Fin 1024) :
    convOut m ρ c (ix3 (0 : Fin 2) f i)
      = sideM (cur2 (m ((c : Thread nD τ).loc main_arg3))) (cur3 (m ((c : Thread nD τ).loc main_arg4))) (nbr (m ((c : Thread nD τ).loc main_arg5))) (cur2 (m ((c : Thread nD τ).loc main_arg6))) (cur2 (m ((c : Thread nD τ).loc main_arg7))) (cur2 (m ((c : Thread nD τ).loc main_arg8)))
          (cur2 (m ((c : Thread nD τ).loc main_arg9))) (cur2 (m ((c : Thread nD τ).loc main_arg10))) (cur2 (m ((c : Thread nD τ).loc main_arg11))) (cur2 (m ((c : Thread nD τ).loc main_arg12))) (cur2 (m ((c : Thread nD τ).loc main_arg13))) (cur2 (m ((c : Thread nD τ).loc main_arg14))) i f := by
  show (dat0 (F := Ideal) (V5 m ρ) c).arrAt 12 cfg0.N (ix3 (0 : Fin 2) f i) = _
  rw [reg0_array (V5 m ρ) c 0 f i]
  have e14 : (fun (n : Fin 1024) (f : Fin 64) => (V5 m ρ c main_v14 : S2x1024x64.Idx → EReal) (ix3 (0 : Fin 2) n f)) = cur2 (m ((c : Thread nD τ).loc main_arg3)) := by
    funext n f; rw [V5_x m ρ c 0 n f, if_pos rfl]; rfl
  have e20 : (fun (n : Fin 1024) (d : Fin 32) => (V5 m ρ c main_v20 : S2x1024x32.Idx → EReal) (ix3 (0 : Fin 2) n d)) = edgeMean (cur3 (m ((c : Thread nD τ).loc main_arg4))) := by
    funext n d; rw [V5_xe m ρ c 0 n d, if_pos rfl]
  have e17 : (fun (n : Fin 1024) (k : Fin 32) => (V5 m ρ c main_v17 : S2x1024x32.Idx → BitVec 32) (ix3 (0 : Fin 2) n k))
      = fun n k => ((m ((c : Thread nD τ).loc main_arg5)) : S1024x32x1.Idx → BitVec 32) (ix3 n k 0) := by
    funext n k; rw [V5_ij m ρ c h5 h2 0 n k, if_pos rfl]
  rw [e14, e20, e17, V5_w21, V5_w22, V5_w23, V5_w24, V5_w25, V5_w26, V5_w27, V5_w28, V5_w29, cntMat_eq_nbrMat _ h5]
  rfl

/-- The convolution region's right side (side 1) is the right graph's three layers. -/
theorem conv_right (c : Dev nD) (h5 : InRange (m ((c : Thread nD τ).loc main_arg5))) (h2 : InRange (m ((c : Thread nD τ).loc main_arg2))) (f : Fin 64) (j : Fin 1024) :
    convOut m ρ c (ix3 (1 : Fin 2) f j)
      = sideM (cur2 (m ((c : Thread nD τ).loc main_arg0))) (cur3 (m ((c : Thread nD τ).loc main_arg1))) (nbr (m ((c : Thread nD τ).loc main_arg2))) (cur2 (m ((c : Thread nD τ).loc main_arg6))) (cur2 (m ((c : Thread nD τ).loc main_arg7))) (cur2 (m ((c : Thread nD τ).loc main_arg8)))
          (cur2 (m ((c : Thread nD τ).loc main_arg9))) (cur2 (m ((c : Thread nD τ).loc main_arg10))) (cur2 (m ((c : Thread nD τ).loc main_arg11))) (cur2 (m ((c : Thread nD τ).loc main_arg12))) (cur2 (m ((c : Thread nD τ).loc main_arg13))) (cur2 (m ((c : Thread nD τ).loc main_arg14))) j f := by
  show (dat0 (F := Ideal) (V5 m ρ) c).arrAt 12 cfg0.N (ix3 (1 : Fin 2) f j) = _
  rw [reg0_array (V5 m ρ) c 1 f j]
  have e14 : (fun (n : Fin 1024) (f : Fin 64) => (V5 m ρ c main_v14 : S2x1024x64.Idx → EReal) (ix3 (1 : Fin 2) n f)) = cur2 (m ((c : Thread nD τ).loc main_arg0)) := by
    funext n f; rw [V5_x m ρ c 1 n f, if_neg (by decide)]; rfl
  have e20 : (fun (n : Fin 1024) (d : Fin 32) => (V5 m ρ c main_v20 : S2x1024x32.Idx → EReal) (ix3 (1 : Fin 2) n d)) = edgeMean (cur3 (m ((c : Thread nD τ).loc main_arg1))) := by
    funext n d; rw [V5_xe m ρ c 1 n d, if_neg (by decide)]
  have e17 : (fun (n : Fin 1024) (k : Fin 32) => (V5 m ρ c main_v17 : S2x1024x32.Idx → BitVec 32) (ix3 (1 : Fin 2) n k))
      = fun n k => ((m ((c : Thread nD τ).loc main_arg2)) : S1024x32x1.Idx → BitVec 32) (ix3 n k 0) := by
    funext n k; rw [V5_ij m ρ c h5 h2 1 n k, if_neg (by decide)]
  rw [e14, e20, e17, V5_w21, V5_w22, V5_w23, V5_w24, V5_w25, V5_w26, V5_w27, V5_w28, V5_w29, cntMat_eq_nbrMat _ h2]
  rfl

/-- THE RESULT: the fused program's result array is the matrix-product arrangement of the network, laid out flat. -/
theorem result (c : Dev nD) (h5 : InRange (m ((c : Thread nD τ).loc main_arg5))) (h2 : InRange (m ((c : Thread nD τ).loc main_arg2))) :
    (W9 m ρ c (Proc.devRef .tc main_v44) : S2x1048576.Idx → EReal)
      = flat (netM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  funext q
  rw [W9_out m ρ c q, reg1_array (V7 m ρ) c]
  have eU : cur2 (V7 m ρ c main_v38 : S128x1024.Idx → EReal)
      = fun d i => half * ∑ f : Fin 64, cur2 (a1Arr m c) d f
          * sideM (cur2 (m ((c : Thread nD τ).loc main_arg3))) (cur3 (m ((c : Thread nD τ).loc main_arg4))) (nbr (m ((c : Thread nD τ).loc main_arg5))) (cur2 (m ((c : Thread nD τ).loc main_arg6))) (cur2 (m ((c : Thread nD τ).loc main_arg7))) (cur2 (m ((c : Thread nD τ).loc main_arg8)))
              (cur2 (m ((c : Thread nD τ).loc main_arg9))) (cur2 (m ((c : Thread nD τ).loc main_arg10))) (cur2 (m ((c : Thread nD τ).loc main_arg11))) (cur2 (m ((c : Thread nD τ).loc main_arg12))) (cur2 (m ((c : Thread nD τ).loc main_arg13))) (cur2 (m ((c : Thread nD τ).loc main_arg14))) i f := by
    funext d i
    show uArr m ρ c (ix2 d i) = _
    rw [V7_u m ρ c d i]
    refine congrArg (half * ·) (Finset.sum_congr rfl fun f _ => ?_)
    rw [conv_left m ρ c h5 h2 f i]; rfl
  have eV : cur2 (V7 m ρ c main_v42 : S128x1024.Idx → EReal)
      = fun d j => half * ∑ f : Fin 64, cur2 (a1Arr m c) d f
          * sideM (cur2 (m ((c : Thread nD τ).loc main_arg0))) (cur3 (m ((c : Thread nD τ).loc main_arg1))) (nbr (m ((c : Thread nD τ).loc main_arg2))) (cur2 (m ((c : Thread nD τ).loc main_arg6))) (cur2 (m ((c : Thread nD τ).loc main_arg7))) (cur2 (m ((c : Thread nD τ).loc main_arg8)))
              (cur2 (m ((c : Thread nD τ).loc main_arg9))) (cur2 (m ((c : Thread nD τ).loc main_arg10))) (cur2 (m ((c : Thread nD τ).loc main_arg11))) (cur2 (m ((c : Thread nD τ).loc main_arg12))) (cur2 (m ((c : Thread nD τ).loc main_arg13))) (cur2 (m ((c : Thread nD τ).loc main_arg14))) j f := by
    funext d j
    show vArr m ρ c (ix2 d j) = _
    rw [V7_v m ρ c d j]
    refine congrArg (half * ·) (Finset.sum_congr rfl fun f _ => ?_)
    rw [conv_right m ρ c h5 h2 f j]; rfl
  rw [eU, eV, V7_a2 m ρ c, V7_a3 m ρ c]
  rfl

end Cert.KernelIdeal.KV

end
-- ==== Proof.lean ====
/-
  Kernel and reference compute one function of the arguments, over the extended reals, wherever every float
  argument is finite and every neighbour index is a node number.

  The network: three graph-convolution layers on each of two graphs (1024 nodes, 32 neighbour slots), then all
  1024 × 1024 pairs (i, j) of a left and a right node merged by the mean ½(xl_i + xr_j) and passed through
  three dense layers with relu.

  The reference gathers each node's 32 neighbour rows and averages them. The kernel multiplies by the
  1024 × 1024 mean-neighbour matrix, whose (n, j) entry is the number of slots of node n that point at j,
  over 32: the product's row n is the same average, because each slot contributes its row exactly once and
  the factor 1/32 moves across a finite sum of real numbers. The reference forms the merged pair and applies
  A1; the kernel applies A1 to each side first, halves, and adds, which is the same by distributivity —
  again a law of the real numbers, not of the infinities, which is where finiteness of the inputs is used;
  every layer of real inputs has real outputs, so the laws apply at every depth.

  The index range is used for the neighbour itself: the reference wraps a negative index and clamps, the
  kernel clips into [0, 1023]; on a node number both are the number.

  The modules: Spec (the mathematics, both arrangements), Algebra (they agree on real inputs), PreFacts (the
  precondition decoded), RefSide / RefValue (the reference's result is the gather arrangement), KCount / KConv /
  KDense / KHost0 / KHost1 / KValue (the fused program's result is the matrix arrangement), KRun (its run with
  the result named).
-/
import proofs.«429352_j49331994362309_3_alg».proof.Defs
import proofs.«429352_j49331994362309_3_alg».proof.Proof.Gen.Kernel
import proofs.«429352_j49331994362309_3_alg».proof.Proof.Gen.Kernel.Skeleton
import proofs.«429352_j49331994362309_3_alg».proof.Proof.Gen.Kernel.Launch
import proofs.«429352_j49331994362309_3_alg».proof.Proof.Gen.Kernel.Points
import proofs.«429352_j49331994362309_3_alg».proof.Proof.Gen.Kernel.Frame
import proofs.«429352_j49331994362309_3_alg».proof.Proof.Gen.KernelIdeal
import proofs.«429352_j49331994362309_3_alg».proof.Proof.Gen.KernelIdeal.Skeleton
import proofs.«429352_j49331994362309_3_alg».proof.Proof.Gen.KernelIdeal.Launch
import proofs.«429352_j49331994362309_3_alg».proof.Proof.Gen.KernelIdeal.Points
import proofs.«429352_j49331994362309_3_alg».proof.Proof.Gen.KernelIdeal.Frame
import proofs.«429352_j49331994362309_3_alg».proof.Proof.Gen.ReferenceIdeal
import proofs.«429352_j49331994362309_3_alg».proof.Proof.Gen.Pre_finite_inputs
import proofs.«429352_j49331994362309_3_alg».proof.Proof.Gen.ReferenceIdeal.Run
import proofs.«429352_j49331994362309_3_alg».proof.Proof.Gen.ReferenceIdeal.Read
import proofs.«429352_j49331994362309_3_alg».proof.Proof.PreFacts
import proofs.«429352_j49331994362309_3_alg».proof.Proof.Algebra
import proofs.«429352_j49331994362309_3_alg».proof.Proof.RefValue
import proofs.«429352_j49331994362309_3_alg».proof.Proof.KRun
import proofs.«429352_j49331994362309_3_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem Cert.Spec Cert.Cur

/-- Both idealized programs end with the network of the arguments in the result array: the fused program with
    the matrix arrangement, which on real arguments is the gather arrangement the reference ends with. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hf := fun c : Dev Cert.KernelIdeal.nD => Cert.PreFacts.of_pre (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17)) (hpre c)
  refine ⟨fun c => flat (netG (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))), ?_, ?_⟩
  · refine (θ_run Cert.KernelIdeal.defs _ _).mono (fun r h c => ⟨?_, (h c).2⟩) (Cert.KernelIdeal.KRun.run (F := Ideal) m g)
    obtain ⟨h0, h1, h2, h3, h4, h5, h6, h7, h8, h9, h10, h11, h12, h13, h14, h15, -, -⟩ := hf c
    rw [(h c).1]
    refine (Cert.KernelIdeal.KV.result m g c h5 h2).trans ?_
    exact congrArg flat (netM_eq_netG _ _ _ _ _ _ _ _ _ _ _ _ _ _ _ _ _ _ h0 h1 h3 h4 h6 h7 h8 h9 h10 h11 h12 h13 h14 h15)
  · refine (θ_run Cert.ReferenceIdeal.defs _ _).mono (fun r h c => ⟨?_, (h c).2⟩) (Cert.ReferenceIdeal.Value.run (F := Ideal) m' g')
    obtain ⟨-, -, h2, -, -, h5, -⟩ := hf c
    obtain ⟨e0, e1, e2, e3, e4, e5, e6, e7, e8, e9, e10, e11, e12, e13, e14, e15, e16, e17⟩ := hagree c
    rw [(h c).1]
    refine (Cert.RefValue.result m' c (by rw [e5]; exact h5) (by rw [e2]; exact h2)).trans ?_
    rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
